-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256 : Shape := ⟨2, ![32, 256]⟩
abbrev S1024x256 : Shape := ⟨2, ![1024, 256]⟩
abbrev S1024 : Shape := ⟨1, ![1024]⟩
abbrev S1024x1024 : Shape := ⟨2, ![1024, 1024]⟩
abbrev S1000x1024 : Shape := ⟨2, ![1000, 1024]⟩
abbrev S1000 : Shape := ⟨1, ![1000]⟩
abbrev S64000x1024 : Shape := ⟨2, ![64000, 1024]⟩
abbrev S64000 : Shape := ⟨1, ![64000]⟩
abbrev S_ : Shape := ⟨0, ![]⟩

class Facts : Prop where
  bcast_S_S32x256 : S_.BroadcastsInDim S32x256 (![] : Fin 0 → Fin S32x256.rank)
  reducesTo_S32x256_S_d0_1 : S32x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1000x1024 : S_.BroadcastsInDim S1000x1024 (![] : Fin 0 → Fin S1000x1024.rank)
  reducesTo_S1000x1024_S_d0_1 : S1000x1024.ReducesTo [0, 1] S_
  bcast_S_S1000 : S_.BroadcastsInDim S1000 (![] : Fin 0 → Fin S1000.rank)
  reducesTo_S1000_S_d0 : S1000.ReducesTo [0] S_
  bcast_S_S64000x1024 : S_.BroadcastsInDim S64000x1024 (![] : Fin 0 → Fin S64000x1024.rank)
  reducesTo_S64000x1024_S_d0_1 : S64000x1024.ReducesTo [0, 1] S_
  bcast_S_S64000 : S_.BroadcastsInDim S64000 (![] : Fin 0 → Fin S64000.rank)
  reducesTo_S64000_S_d0 : S64000.ReducesTo [0] S_

variable [Facts]

def fn_part2 {F : FTy → Type} [FloatOps F] (main_arg7 : FVec F S64000x1024 .f32) (main_arg8 : FVec F S64000 .f32) (main_v33 : IVec S_ 1) : IVec S_ 1 :=
  let main_v34 : FVec F S64000x1024 .f32 := Host.absf main_arg7
  let main_cst_12 : FVec F S_ .f32 := constant S_ .f32 0x7F800000#32
  let main_v35 : FVec F S64000x1024 .f32 := broadcastInDim S64000x1024 ![] bcast_S_S64000x1024 main_cst_12
  let main_v36 : IVec S64000x1024 1 := cmpf .olt main_v34 main_v35
  let main_c_13 : IVec S_ 1 := constantI S_ 1 1#1
  let main_v37 : IVec S_ 1 := (fun x v => Host.reduce IntOp.andi x v reducesTo_S64000x1024_S_d0_1 h_S_) main_v36 main_c_13
  let main_v38 : IVec S_ 1 := andi main_v33 main_v37
  let main_v39 : FVec F S64000 .f32 := Host.absf main_arg8
  let main_cst_14 : FVec F S_ .f32 := constant S_ .f32 0x7F800000#32
  let main_v40 : FVec F S64000 .f32 := broadcastInDim S64000 ![] bcast_S_S64000 main_cst_14
  let main_v41 : IVec S64000 1 := cmpf .olt main_v39 main_v40
  let main_c_15 : IVec S_ 1 := constantI S_ 1 1#1
  let main_v42 : IVec S_ 1 := (fun x v => Host.reduce IntOp.andi x v reducesTo_S64000_S_d0 h_S_) main_v41 main_c_15
  let main_v43 : IVec S_ 1 := andi main_v38 main_v42
  main_v43

def fn_part1 {F : FTy → Type} [FloatOps F] (main_arg4 : FVec F S1024 .f32) (main_arg5 : FVec F S1000x1024 .f32) (main_arg6 : FVec F S1000 .f32) (main_arg7 : FVec F S64000x1024 .f32) (main_arg8 : FVec F S64000 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1000x1024 .f32 := Host.absf main_arg5
  let main_cst_8 : FVec F S_ .f32 := constant S_ .f32 0x7F800000#32
  let main_v25 : FVec F S1000x1024 .f32 := broadcastInDim S1000x1024 ![] bcast_S_S1000x1024 main_cst_8
  let main_v26 : IVec S1000x1024 1 := cmpf .olt main_v24 main_v25
  let main_c_9 : IVec S_ 1 := constantI S_ 1 1#1
  let main_v27 : IVec S_ 1 := (fun x v => Host.reduce IntOp.andi x v reducesTo_S1000x1024_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  fn_part2 (F := F) main_arg7 main_arg8 main_v33

def fn {F : FTy → Type} [FloatOps F] (main_arg0 : FVec F S32x256 .f32) (main_arg1 : FVec F S1024x256 .f32) (main_arg2 : FVec F S1024 .f32) (main_arg3 : FVec F S1024x1024 .f32) (main_arg4 : FVec F S1024 .f32) (main_arg5 : FVec F S1000x1024 .f32) (main_arg6 : FVec F S1000 .f32) (main_arg7 : FVec F S64000x1024 .f32) (main_arg8 : FVec F S64000 .f32) : IVec S_ 1 :=
  let main_v0 : FVec F S32x256 .f32 := Host.absf main_arg0
  let main_cst : FVec F S_ .f32 := constant S_ .f32 0x7F800000#32
  let main_v1 : FVec F S32x256 .f32 := broadcastInDim S32x256 ![] bcast_S_S32x256 main_cst
  let main_v2 : IVec S32x256 1 := cmpf .olt main_v0 main_v1
  let main_c : IVec S_ 1 := constantI S_ 1 1#1
  let main_v3 : IVec S_ 1 := (fun x v => Host.reduce IntOp.andi x v reducesTo_S32x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32x256 : Shape := ⟨2, ![32, 256]⟩
abbrev S1024x256 : Shape := ⟨2, ![1024, 256]⟩
abbrev S1024 : Shape := ⟨1, ![1024]⟩
abbrev S1024x1024 : Shape := ⟨2, ![1024, 1024]⟩
abbrev S1000x1024 : Shape := ⟨2, ![1000, 1024]⟩
abbrev S1000 : Shape := ⟨1, ![1000]⟩
abbrev S64000x1024 : Shape := ⟨2, ![64000, 1024]⟩
abbrev S64000 : Shape := ⟨1, ![64000]⟩
abbrev S1x1024 : Shape := ⟨2, ![1, 1024]⟩
abbrev S1x1000 : Shape := ⟨2, ![1, 1000]⟩
abbrev S1x64000 : Shape := ⟨2, ![1, 64000]⟩
abbrev S32x1000 : Shape := ⟨2, ![32, 1000]⟩
abbrev S32x64000 : Shape := ⟨2, ![32, 64000]⟩
abbrev S1280x1024 : Shape := ⟨2, ![1280, 1024]⟩
abbrev S1x2560 : Shape := ⟨2, ![1, 2560]⟩
abbrev S32x2560 : Shape := ⟨2, ![32, 2560]⟩
abbrev S32x1024 : Shape := ⟨2, ![32, 1024]⟩
abbrev S32x1280 : Shape := ⟨2, ![32, 1280]⟩
abbrev S1x1280 : Shape := ⟨2, ![1, 1280]⟩
abbrev S32x64x1000 : Shape := ⟨3, ![32, 64, 1000]⟩

abbrev nBuf : Space → Nat
  | .hbm => 16
  | .vmem => 17
  | .smem => 0
  | _ => 0

abbrev bufTy : (tb : Table) → Fin (tcTables nBuf tb) → BufTy
  | .hbm, ⟨0, _⟩ => ⟨S32x256, .f32⟩
  | .hbm, ⟨1, _⟩ => ⟨S1024x256, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1000x1024, .f32⟩
  | .hbm, ⟨6, _⟩ => ⟨S1000, .f32⟩
  | .hbm, ⟨7, _⟩ => ⟨S64000x1024, .f32⟩
  | .hbm, ⟨8, _⟩ => ⟨S64000, .f32⟩
  | .hbm, ⟨9, _⟩ => ⟨S1x1024, .f32⟩
  | .hbm, ⟨10, _⟩ => ⟨S1x1024, .f32⟩
  | .hbm, ⟨11, _⟩ => ⟨S1x1000, .f32⟩
  | .hbm, ⟨12, _⟩ => ⟨S1x64000, .f32⟩
  | .hbm, ⟨13, _⟩ => ⟨S32x1000, .f32⟩
  | .hbm, ⟨14, _⟩ => ⟨S32x64000, .f32⟩
  | .hbm, ⟨15, _⟩ => ⟨S32x64x1000, .f32⟩
  | .local _ .vmem, ⟨0, _⟩ => ⟨S32x256, .f32⟩
  | .local _ .vmem, ⟨1, _⟩ => ⟨S1024x256, .f32⟩
  | .local _ .vmem, ⟨2, _⟩ => ⟨S1x1024, .f32⟩
  | .local _ .vmem, ⟨3, _⟩ => ⟨S1024x1024, .f32⟩
  | .local _ .vmem, ⟨4, _⟩ => ⟨S1x1024, .f32⟩
  | .local _ .vmem, ⟨5, _⟩ => ⟨S1000x1024, .f32⟩
  | .local _ .vmem, ⟨6, _⟩ => ⟨S1x1000, .f32⟩
  | .local _ .vmem, ⟨7, _⟩ => ⟨S1280x1024, .f32⟩
  | .local _ .vmem, ⟨8, _⟩ => ⟨S1280x1024, .f32⟩
  | .local _ .vmem, ⟨9, _⟩ => ⟨S1280x1024, .f32⟩
  | .local _ .vmem, ⟨10, _⟩ => ⟨S1280x1024, .f32⟩
  | .local _ .vmem, ⟨11, _⟩ => ⟨S1x2560, .f32⟩
  | .local _ .vmem, ⟨12, _⟩ => ⟨S1x2560, .f32⟩
  | .local _ .vmem, ⟨13, _⟩ => ⟨S32x1000, .f32⟩
  | .local _ .vmem, ⟨14, _⟩ => ⟨S32x2560, .f32⟩
  | .local _ .vmem, ⟨15, _⟩ => ⟨S32x2560, .f32⟩
  | .local _ .vmem, ⟨16, _⟩ => ⟨S32x1024, .f32⟩
  | _, _ => ⟨S32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1280x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1280x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2560 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x1000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x2560 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S1024_S1x1024 : S1024.ShapeCasts S1x1024
  shapeCasts_S1000_S1x1000 : S1000.ShapeCasts S1x1000
  shapeCasts_S64000_S1x64000 : S64000.ShapeCasts S1x64000
  inb_S32x256_S32x256_0_0 : ∀ a, (![0, 0] : Fin 2 → Nat) a + S32x256.size a ≤ S32x256.size a
  h_S32x256 : 0 < S32x256.numel
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  inb_S1024x1024_S1024x1024_0_0 : ∀ a, (![0, 0] : Fin 2 → Nat) a + S1024x1024.size a ≤ S1024x1024.size a
  h_S1024x1024 : 0 < S1024x1024.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1000x1024_S1000x1024_0_0 : ∀ a, (![0, 0] : Fin 2 → Nat) a + S1000x1024.size a ≤ S1000x1024.size a
  h_S1000x1024 : 0 < S1000x1024.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S32x1000 : S1x1000.Broadcasts S32x1000
  inb_S32x1000_S32x1000_0_0 : ∀ a, (![0, 0] : Fin 2 → Nat) a + S32x1000.size a ≤ S32x1000.size a
  h_S32x1000 : 0 < S32x1000.numel
  inb_S1280x1024_S1280x1024_0_0 : ∀ a, (![0, 0] : Fin 2 → Nat) a + S1280x1024.size a ≤ S1280x1024.size a
  h_S1280x1024 : 0 < S1280x1024.numel
  inb_S1x2560_S1x1280_0_0 : ∀ a, (![0, 0] : Fin 2 → Nat) a + S1x1280.size a ≤ S1x2560.size a
  h_S1x1280 : 0 < S1x1280.numel
  shapeCasts_S1x1280_S1x1280 : S1x1280.ShapeCasts S1x1280
  broadcasts_S1x1280_S32x1280 : S1x1280.Broadcasts S32x1280
  inb_S32x2560_S32x1280_0_0 : ∀ a, (![0, 0] : Fin 2 → Nat) a + S32x1280.size a ≤ S32x2560.size a
  h_S32x1280 : 0 < S32x1280.numel
  inb_S1x2560_S1x1280_0_1280 : ∀ a, (![0, 1280] : Fin 2 → Nat) a + S1x1280.size a ≤ S1x2560.size a
  inb_S32x2560_S32x1280_0_1280 : ∀ a, (![0, 1280] : Fin 2 → Nat) a + S32x1280.size a ≤ S32x2560.size a
  shapeCasts_S32x64000_S32x64x1000 : S32x64000.ShapeCasts S32x64x1000
  dot_S32x256_S1024x256_S32x1024_1_1_0_0_n_n_wf : DotDims.WF S32x256 S1024x256 S32x1024 [1] [1] [0] [0] [] []
  dot_S32x1024_S1024x1024_S32x1024_1_1_0_0_n_n_wf : DotDims.WF S32x1024 S1024x1024 S32x1024 [1] [1] [0] [0] [] []
  dot_S32x1024_S1000x1024_S32x1000_1_1_0_0_n_n_wf : DotDims.WF S32x1024 S1000x1024 S32x1000 [1] [1] [0] [0] [] []
  dot_S32x1024_S1280x1024_S32x1280_1_1_0_0_n_n_wf : DotDims.WF S32x1024 S1280x1024 S32x1280 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S32x256.size a
  hwx0_0 : ∀ i : grid0.Coords, EltTy.bits .f32 = 32 ∨ (Rect.block (s := S32x256) S32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1000x1024.size a ≤ S1000x1024.size a
  hwx0_5 : ∀ i : grid0.Coords, EltTy.bits .f32 = 32 ∨ (Rect.block (s := S1000x1024) S1000x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1000.size a ≤ S1x1000.size a
  hwx0_6 : ∀ i : grid0.Coords, EltTy.bits .f32 = 32 ∨ (Rect.block (s := S1x1000) S1x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1280x1024.size a ≤ S64000x1024.size a
  hwx0_7 : ∀ i : grid0.Coords, EltTy.bits .f32 = 32 ∨ (Rect.block (s := S64000x1024) S1280x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1280x1024.size a ≤ S64000x1024.size a
  hwx0_8 : ∀ i : grid0.Coords, EltTy.bits .f32 = 32 ∨ (Rect.block (s := S64000x1024) S1280x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2560.size a ≤ S1x64000.size a
  hwx0_9 : ∀ i : grid0.Coords, EltTy.bits .f32 = 32 ∨ (Rect.block (s := S1x64000) S1x2560.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x1000.size a ≤ S32x1000.size a
  hwx0_10 : ∀ i : grid0.Coords, EltTy.bits .f32 = 32 ∨ (Rect.block (s := S32x1000) S32x1000.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x2560.size a ≤ S32x64000.size a
  hwx0_11 : ∀ i : grid0.Coords, EltTy.bits .f32 = 32 ∨ (Rect.block (s := S32x64000) S32x2560.size (cc0_transform_11 i) (hinb0_11 i)).WholeWords (EltTy.packing .f32)

variable [Facts₀]

def dot_S32x256_S1024x256_S32x1024_1_1_0_0_n_n : DotDims S32x256 S1024x256 S32x1024 where
  lhsContracting := [1]
  rhsContracting := [1]
  lhsNonContracting := [0]
  rhsNonContracting := [0]
  lhsBatch := []
  rhsBatch := []
  wf := dot_S32x256_S1024x256_S32x1024_1_1_0_0_n_n_wf
def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf
def dot_S32x1024_S1000x1024_S32x1000_1_1_0_0_n_n : DotDims S32x1024 S1000x1024 S32x1000 where
  lhsContracting := [1]
  rhsContracting := [1]
  lhsNonContracting := [0]
  rhsNonContracting := [0]
  lhsBatch := []
  rhsBatch := []
  wf := dot_S32x1024_S1000x1024_S32x1000_1_1_0_0_n_n_wf
def dot_S32x1024_S1280x1024_S32x1280_1_1_0_0_n_n : DotDims S32x1024 S1280x1024 S32x1280 where
  lhsContracting := [1]
  rhsContracting := [1]
  lhsNonContracting := [0]
  rhsNonContracting := [0]
  lhsBatch := []
  rhsBatch := []
  wf := dot_S32x1024_S1280x1024_S32x1280_1_1_0_0_n_n_wf

abbrev win0_0 : Pipeline.Window sig grid0 :=
  Pipeline.Window.ofSpec (Memref.whole main_arg0) S32x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1000x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1280x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1280x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x2560.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S32x1000.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S32x2560.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun _ => false | ⟨_ + 12, h⟩ => absurd h (Nat.not_lt.2 (Nat.le_add_left _ _))

class Facts : Prop extends Facts₀ where

variable [Facts]
-- ==== ReferenceIdeal.lean ====
abbrev S32x256 : Shape := ⟨2, ![32, 256]⟩
abbrev S1024x256 : Shape := ⟨2, ![1024, 256]⟩
abbrev S1024 : Shape := ⟨1, ![1024]⟩
abbrev S1024x1024 : Shape := ⟨2, ![1024, 1024]⟩
abbrev S1000x1024 : Shape := ⟨2, ![1000, 1024]⟩
abbrev S1000 : Shape := ⟨1, ![1000]⟩
abbrev S64000x1024 : Shape := ⟨2, ![64000, 1024]⟩
abbrev S64000 : Shape := ⟨1, ![64000]⟩
abbrev S256x1024 : Shape := ⟨2, ![256, 1024]⟩
abbrev S32x1024 : Shape := ⟨2, ![32, 1024]⟩
abbrev S1x1024 : Shape := ⟨2, ![1, 1024]⟩
abbrev S_ : Shape := ⟨0, ![]⟩
abbrev S1024x1000 : Shape := ⟨2, ![1024, 1000]⟩
abbrev S32x1000 : Shape := ⟨2, ![32, 1000]⟩
abbrev S1x1000 : Shape := ⟨2, ![1, 1000]⟩
abbrev S1024x64000 : Shape := ⟨2, ![1024, 64000]⟩
abbrev S32x64000 : Shape := ⟨2, ![32, 64000]⟩
abbrev S1x64000 : Shape := ⟨2, ![1, 64000]⟩
abbrev S32x64x1000 : Shape := ⟨3, ![32, 64, 1000]⟩

abbrev nBuf : Space → Nat
  | .hbm => 36
  | .vmem => 0
  | .smem => 0
  | _ => 0

abbrev bufTy : (tb : Table) → Fin (tcTables nBuf tb) → BufTy
  | .hbm, ⟨0, _⟩ => ⟨S32x256, .f32⟩
  | .hbm, ⟨1, _⟩ => ⟨S1024x256, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1000x1024, .f32⟩
  | .hbm, ⟨6, _⟩ => ⟨S1000, .f32⟩
  | .hbm, ⟨7, _⟩ => ⟨S64000x1024, .f32⟩
  | .hbm, ⟨8, _⟩ => ⟨S64000, .f32⟩
  | .hbm, ⟨9, _⟩ => ⟨S256x1024, .f32⟩
  | .hbm, ⟨10, _⟩ => ⟨S32x1024, .f32⟩
  | .hbm, ⟨11, _⟩ => ⟨S1x1024, .f32⟩
  | .hbm, ⟨12, _⟩ => ⟨S32x1024, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S1024x1024, .f32⟩
  | .hbm, ⟨18, _⟩ => ⟨S32x1024, .f32⟩
  | .hbm, ⟨19, _⟩ => ⟨S1x1024, .f32⟩
  | .hbm, ⟨20, _⟩ => ⟨S32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S1024x1000, .f32⟩
  | .hbm, ⟨26, _⟩ => ⟨S32x1000, .f32⟩
  | .hbm, ⟨27, _⟩ => ⟨S1x1000, .f32⟩
  | .hbm, ⟨28, _⟩ => ⟨S32x1000, .f32⟩
  | .hbm, ⟨29, _⟩ => ⟨S32x1000, .f32⟩
  | .hbm, ⟨30, _⟩ => ⟨S1024x64000, .f32⟩
  | .hbm, ⟨31, _⟩ => ⟨S32x64000, .f32⟩
  | .hbm, ⟨32, _⟩ => ⟨S1x64000, .f32⟩
  | .hbm, ⟨33, _⟩ => ⟨S32x64000, .f32⟩
  | .hbm, ⟨34, _⟩ => ⟨S32x64000, .f32⟩
  | .hbm, ⟨35, _⟩ => ⟨S32x64x1000, .f32⟩
  | _, _ => ⟨S32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  transposes_S1024x256_S256x1024_1_0 : S1024x256.Transposes [1, 0] S256x1024
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  transposes_S1024x1024_S1024x1024_1_0 : S1024x1024.Transposes [1, 0] S1024x1024
  transposes_S1000x1024_S1024x1000_1_0 : S1000x1024.Transposes [1, 0] S1024x1000
  bcast_S1000_S1x1000_1 : S1000.BroadcastsInDim S1x1000 (![1] : Fin 1 → Fin S1x1000.rank)
  bcast_S1x1000_S32x1000_0_1 : S1x1000.BroadcastsInDim S32x1000 (![0, 1] : Fin 2 → Fin S32x1000.rank)
  transposes_S64000x1024_S1024x64000_1_0 : S64000x1024.Transposes [1, 0] S1024x64000
  bcast_S64000_S1x64000_1 : S64000.BroadcastsInDim S1x64000 (![1] : Fin 1 → Fin S1x64000.rank)
  bcast_S1x64000_S32x64000_0_1 : S1x64000.BroadcastsInDim S32x64000 (![0, 1] : Fin 2 → Fin S32x64000.rank)
  shapeCasts_S32x64000_S32x64x1000 : S32x64000.ShapeCasts S32x64x1000
  dot_S32x256_S256x1024_S32x1024_1_0_0_1_n_n_wf : DotDims.WF S32x256 S256x1024 S32x1024 [1] [0] [0] [1] [] []
  dot_S32x1024_S1024x1024_S32x1024_1_0_0_1_n_n_wf : DotDims.WF S32x1024 S1024x1024 S32x1024 [1] [0] [0] [1] [] []
  dot_S32x1024_S1024x1000_S32x1000_1_0_0_1_n_n_wf : DotDims.WF S32x1024 S1024x1000 S32x1000 [1] [0] [0] [1] [] []
  dot_S32x1024_S1024x64000_S32x64000_1_0_0_1_n_n_wf : DotDims.WF S32x1024 S1024x64000 S32x64000 [1] [0] [0] [1] [] []

variable [Facts₀]

def dot_S32x256_S256x1024_S32x1024_1_0_0_1_n_n : DotDims S32x256 S256x1024 S32x1024 where
  lhsContracting := [1]
  rhsContracting := [0]
  lhsNonContracting := [0]
  rhsNonContracting := [1]
  lhsBatch := []
  rhsBatch := []
  wf := dot_S32x256_S256x1024_S32x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x1000_S32x1000_1_0_0_1_n_n : DotDims S32x1024 S1024x1000 S32x1000 where
  lhsContracting := [1]
  rhsContracting := [0]
  lhsNonContracting := [0]
  rhsNonContracting := [1]
  lhsBatch := []
  rhsBatch := []
  wf := dot_S32x1024_S1024x1000_S32x1000_1_0_0_1_n_n_wf
def dot_S32x1024_S1024x64000_S32x64000_1_0_0_1_n_n : DotDims S32x1024 S1024x64000 S32x64000 where
  lhsContracting := [1]
  rhsContracting := [0]
  lhsNonContracting := [0]
  rhsNonContracting := [1]
  lhsBatch := []
  rhsBatch := []
  wf := dot_S32x1024_S1024x64000_S32x64000_1_0_0_1_n_n_wf

class Facts : Prop extends Facts₀ where

variable [Facts]
-- ==== Proof.Spec.lean ====
/-
  The mathematics both programs compute, over the extended reals, index by index.

  A batch of 32 states of width 256 goes through two dense layers of width 1024, each followed by the
  rectifier x ↦ max x 0, and the resulting activation h feeds two linear heads: 1000 logits per state, and
  64000 logits per state (read afterwards as 64 × 1000).  Every weight matrix is stored row-major with the
  OUTPUT feature as its row, so a dense layer is y[p, q] = (∑ k, x[p, k] · W[q, k]) + b[q].
  A bias is taken as a function of the output feature alone, so that a bias stored as a vector and one stored as
  a single-row matrix are the same argument.
-/
import Idealize.ShloMosaic.PureOps.Ideal
import Idealize.ShloMosaic.Lib.ValueIdx

noncomputable section

open scoped BigOperators

namespace Cert.Mlp

open Idealize.ShloMosaic Idealize.ShloMosaic.ValueIdx

/-- The zero both rectifiers compare against: the word of +0.0. -/
abbrev zlit : EReal := Ideal.ofBits .f32 0x00000000#32

/-- The rectifier. -/
def relu (x : EReal) : EReal := max x zlit

/-- First layer: 256 → 1024, rectified. -/
def act1 (s : (⟨2, ![32, 256]⟩ : Shape).Idx → EReal) (W1 : (⟨2, ![1024, 256]⟩ : Shape).Idx → EReal) (b1 : Fin 1024 → EReal)
    (p : Fin 32) (q : Fin 1024) : EReal :=
  relu ((∑ k : Fin 256, s (ix2 p k) * W1 (ix2 q k)) + b1 q)

/-- Second layer: 1024 → 1024, rectified, over a first-layer activation given by coordinates. -/
def act2 (h1 : Fin 32 → Fin 1024 → EReal) (W2 : (⟨2, ![1024, 1024]⟩ : Shape).Idx → EReal) (b2 : Fin 1024 → EReal)
    (p : Fin 32) (q : Fin 1024) : EReal :=
  relu ((∑ k : Fin 1024, h1 p k * W2 (ix2 q k)) + b2 q)

/-- The trunk's activation h. -/
def trunk (s : (⟨2, ![32, 256]⟩ : Shape).Idx → EReal) (W1 : (⟨2, ![1024, 256]⟩ : Shape).Idx → EReal) (b1 : Fin 1024 → EReal)
    (W2 : (⟨2, ![1024, 1024]⟩ : Shape).Idx → EReal) (b2 : Fin 1024 → EReal) (p : Fin 32) (q : Fin 1024) : EReal :=
  act2 (act1 s W1 b1) W2 b2 p q

/-- A linear head of `n` outputs over an activation given by coordinates: row `q` of `W` against row `p` of `h`, plus the bias. -/
def head {n : Nat} (h : Fin 32 → Fin 1024 → EReal) (W : (⟨2, ![n, 1024]⟩ : Shape).Idx → EReal) (b : Fin n → EReal)
    (p : Fin 32) (q : Fin n) : EReal :=
  (∑ k : Fin 1024, h p k * W (ix2 q k)) + b q

/-- The first result: 1000 logits per state, as an array. -/
def cacheOut (s : (⟨2, ![32, 256]⟩ : Shape).Idx → EReal) (W1 : (⟨2, ![1024, 256]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (Wc : (⟨2, ![1000, 1024]⟩ : Shape).Idx → EReal) (bc : (⟨1, ![1000]⟩ : Shape).Idx → EReal) :
    (⟨2, ![32, 1000]⟩ : Shape).Idx → EReal :=
  fun i => head (trunk s W1 (fun q => b1 (ix1 q)) W2 (fun q => b2 (ix1 q))) Wc (fun q => bc (ix1 q)) (i 0) (i 1)

/-- The second result before it is read as 64 × 1000: 64000 logits per state, as an array. -/
def recOut (s : (⟨2, ![32, 256]⟩ : Shape).Idx → EReal) (W1 : (⟨2, ![1024, 256]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (Wr : (⟨2, ![64000, 1024]⟩ : Shape).Idx → EReal) (br : (⟨1, ![64000]⟩ : Shape).Idx → EReal) :
    (⟨2, ![32, 64000]⟩ : Shape).Idx → EReal :=
  fun i => head (trunk s W1 (fun q => b1 (ix1 q)) W2 (fun q => b2 (ix1 q))) Wr (fun q => br (ix1 q)) (i 0) (i 1)

end Cert.Mlp

end
-- ==== Proof.RefValue.lean ====
/-
  The reference program computes the dense network of the specification.

  The reference is written one array operation at a time: a weight matrix is transposed, contracted against the
  activation, a bias vector is spread over the 32 rows, the two are added, and the rectifier is a maximum against a
  spread zero.  Read at one index (p, q), each of these operations touches one element of each operand (or, for a
  contraction, one row of the activation and one row of the untransposed weight), so the whole chain collapses to the
  formula  relu(∑ k, x[p, k] · W[q, k] + b[q])  layer by layer.  The only work is to see that the index functions the
  operations compose are the plain coordinate pairs: the transpose undoes the swap the contraction's right operand
  introduces, and the two broadcasts of a bias read the vector at the column alone.
-/
import proofs.«136683_g66365834658321_cont_9to1_m_1147_38_alg».proof.Proof.Gen.ReferenceIdeal.Read
import proofs.«136683_g66365834658321_cont_9to1_m_1147_38_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The first layer, read at (p, q): row p of the states against row q of the first weight matrix, plus the bias at q, rectified. -/
theorem act1_eq (x0 : (⟨S32x256, .f32⟩ : BufTy).Contents (Elt Ideal)) (x1 : (⟨S1024x256, .f32⟩ : BufTy).Contents (Elt Ideal))
    (x2 : (⟨S1024, .f32⟩ : BufTy).Contents (Elt Ideal)) (p : Fin 32) (q : Fin 1024) :
    val_main_v5 (F := Ideal) x0 x1 x2 (ix2 p q) = Cert.Mlp.act1 x0 x1 (fun q => x2 (ix1 q)) p q := by
  rw [val_main_v5_apply, val_main_v4_apply, val_main_v1_apply, val_main_v3_apply, val_main_v2_apply,
    val_main_call0_v0_apply, val_main_call0_cst_apply]
  unfold Cert.Mlp.act1 Cert.Mlp.relu
  rw [Ideal.maximumf_def, Ideal.addf_def, Ideal.ofBits_def]
  have eb : idx_main_v2 (idx_main_v3 (ix2 p q)) = ix1 q :=
    funext fun a => Fin.ext (by match a with | ⟨0, _⟩ => rfl)
  rw [eb]
  refine congrArg (fun s => max (s + x2 (ix1 q)) _) (Finset.sum_congr rfl fun k _ => ?_)
  have el : lidx_main_v1 (ix2 p q) k = ix2 p k :=
    funext fun a => Fin.ext (by match a with | ⟨0, _⟩ => rfl | ⟨1, _⟩ => rfl)
  have er : idx_main_v0 (ridx_main_v1 (ix2 p q) k) = ix2 q k :=
    funext fun a => Fin.ext (by match a with | ⟨0, _⟩ => rfl | ⟨1, _⟩ => rfl)
  rw [val_main_v0_apply, el, er]

/-- The trunk, read at (p, q): row p of the first-layer activation against row q of the second weight matrix, plus the bias at q, rectified. -/
theorem trunk_eq (x0 : (⟨S32x256, .f32⟩ : BufTy).Contents (Elt Ideal)) (x1 : (⟨S1024x256, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (p : Fin 32) (q : Fin 1024) :
    val_main_v11 (F := Ideal) x0 x1 x2 x3 x4 (ix2 p q)
      = Cert.Mlp.trunk x0 x1 (fun q => x2 (ix1 q)) x3 (fun q => x4 (ix1 q)) p q := by
  rw [val_main_v11_apply, val_main_v10_apply, val_main_v7_apply, val_main_v9_apply, val_main_v8_apply,
    val_main_call1_v0_apply, val_main_call1_cst_apply]
  unfold Cert.Mlp.trunk Cert.Mlp.act2 Cert.Mlp.relu
  rw [Ideal.maximumf_def, Ideal.addf_def, Ideal.ofBits_def]
  have eb : idx_main_v8 (idx_main_v9 (ix2 p q)) = ix1 q :=
    funext fun a => Fin.ext (by match a with | ⟨0, _⟩ => rfl)
  rw [eb]
  refine congrArg (fun s => max (s + x4 (ix1 q)) _) (Finset.sum_congr rfl fun k _ => ?_)
  have el : lidx_main_v7 (ix2 p q) k = ix2 p k :=
    funext fun a => Fin.ext (by match a with | ⟨0, _⟩ => rfl | ⟨1, _⟩ => rfl)
  have er : idx_main_v6 (ridx_main_v7 (ix2 p q) k) = ix2 q k :=
    funext fun a => Fin.ext (by match a with | ⟨0, _⟩ => rfl | ⟨1, _⟩ => rfl)
  rw [val_main_v6_apply, el, er, act1_eq]

/-- The first result is the 1000-logit head over the trunk. -/
theorem cache_eq (x0 : (⟨S32x256, .f32⟩ : BufTy).Contents (Elt Ideal)) (x1 : (⟨S1024x256, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1000x1024, .f32⟩ : BufTy).Contents (Elt Ideal))
    (x6 : (⟨S1000, .f32⟩ : BufTy).Contents (Elt Ideal)) :
    val_main_v16 (F := Ideal) x0 x1 x2 x3 x4 x5 x6 = Cert.Mlp.cacheOut x0 x1 x2 x3 x4 x5 x6 := by
  funext i
  obtain ⟨p, q, rfl⟩ : ∃ (p : Fin 32) (q : Fin 1000), i = ix2 p q := ⟨i 0, i 1, eq_ix2 i⟩
  rw [val_main_v16_apply, val_main_v13_apply, val_main_v15_apply, val_main_v14_apply, Ideal.addf_def]
  show _ = (∑ k : Fin 1024, Cert.Mlp.trunk x0 x1 (fun q => x2 (ix1 q)) x3 (fun q => x4 (ix1 q)) p k * x5 (ix2 q k)) + x6 (ix1 q)
  have eb : idx_main_v14 (idx_main_v15 (ix2 p q)) = ix1 q :=
    funext fun a => Fin.ext (by match a with | ⟨0, _⟩ => rfl)
  rw [eb]
  refine congrArg (fun s => s + x6 (ix1 q)) (Finset.sum_congr rfl fun k _ => ?_)
  have el : lidx_main_v13 (ix2 p q) k = ix2 p k :=
    funext fun a => Fin.ext (by match a with | ⟨0, _⟩ => rfl | ⟨1, _⟩ => rfl)
  have er : idx_main_v12 (ridx_main_v13 (ix2 p q) k) = ix2 q k :=
    funext fun a => Fin.ext (by match a with | ⟨0, _⟩ => rfl | ⟨1, _⟩ => rfl)
  rw [val_main_v12_apply, el, er, trunk_eq]

/-- The second result, before it is read as 64 × 1000, is the 64000-logit head over the same trunk. -/
theorem rec_eq (x0 : (⟨S32x256, .f32⟩ : BufTy).Contents (Elt Ideal)) (x1 : (⟨S1024x256, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x7 : (⟨S64000x1024, .f32⟩ : BufTy).Contents (Elt Ideal))
    (x8 : (⟨S64000, .f32⟩ : BufTy).Contents (Elt Ideal)) :
    val_main_v21 (F := Ideal) x0 x1 x2 x3 x4 x7 x8 = Cert.Mlp.recOut x0 x1 x2 x3 x4 x7 x8 := by
  funext i
  obtain ⟨p, q, rfl⟩ : ∃ (p : Fin 32) (q : Fin 64000), i = ix2 p q := ⟨i 0, i 1, eq_ix2 i⟩
  rw [val_main_v21_apply, val_main_v18_apply, val_main_v20_apply, val_main_v19_apply, Ideal.addf_def]
  show _ = (∑ k : Fin 1024, Cert.Mlp.trunk x0 x1 (fun q => x2 (ix1 q)) x3 (fun q => x4 (ix1 q)) p k * x7 (ix2 q k)) + x8 (ix1 q)
  have eb : idx_main_v19 (idx_main_v20 (ix2 p q)) = ix1 q :=
    funext fun a => Fin.ext (by match a with | ⟨0, _⟩ => rfl)
  rw [eb]
  refine congrArg (fun s => s + x8 (ix1 q)) (Finset.sum_congr rfl fun k _ => ?_)
  have el : lidx_main_v18 (ix2 p q) k = ix2 p k :=
    funext fun a => Fin.ext (by match a with | ⟨0, _⟩ => rfl | ⟨1, _⟩ => rfl)
  have er : idx_main_v17 (ridx_main_v18 (ix2 p q) k) = ix2 q k :=
    funext fun a => Fin.ext (by match a with | ⟨0, _⟩ => rfl | ⟨1, _⟩ => rfl)
  rw [val_main_v17_apply, el, er, trunk_eq]

end Cert.ReferenceIdeal.RefValue

end
-- ==== Proof.Common.lean ====
/-
  What every module of the kernel's run shares: the contents of the core's buffers when the one pipelined region is
  entered (the four bias vectors re-laid as single-row matrices by the host lines before it), each window's block at a
  grid point read off those contents, the two conditions the body branches on — "this is the first grid point" and
  "this is the second" — decided over the 25 points, the points at which the first result's window receives no store,
  and names for the staging memrefs the body is called with and for the scratch matrix that carries the trunk's
  activation from the first point to all later ones.
-/
import proofs.«136683_g66365834658321_cont_9to1_m_1147_38_alg».proof.Proof.Gen.KernelIdeal.Launch
import proofs.«136683_g66365834658321_cont_9to1_m_1147_38_alg».proof.Proof.Gen.KernelIdeal.Skeleton
import proofs.«136683_g66365834658321_cont_9to1_m_1147_38_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the four re-layings of the bias vectors. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the four re-layings, the region, and the re-laying of the second result: it reduces to the region
    continued by that last line, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- "This is the first grid point", as the body computes it. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)
/-- "This is the second grid point", as the body computes it. -/
abbrev cond2 (i : grid0.Coords) : Prop := k0_cond2 i = 1#1
theorem hcond2 : ∀ t : Fin cfg0.N, cond2 (grid0.coords t) ↔ t.val = 1 :=
  (by decide +kernel : ∀ t : Fin grid0.N, cond2 (grid0.coords t) ↔ t.val = 1)

/-! ## Where the windows receive no store -/

theorem liveAt (w : Fin 12) (hw : w ≠ 10) : ∀ t : Fin cfg0.N, cfg0.idle w (grid0.coords t) = false := by
  revert w; decide +kernel
/-- The first result's window is stored into at the second point only. -/
theorem idleAt10 : ∀ t : Fin cfg0.N, ¬cond2 (grid0.coords t) → cfg0.idle 10 (grid0.coords t) = true := by decide +kernel
theorem liveAt10 : ∀ t : Fin cfg0.N, cond2 (grid0.coords t) → cfg0.idle 10 (grid0.coords t) = false := by decide +kernel
/-- It is written back after the last point only. -/
theorem flush10 : ∀ t : Fin cfg0.N, (cfg0.win 10).flush t = true ↔ t.val = 24 :=
  (by decide +kernel : ∀ t : Fin grid0.N, win0_10.flush t = true ↔ t.val = 24)

/-! ## The memrefs the body is called with -/

abbrev ms0 (t : Fin cfg0.N) : Memref sig .tc .vmem S32x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1000x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1280x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1280x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2560 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S32x1000 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S32x2560 .f32 := win0_11.stage (cfg0.slots t 11)
abbrev hs11 (t : Fin cfg0.N) : (ms11 t).IsWhole := hstage0_11 ((cfg0.slots t 11).cast nbuf0_11)
/-- The scratch matrix, a whole buffer of the kernel's own. -/
abbrev scM : Memref sig .tc .vmem S32x1024 .f32 := Memref.whole cc0_scratch0

/-- The class's region invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.RunA.lean ====
/-
  The kernel body at the FIRST grid point.

  At this point the first of the body's two conditions holds and the second does not.  The body reads the batch of
  states and the two layers' weights and biases (the first five windows), forms the trunk's activation
  relu(relu(s·W1ᵀ + b1)·W2ᵀ + b2), and stores it whole into the scratch matrix; the scratch is read once before that
  store, at whatever it then holds, and the value read is not used.  The block that computes the first result is
  skipped, so the first result's window is left exactly as it was found.  After that the scratch is read back — it now
  holds the activation just stored — and the two halves of the second result's block are stored side by side into the
  second result's window: the activation times the transpose of each of the two 1280-row blocks of the last weight
  matrix, plus the matching half of the bias row.

  The definition below is the pair of lists of pieces those stores leave in the second result's window and in the
  scratch, together with the proof that from the thirteen buffers owned whole — the eleven it does not store into at
  named contents, the other two at anything — the body runs to a continuation that holds the eleven as they were and
  the two with their pieces written.
-/
import proofs.«136683_g66365834658321_cont_9to1_m_1147_38_alg».proof.Proof.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRunA (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S1x2560 .f32) (harg10 : arg10.IsWhole) (arg11 : Memref sig .tc .vmem S32x1000 .f32) (harg11 : arg11.IsWhole) (arg12 : Memref sig .tc .vmem S32x2560 .f32) (harg12 : arg12.IsWhole) (arg13 : Memref sig .tc .vmem S32x1024 .f32) (harg13 : arg13.IsWhole) (hc1 : cond1 i) (hc2 : ¬cond2 i)
    (x0 : Vec F S32x256 .f32) (x1 : Vec F S1024x256 .f32) (x2 : Vec F S1x1024 .f32) (x3 : Vec F S1024x1024 .f32) (x4 : Vec F S1x1024 .f32) (x5 : Vec F S1000x1024 .f32) (x6 : Vec F S1x1000 .f32) (x7 : Vec F S1280x1024 .f32) (x8 : Vec F S1280x1024 .f32) (x9 : Vec F S1x2560 .f32) :
    Σ' (L11 : List (View.Piece (Elt F) S32x2560 .f32)), { LS : List (View.Piece (Elt F) S32x1024 .f32) //
      ∀ (xi10 : Vec F S32x1000 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi10 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg10.eq_unread hf9; obtain rfl := harg11.eq_unread hf10
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; iexact HS

end Cert.KernelIdeal.Fr

end
-- ==== Proof.RunB.lean ====
/-
  The body at the second grid point. The first condition fails there and the second holds, so the trunk is not
  recomputed: the scratch matrix still holds the activation h the first point left in it, and it is only read. From h,
  the cache head's weight block Wc (1000 rows of 1024) and its bias row bc the body forms h·Wcᵀ + bc, a 32 × 1000
  matrix, and stores it over the whole of the first result's buffer (whatever that buffer held is read once and
  discarded). It then forms the two halves of this point's block of the rec head — h·Waᵀ + ba and h·Wbᵀ + bb, where
  Wa, Wb are the two consecutive 1280-row blocks of Wr and ba, bb the two halves of the 2560 bias entries in the
  window — and stores them side by side, columns 0..1279 and 1280..2559, into the second result's buffer. Every input
  buffer is left as it was found; the two result buffers end with exactly these stores written over what they held.
-/
import proofs.«136683_g66365834658321_cont_9to1_m_1147_38_alg».proof.Proof.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the second point's stores leave in the two result buffers (the cache head over the whole of the first,
    the two halves of the rec block side by side in the second), with the run of the body from the buffers owned at
    their contents to the continuation holding them so written. -/
noncomputable def kernelRunB (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S1x2560 .f32) (harg10 : arg10.IsWhole) (arg11 : Memref sig .tc .vmem S32x1000 .f32) (harg11 : arg11.IsWhole) (arg12 : Memref sig .tc .vmem S32x2560 .f32) (harg12 : arg12.IsWhole) (arg13 : Memref sig .tc .vmem S32x1024 .f32) (harg13 : arg13.IsWhole) (hc1 : ¬cond1 i) (hc2 : cond2 i)
    (x0 : Vec F S32x256 .f32) (x1 : Vec F S1024x256 .f32) (x2 : Vec F S1x1024 .f32) (x3 : Vec F S1024x1024 .f32) (x4 : Vec F S1x1024 .f32) (x5 : Vec F S1000x1024 .f32) (x6 : Vec F S1x1000 .f32) (x7 : Vec F S1280x1024 .f32) (x8 : Vec F S1280x1024 .f32) (x9 : Vec F S1x2560 .f32) (xs : Vec F S32x1024 .f32) :
    Σ' (L10 : List (View.Piece (Elt F) S32x1000 .f32)), { L11 : List (View.Piece (Elt F) S32x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    obtain rfl := harg13.eq_unread hfs
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    iexists _; isplitr; · ipureintro; exact harg13.read_unread _
    iexact HS

end Cert.KernelIdeal.Fr

end
-- ==== Proof.RunC.lean ====
/-
  The body at every grid point after the second. Both conditions fail there: the trunk is not recomputed and the cache
  head is not touched, so the scratch matrix, still holding the activation h the first point left in it, is only read,
  and the first result's buffer is handed back exactly as it was found. The body forms the two halves of this point's
  block of the rec head — h·Waᵀ + ba and h·Wbᵀ + bb, where Wa, Wb are the two consecutive 1280-row blocks of Wr in the
  two weight windows and ba, bb the two halves of the 2560 bias entries in the bias window — and stores them side by
  side, columns 0..1279 and 1280..2559, into the second result's buffer. Every input buffer is left as it was found;
  the second result's buffer ends with exactly these two stores written over what it held.
-/
import proofs.«136683_g66365834658321_cont_9to1_m_1147_38_alg».proof.Proof.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a later point's stores leave in the second result's buffer (the two halves of the rec block side by
    side), with the run of the body from the buffers owned at their contents to the continuation holding the inputs,
    the first result's buffer and the scratch as they were and the second result's buffer so written. -/
noncomputable def kernelRunC (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S1x2560 .f32) (harg10 : arg10.IsWhole) (arg11 : Memref sig .tc .vmem S32x1000 .f32) (harg11 : arg11.IsWhole) (arg12 : Memref sig .tc .vmem S32x2560 .f32) (harg12 : arg12.IsWhole) (arg13 : Memref sig .tc .vmem S32x1024 .f32) (harg13 : arg13.IsWhole) (hc1 : ¬cond1 i) (hc2 : ¬cond2 i)
    (x0 : Vec F S32x256 .f32) (x1 : Vec F S1024x256 .f32) (x2 : Vec F S1x1024 .f32) (x3 : Vec F S1024x1024 .f32) (x4 : Vec F S1x1024 .f32) (x5 : Vec F S1000x1024 .f32) (x6 : Vec F S1x1000 .f32) (x7 : Vec F S1280x1024 .f32) (x8 : Vec F S1280x1024 .f32) (x9 : Vec F S1x2560 .f32) (xs : Vec F S32x1024 .f32) :
    { L11 : List (View.Piece (Elt F) S32x2560 .f32) //
      ∀ (xi10 : Vec F S32x1000 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d) ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f L11) ∗ owns (c : Thread nD τ) arg13 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, fun xi10 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    obtain rfl := harg13.eq_unread hfs
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; isplitr; · ipureintro; exact harg13.read_unread _
    iexact HS

end Cert.KernelIdeal.Fr

end
-- ==== Proof.LaunchRead.lean ====
/-
  Reading the final state of the run.

  When the program has run, each core owns, beside the arrays of the pipelined region, five more buffers at known
  contents: the four bias vectors, which no line of the program writes, and the second result re-laid as
  32 × 64 × 1000, which the last host line writes from the region's second output array.  Owning a buffer at given
  contents, together with the state interpretation of a physical state, says that this state's memory holds those
  contents at the buffer: so the final memory holds the re-laid result at its buffer and the four bias vectors as the
  region found them.  The region finds the four bias vectors as the launch left them, because the four host lines
  before the region write their own result buffers only.
-/
import proofs.«136683_g66365834658321_cont_9to1_m_1147_38_alg».proof.Proof.Common
import Idealize.ShloMosaic.Lib.StableHlo.Run
import Idealize.ShloMosaic.Lib.Pipeline.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The bias vectors when the region is entered -/

/-- The first layer's bias vector is, when the region is entered, what the launch left: the host lines before the
    region write their own results only. -/
theorem entry_main_arg2 (c : Dev nD) : V m c main_arg2 = m ((c.tc : Thread nD τ).loc main_arg2) := by
  show StableHlo.after (List.flatten [hostOps0]) (fun b => m (c, b)) (Proc.devRef .tc main_arg2) = _
  simp only [hostOps0, List.flatten_cons, List.flatten_nil, List.append_nil]; after_results
/-- The same for the second layer's bias vector. -/
theorem entry_main_arg4 (c : Dev nD) : V m c main_arg4 = m ((c.tc : Thread nD τ).loc main_arg4) := by
  show StableHlo.after (List.flatten [hostOps0]) (fun b => m (c, b)) (Proc.devRef .tc main_arg4) = _
  simp only [hostOps0, List.flatten_cons, List.flatten_nil, List.append_nil]; after_results
/-- The same for the first head's bias vector. -/
theorem entry_main_arg6 (c : Dev nD) : V m c main_arg6 = m ((c.tc : Thread nD τ).loc main_arg6) := by
  show StableHlo.after (List.flatten [hostOps0]) (fun b => m (c, b)) (Proc.devRef .tc main_arg6) = _
  simp only [hostOps0, List.flatten_cons, List.flatten_nil, List.append_nil]; after_results
/-- The same for the second head's bias vector. -/
theorem entry_main_arg8 (c : Dev nD) : V m c main_arg8 = m ((c.tc : Thread nD τ).loc main_arg8) := by
  show StableHlo.after (List.flatten [hostOps0]) (fun b => m (c, b)) (Proc.devRef .tc main_arg8) = _
  simp only [hostOps0, List.flatten_cons, List.flatten_nil, List.append_nil]; after_results

/-! ## Reading owned buffers off the final state -/

/-- A buffer owned whole at contents `f`, against the state interpretation of `s'`: the memory of `s'` holds `f` there. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨Hi, HSI⟩
  icombine HSI Hi gives %h
  isplitr
  · ipureintro; exact Buf.eq_of_forall_mem_univ h
  · iexact HSI

/-- What a core owns after the last host line beside the region's arrays: the four bias vectors at what the region
    found, and the second result re-laid as 32 × 64 × 1000 from the region's second output array. -/
def restPost (dats : (p : Fin 1) → (c : Dev nD) → Dat τ (Elt F) Unit ℕ (UR sig nD τ) ℕ (cfgs p) c) (c : Dev nD) : sProp 𝕄 :=
  iprop((((c : Thread nD τ).loc main_arg2) ↦{fullShare} V m c main_arg2) ∗ (((c : Thread nD τ).loc main_arg4) ↦{fullShare} V m c main_arg4) ∗ (((c : Thread nD τ).loc main_arg6) ↦{fullShare} V m c main_arg6) ∗ (((c : Thread nD τ).loc main_arg8) ↦{fullShare} V m c main_arg8) ∗ (((c : Thread nD τ).loc main_v5) ↦{fullShare} shapeCast S32x64x1000 ((dats 0 c).arrAt 11 cfg0.N) shapeCasts_S32x64000_S32x64x1000))

/-- Those five buffers read off the final state: its memory holds their contents. -/
theorem hY_of (dats : (p : Fin 1) → (c : Dev nD) → Dat τ (Elt F) Unit ℕ (UR sig nD τ) ℕ (cfgs p) c) (c : Dev nD) (s' : Phys nD τ sig (Elt F)) :
    iprop((∃ r, prngReg c r) ∗ restPost m dats c ∗ SI s') ⊢ |={Set.univ}=> iprop(⌜s'.mem.mem ((c.tc : Thread nD τ).loc main_v5) = shapeCast S32x64x1000 ((dats 0 c).arrAt 11 cfg0.N) shapeCasts_S32x64000_S32x64x1000 ∧ s'.mem.mem ((c.tc : Thread nD τ).loc main_arg2) = V m c main_arg2 ∧ s'.mem.mem ((c.tc : Thread nD τ).loc main_arg4) = V m c main_arg4 ∧ s'.mem.mem ((c.tc : Thread nD τ).loc main_arg6) = V m c main_arg6 ∧ s'.mem.mem ((c.tc : Thread nD τ).loc main_arg8) = V m c main_arg8⌝ ∗ SI s') := by
  unfold restPost
  iintro ⟨-, ⟨H2, H4, H6, H8, H5⟩, HSI⟩
  imodintro
  ihave H := read_one _ _ s' $$ [H2 HSI]
  · isplitl [H2] <;> iassumption
  icases H with ⟨%h2, HSI⟩
  ihave H := read_one _ _ s' $$ [H4 HSI]
  · isplitl [H4] <;> iassumption
  icases H with ⟨%h4, HSI⟩
  ihave H := read_one _ _ s' $$ [H6 HSI]
  · isplitl [H6] <;> iassumption
  icases H with ⟨%h6, HSI⟩
  ihave H := read_one _ _ s' $$ [H8 HSI]
  · isplitl [H8] <;> iassumption
  icases H with ⟨%h8, HSI⟩
  ihave H := read_one _ _ s' $$ [H5 HSI]
  · isplitl [H5] <;> iassumption
  icases H with ⟨%h5, HSI⟩
  isplitr
  · ipureintro; exact ⟨h5, h2, h4, h6, h8⟩
  · iexact HSI

end Cert.KernelIdeal.Fr

end
-- ==== Proof.Launch.lean ====
/-
  The launch of the one pipelined region, for any proof data.

  The program is four host lines (the bias vectors re-laid as single-row matrices), one pipelined region over 25 grid
  points, and one host line (the second result re-laid as 32 × 64 × 1000).  Twelve windows read and write eleven
  buffers: the weight matrix of the second head is handed to the region twice, so two input windows sit on one buffer.
  The launch therefore cannot give every window its array at the full share.  Three things are settled here by hand:

  * how the eleven buffers, each whole at the full share at the region's entry, make the twelve windows' arrays: the
    shared buffer's full share is cut into its two halves, one for each of the two windows on it, and every other buffer
    goes whole to its one window;
  * the host line after the region: it reads the second result's array, which is an output and so comes back from the
    region whole at the full share, and writes a buffer that bypasses the region; only those two buffers are touched, and
    they are put back with the written one at the re-laid contents;
  * the final state: every window's array at what the proof data compute, the re-laid second result, and the four bias
    vectors as the launch left them (no line of the program writes them).
-/
import proofs.«136683_g66365834658321_cont_9to1_m_1147_38_alg».proof.Proof.Common
import proofs.«136683_g66365834658321_cont_9to1_m_1147_38_alg».proof.Proof.LaunchRead

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of its array each input window holds: the weight matrix of the second head is read by two windows,
    which hold a half each; every other array is read by one window, which holds it whole. -/
def qW : Fin 12 → PosShare TreeShare := fun w => if w = 7 then fullShare.left else if w = 8 then fullShare.right else fullShare

/-! ## The eleven buffers dealt among the twelve windows -/

/-- The eleven buffers behind the twelve windows' arrays. -/
theorem arrImage : Finset.univ.image (Pipeline.arrRef spec0)
    = [main_arg0, main_arg1, main_v0, main_arg3, main_v1, main_arg5, main_v2, main_arg7, main_v3, main_v4_0, main_v4_1].toFinset := by
  decide

/-- The eleven buffers conjoined one by one. -/
theorem bigSep_arr0 {M : Type} [URA M] (Φ : Ref sig .tc → sProp M) :
    bigSep (Finset.univ.image (Pipeline.arrRef spec0)) Φ
      = iprop(Φ main_arg0 ∗ Φ main_arg1 ∗ Φ main_v0 ∗ Φ main_arg3 ∗ Φ main_v1 ∗ Φ main_arg5 ∗ Φ main_v2 ∗ Φ main_arg7 ∗ Φ main_v3 ∗ Φ main_v4_0 ∗ Φ main_v4_1) :=
  bigSep_eq_bigSepL_of_eq [main_arg0, main_arg1, main_v0, main_arg3, main_v1, main_arg5, main_v2, main_arg7, main_v3, main_v4_0, main_v4_1] arrImage (by decide) Φ

/-- An output window's share is the full one: the two halves go to input windows. -/
theorem qW_out : ∀ w : Fin 12, (cfg0.win w).isOut = true → qW w = fullShare := by
  intro w h
  have : w = 10 ∨ w = 11 := by revert w; decide
  rcases this with rfl | rfl <;> rfl

/-- The eleven buffers, each whole at the full share at the region's entry, make the twelve windows' arrays at entry:
    the shared weight matrix's full share is cut into its two halves, every other buffer goes whole to its one window. -/
theorem hsplit_of (c : Dev nD) (dat : Dat τ (Elt F) Unit ℕ (UR sig nD τ) ℕ cfg0 c)
    (hA : ∀ w, dat.A w = V m c (Pipeline.arrRef spec0 w)) (hq : ∀ w, dat.q w = qW w) :
    (Pipeline.arrBufs spec0 c (V m c) : sProp 𝕄) ⊢ dat.arrays (dat.arrAt · 0) := by
  have hs : ∀ w, dat.share w = qW w := fun w => by
    unfold Dat.share
    split
    · next h => exact (qW_out w h).symm
    · exact hq w
  have hf : ∀ w : Fin 12, (((cfg0.win w).arr.view.loc (c.tc : Thread nD τ)) ↦[(cfg0.win w).arr.view.set]{dat.share w} dat.arrAt w 0 : sProp 𝕄)
      = (((c.tc : Thread nD τ).loc (Pipeline.arrRef spec0 w)) ↦{qW w} V m c (Pipeline.arrRef spec0 w)) := fun w => by
    rw [(arr_whole0 w).set_eq_univ, hs w, show dat.arrAt w 0 = dat.A w from rfl, hA w]
  refine BIBase.Entails.trans ?_ (Entails.of_eq (show (bigSep Finset.univ fun w : Fin 12 =>
      ((((c.tc : Thread nD τ).loc (Pipeline.arrRef spec0 w)) ↦{qW w} V m c (Pipeline.arrRef spec0 w)) : sProp 𝕄)) = dat.arrays (dat.arrAt · 0) from
    bigSep_congr fun w _ => (hf w).symm))
  unfold Pipeline.arrBufs
  rw [bigSep_arr0, bigSep_W0]
  iintro ⟨H0, H1, H2, H3, H4, H5, H6, H7, H9, H10, H11⟩
  ihave H78 := (pointsTo_share (PosShare.mem_left_op_right fullShare)).1 $$ H7
  icases H78 with ⟨H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The host line after the region -/

/-- The windows' arrays with the second result's taken out: it is an output, so held whole at the full share. -/
theorem arrays_take11 (c : Dev nD) (dat : Dat τ (Elt F) Unit ℕ (UR sig nD τ) ℕ cfg0 c)
    (G : (w : Fin cfg0.W) → Buf (Elt F) ((cfg0.win w).arr.view.loc (c.tc : Thread nD τ))) :
    (dat.arrays G : sProp 𝕄)
      = iprop((((c.tc : Thread nD τ).loc main_v4_1) ↦{fullShare} G 11)
          ∗ bigSep (Finset.univ.erase (11 : Fin 12)) fun w : Fin 12 =>
              ((cfg0.win w).arr.view.loc (c.tc : Thread nD τ) ↦[(cfg0.win w).arr.view.set]{dat.share w} G w : sProp 𝕄)) := by
  have h11 : (((cfg0.win 11).arr.view.loc (c.tc : Thread nD τ)) ↦[(cfg0.win 11).arr.view.set]{dat.share 11} G 11 : sProp 𝕄)
      = (((c.tc : Thread nD τ).loc main_v4_1) ↦{fullShare} G 11) := by
    rw [(arr_whole0 11).set_eq_univ, show dat.share 11 = fullShare from if_pos rfl]
    try rfl
  unfold Dat.arrays
  rw [bigSep_univ_split (11 : Fin 12)]
  exact congrArg (fun X : sProp 𝕄 => iprop(X ∗ _)) h11

/-- The two buffers the last host line touches: the second result's array and its re-laid copy. -/
abbrev tailS : Finset (DevRef τ sig) := {Proc.devRef .tc main_v4_1, Proc.devRef .tc main_v5}

set_option backward.isDefEq.respectTransparency.types false in
/-- The host line after the region. From the region's exit — the windows' arrays at what the proof data compute, the
    buffers that bypass the region as at its entry — it reads the second result's array and writes the re-laid copy;
    both are put back, the copy at the re-laid contents, and nothing else is touched. -/
theorem htail_of (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N) ∗ restPost m dats c) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (pcfgs (F := F)) defs₀) (Variants.lift Variants.none) (c.tc : Thread nD τ) none) Set.univ
          (Pipeline.chain [StableHlo.seq hostOps1]) Q' := by
  classical
  have hne : (Proc.devRef .tc main_v4_1 : DevRef τ sig) ∉ ({Proc.devRef .tc main_v5} : Finset (DevRef τ sig)) := by decide
  have hne' : (Proc.devRef .tc main_v5 : DevRef τ sig) ≠ Proc.devRef .tc main_v4_1 := by decide
  -- a valuation with the second result's array at what the region left and the other buffers as at the region's entry
  obtain ⟨W, hWa, hWb⟩ : ∃ W : Valuation τ sig (Elt F), W (Proc.devRef .tc main_v4_1) = (dats 0 c).arrAt 11 cfg0.N
      ∧ W (Proc.devRef .tc main_v5) = V0 m c (Proc.devRef .tc main_v5) :=
    ⟨Function.update (V0 m c) (Proc.devRef .tc main_v4_1) ((dats 0 c).arrAt 11 cfg0.N), Function.update_self _ _ _, Function.update_of_ne hne' _ _⟩
  have hW : (StableHlo.held (c.tc : Thread nD τ) tailS W : sProp 𝕄)
      = iprop((((c.tc : Thread nD τ).loc main_v4_1) ↦{fullShare} (dats 0 c).arrAt 11 cfg0.N)
          ∗ (((c.tc : Thread nD τ).loc main_v5) ↦{fullShare} V m c main_v5)) := by
    unfold StableHlo.held
    rw [bigSep_insert hne, bigSep_singleton, hWa, hWb]
    try rfl
  have hfl : ([hostOps1 (F := F)] : List (List (HloOp τ sig (Elt F)))).flatten = hostOps1 := rfl
  have hr4 : StableHlo.after ([hostOps1 (F := F)].flatten) W (Proc.devRef .tc main_v4_1) = (dats 0 c).arrAt 11 cfg0.N := by
    rw [hfl, StableHlo.after_cons, StableHlo.after_nil, StableHlo.reshape_result_ne' _ _ _ _ W (show main_v4_1 ≠ main_v5 by decide), hWa]
  have hr5 : StableHlo.after ([hostOps1 (F := F)].flatten) W (Proc.devRef .tc main_v5)
      = shapeCast S32x64x1000 ((dats 0 c).arrAt 11 cfg0.N) shapeCasts_S32x64000_S32x64x1000 := by
    rw [hfl, StableHlo.after_cons, StableHlo.after_nil, StableHlo.reshape_result' _ _ _ _ W, hWa]
    try rfl
  have hW' : (StableHlo.held (c.tc : Thread nD τ) tailS (StableHlo.after ([hostOps1].flatten) W) : sProp 𝕄)
      = iprop((((c.tc : Thread nD τ).loc main_v4_1) ↦{fullShare} (dats 0 c).arrAt 11 cfg0.N)
          ∗ (((c.tc : Thread nD τ).loc main_v5) ↦{fullShare} shapeCast S32x64x1000 ((dats 0 c).arrAt 11 cfg0.N) shapeCasts_S32x64000_S32x64x1000)) := by
    unfold StableHlo.held
    rw [bigSep_insert hne, bigSep_singleton, hr4, hr5]
    try rfl
  have hsub : ∀ ops ∈ [hostOps1 (F := F)], ∀ op ∈ ops, op.bufs ⊆ (tailS : Finset (DevRef τ sig)) := fun ops hops op hop => by
    obtain rfl := List.mem_singleton.mp hops
    obtain rfl := List.mem_singleton.mp hop
    exact subset_refl _
  have hfresh : ∀ ops ∈ [hostOps1 (F := F)], ∀ op ∈ ops, op.fresh = ∅ := fun ops hops op hop => by
    obtain rfl := List.mem_singleton.mp hops
    exact List.forall_iff_forall_mem.mp hostOps1_fresh op hop
  have hstep := Pipeline.wp_seqs_then (pcfgs (F := F)) defs₀ Variants.none c tailS [] (K := Q') [hostOps1] hsub hfresh W
  rw [hW, hW', Pipeline.chain_nil, wp_pure] at hstep
  rw [arrays_take11 c (dats 0 c), Pipeline.unscopedRestP_none, unscopedRest0_eq]
  show _ ⊢ wp frame (wpE (Pipeline.defs (pcfgs (F := F)) defs₀) (Variants.lift Variants.none) (c.tc : Thread nD τ) none) Set.univ
          (Pipeline.chain ([hostOps1].map StableHlo.seq ++ [])) Q'
  iintro ⟨Hk, Hb, ⟨H11, HR⟩, H2, H4, H6, H8, H5⟩
  iapply hstep $$ [Hb H11 H5]
  · isplitl [Hb]; · iexact Hb
    isplitl [H11]; · iexact H11
    iexact H5
  iintro ⟨Hb, H11, H5⟩
  imodintro
  iapply Hk
  isplitl [H11 HR]
  · isplitl [H11]; · iexact H11
    iexact HR
  unfold restPost
  isplitl [H2]; · iexact H2
  isplitl [H4]; · iexact H4
  isplitl [H6]; · iexact H6
  isplitl [H8]; · iexact H8
  iexact H5

/-! ## The run -/

/-- What the run ends in: every window's array at what the proof data compute, the second result re-laid as
    32 × 64 × 1000, and the four bias vectors as they were. -/
def RunPost (dats : (p : Fin 1) → (c : Dev nD) → Dat τ (Elt F) Unit ℕ (UR sig nD τ) ℕ (cfgs p) c) :
    PUnit × MemSt nD τ sig (Elt F) → Prop := fun r => ∀ c : Dev nD,
  (∀ w : Fin 12, r.2.mem (((cfg0).spec w).arr.view.loc (c.tc : Thread nD τ)) = (dats 0 c).arrAt w cfg0.N)
  ∧ r.2.mem ((c.tc : Thread nD τ).loc main_v5) = shapeCast S32x64x1000 ((dats 0 c).arrAt 11 cfg0.N) shapeCasts_S32x64000_S32x64x1000
  ∧ r.2.mem ((c.tc : Thread nD τ).loc main_arg2) = m ((c.tc : Thread nD τ).loc main_arg2)
  ∧ r.2.mem ((c.tc : Thread nD τ).loc main_arg4) = m ((c.tc : Thread nD τ).loc main_arg4)
  ∧ r.2.mem ((c.tc : Thread nD τ).loc main_arg6) = m ((c.tc : Thread nD τ).loc main_arg6)
  ∧ r.2.mem ((c.tc : Thread nD τ).loc main_arg8) = m ((c.tc : Thread nD τ).loc main_arg8)

/-- Every weakly fair run of the program ends as `RunPost` says, for any proof data whose arrays are the region-entry
    contents, whose input shares are `qW`, that owe nothing, whose body obligation holds, and whose invariant is entered
    from and returns to the invariant of the class, which is the core's scratch at some contents and its generator
    register at some state.
    The region's staging cells are funded from the launch element; the kernel has no semaphore of its own and no
    prefetched table; the buffers that bypass the region wait beside it and are handed to the host line after it. -/
theorem run_of (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qW w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (RunPost m dats) := by
  classical
  have hci : Function.Injective (cellOf (nD := nD) (τ := τ) (Pipeline.pin (pcfgs (F := F)) fun q => (cfgs q).toPCfg_adm)) := cellOf_inj
  exact Pipeline.θ_run_region_pf_tail (pcfgs (F := F)) (fun q => (cfgs q).toPCfg_adm) dats () hci 0 winFacts₀0
    (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp))
    (u₀ := initOf (Pipeline.cells (Pipeline.pin (pcfgs (F := F)) fun q => (cfgs q).toPCfg_adm) hci) (Pipeline.launchToks (Pipeline.pin (pcfgs (F := F)) fun q => (cfgs q).toPCfg_adm) hci))
    (hu₀ := by
      iintro Hu; imodintro
      isplitl [Hu]; · iapply (show (ownU _ : sProp 𝕄) ⊢ BI.own (emb₁ (initOf (Pipeline.cells (Pipeline.pin (pcfgs (F := F)) fun q => (cfgs q).toPCfg_adm) hci) (Pipeline.launchToks (Pipeline.pin (pcfgs (F := F)) fun q => (cfgs q).toPCfg_adm) hci))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_of m c (dats 0 c) (hA c) (hq c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => restPost m dats c)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_of m dats c Q')
    (QY := fun c s => s.mem ((c.tc : Thread nD τ).loc main_v5) = shapeCast S32x64x1000 ((dats 0 c).arrAt 11 cfg0.N) shapeCasts_S32x64000_S32x64x1000
      ∧ s.mem ((c.tc : Thread nD τ).loc main_arg2) = V m c main_arg2
      ∧ s.mem ((c.tc : Thread nD τ).loc main_arg4) = V m c main_arg4
      ∧ s.mem ((c.tc : Thread nD τ).loc main_arg6) = V m c main_arg6
      ∧ s.mem ((c.tc : Thread nD τ).loc main_arg8) = V m c main_arg8)
    (hY := fun c s' => hY_of m dats c s')
    (hQ := fun s h c => ⟨(h c).1, (h c).2.2.1, (h c).2.2.2.1.trans (entry_main_arg2 m c), (h c).2.2.2.2.1.trans (entry_main_arg4 m c),
      (h c).2.2.2.2.2.1.trans (entry_main_arg6 m c), (h c).2.2.2.2.2.2.trans (entry_main_arg8 m c)⟩)

end Cert.KernelIdeal.Fr

end
-- ==== Proof.Frame.lean ====
/-
  The proof data of the one pipelined region, and the body obligation.

  The kernel's grid has 25 points and its body has three courses.  At the first point it forms the trunk's
  activation h = relu(relu(s·W1ᵀ + b1)·W2ᵀ + b2) and stores it whole into the scratch matrix, which keeps it for all
  later points; at the second point it stores the first result h·Wcᵀ + bc into the first result's window; and at
  every point t it stores the block h·Wr[2560t .. 2560t+2560]ᵀ + br[2560t .. 2560t+2560] of the second result into the
  second result's window, as two halves side by side.  Nothing accumulates from point to point: the scratch is written
  once, and the first result's window is written once and afterwards left alone until the pipeline writes it back
  after the last point.

  So the contents are stated without recursion on the point: the activation is what the first point's store leaves
  in the scratch; the first result's block is what the second point's store leaves, the scratch holding the
  activation; the second result's block at point t is what that point's two stores leave.  The region invariant holds
  the scratch at anything before the first point and at the activation afterwards.  The first result's window is idle
  at every point but the second; from the third point on its buffer is found at the first result's block, which is
  what the write-back after the last point needs.
-/
import proofs.«136683_g66365834658321_cont_9to1_m_1147_38_alg».proof.Proof.RunA
import proofs.«136683_g66365834658321_cont_9to1_m_1147_38_alg».proof.Proof.RunB
import proofs.«136683_g66365834658321_cont_9to1_m_1147_38_alg».proof.Proof.RunC
import proofs.«136683_g66365834658321_cont_9to1_m_1147_38_alg».proof.Proof.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first and the second grid point. -/
abbrev t0 : Fin cfg0.N := ⟨0, by decide⟩
abbrev t1 : Fin cfg0.N := ⟨1, by decide⟩

/-! ## The three courses of the body at a point, on the point's buffers and the windows' blocks -/

/-- One buffer of each result's window, and the scratch, as views: what the stores leave is stated through them
    (a covering list of stores leaves the same whatever the view and whatever was there before). -/
abbrev VO10 : View sig .tc .vmem S32x1000 .f32 := (Memref.whole cc0_stg10_0 : Memref sig .tc .vmem S32x1000 .f32).view
abbrev VO11 : View sig .tc .vmem S32x2560 .f32 := (Memref.whole cc0_stg11_0 : Memref sig .tc .vmem S32x2560 .f32).view
abbrev VS : View sig .tc .vmem S32x1024 .f32 := scM.view

/-- The body's course at the first point, on that point's buffers and blocks. -/
abbrev runA (c : Dev nD) (t : Fin cfg0.N) (h : t.val = 0) :=
  kernelRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _)
    ((hcond1 t).mpr h) (fun h2 => absurd ((hcond2 t).mp h2) (by omega)) (iblk m c 0 t) (iblk m c 1 t) (iblk m c 2 t) (iblk m c 3 t) (iblk m c 4 t) (iblk m c 5 t) (iblk m c 6 t) (iblk m c 7 t) (iblk m c 8 t) (iblk m c 9 t)

/-- Its course at the second point, the scratch holding `xs`. -/
abbrev runB (c : Dev nD) (t : Fin cfg0.N) (h : t.val = 1) (xs : Vec F S32x1024 .f32) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _)
    (fun h1 => absurd ((hcond1 t).mp h1) (by omega)) ((hcond2 t).mpr h) (iblk m c 0 t) (iblk m c 1 t) (iblk m c 2 t) (iblk m c 3 t) (iblk m c 4 t) (iblk m c 5 t) (iblk m c 6 t) (iblk m c 7 t) (iblk m c 8 t) (iblk m c 9 t) xs

/-- Its course at every later point, the scratch holding `xs`. -/
abbrev runC (c : Dev nD) (t : Fin cfg0.N) (h0 : ¬t.val = 0) (h1 : ¬t.val = 1) (xs : Vec F S32x1024 .f32) :=
  kernelRunC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _)
    (fun h => h0 ((hcond1 t).mp h)) (fun h => h1 ((hcond2 t).mp h)) (iblk m c 0 t) (iblk m c 1 t) (iblk m c 2 t) (iblk m c 3 t) (iblk m c 4 t) (iblk m c 5 t) (iblk m c 6 t) (iblk m c 7 t) (iblk m c 8 t) (iblk m c 9 t) xs

/-! ## The stores of each course cover the buffers they fill -/

/-- The first point's one store into the scratch is of the whole matrix. -/
theorem coverA_S (c : Dev nD) (t : Fin cfg0.N) (h : t.val = 0) (y : S32x1024.Idx) :
    ∃ pc ∈ (runA m c t h).2.1, y ∈ pc.1.set :=
  View.cover_of_tiledL (runA m c t h).2.1 S32x1024.size (by sl_kernel_rfl) y

/-- Its two stores into the second result's buffer, of the left and of the right half, tile the block. -/
theorem coverA_11 (c : Dev nD) (t : Fin cfg0.N) (h : t.val = 0) (y : S32x2560.Idx) :
    ∃ pc ∈ (runA m c t h).1, y ∈ pc.1.set :=
  View.cover_of_tiledL (runA m c t h).1 S32x1280.size (by sl_kernel_rfl) y

/-- The second point's one store into the first result's buffer is of the whole block. -/
theorem coverB_10 (c : Dev nD) (t : Fin cfg0.N) (h : t.val = 1) (xs : Vec F S32x1024 .f32) (y : S32x1000.Idx) :
    ∃ pc ∈ (runB m c t h xs).1, y ∈ pc.1.set :=
  View.cover_of_tiledL (runB m c t h xs).1 S32x1000.size (by sl_kernel_rfl) y

/-- Its two stores into the second result's buffer tile the block. -/
theorem coverB_11 (c : Dev nD) (t : Fin cfg0.N) (h : t.val = 1) (xs : Vec F S32x1024 .f32) (y : S32x2560.Idx) :
    ∃ pc ∈ (runB m c t h xs).2.1, y ∈ pc.1.set :=
  View.cover_of_tiledL (runB m c t h xs).2.1 S32x1280.size (by sl_kernel_rfl) y

/-- A later point's two stores into the second result's buffer tile the block. -/
theorem coverC_11 (c : Dev nD) (t : Fin cfg0.N) (h0 : ¬t.val = 0) (h1 : ¬t.val = 1) (xs : Vec F S32x1024 .f32) (y : S32x2560.Idx) :
    ∃ pc ∈ (runC m c t h0 h1 xs).1, y ∈ pc.1.set :=
  View.cover_of_tiledL (runC m c t h0 h1 xs).1 S32x1280.size (by sl_kernel_rfl) y

/-! ## What the buffers hold -/

/-- The trunk's activation, as the first point leaves it in the scratch. -/
def hval (c : Dev nD) : Vec F S32x1024 .f32 :=
  VS.read (Elt F) (VS.writes (Elt F) VS.junk (runA m c t0 rfl).2.1)

/-- The same named at any first point. -/
theorem hval_eq (c : Dev nD) (t : Fin cfg0.N) (h : t.val = 0) :
    hval m c = VS.read (Elt F) (VS.writes (Elt F) VS.junk (runA m c t h).2.1) := by
  obtain rfl : t = t0 := Fin.ext h
  rfl

/-- The first result's block, as the second point leaves it in its window's buffer. -/
def out10 (c : Dev nD) : Vec F S32x1000 .f32 :=
  VO10.read (Elt F) (VO10.writes (Elt F) VO10.junk (runB m c t1 rfl (hval m c)).1)

theorem out10_eq (c : Dev nD) (t : Fin cfg0.N) (h : t.val = 1) :
    out10 m c = VO10.read (Elt F) (VO10.writes (Elt F) VO10.junk (runB m c t h (hval m c)).1) := by
  obtain rfl : t = t1 := Fin.ext h
  rfl

/-- The second result's block at point `t`, as that point leaves it in its window's buffer. -/
def out11 (c : Dev nD) (t : Fin cfg0.N) : Vec F S32x2560 .f32 :=
  if h0 : t.val = 0 then VO11.read (Elt F) (VO11.writes (Elt F) VO11.junk (runA m c t h0).1)
  else if h1 : t.val = 1 then VO11.read (Elt F) (VO11.writes (Elt F) VO11.junk (runB m c t h1 (hval m c)).2.1)
  else VO11.read (Elt F) (VO11.writes (Elt F) VO11.junk (runC m c t h0 h1 (hval m c)).1)

theorem out11_A (c : Dev nD) (t : Fin cfg0.N) (h0 : t.val = 0) :
    out11 m c t = VO11.read (Elt F) (VO11.writes (Elt F) VO11.junk (runA m c t h0).1) := dif_pos h0
theorem out11_B (c : Dev nD) (t : Fin cfg0.N) (h1 : t.val = 1) :
    out11 m c t = VO11.read (Elt F) (VO11.writes (Elt F) VO11.junk (runB m c t h1 (hval m c)).2.1) :=
  (dif_neg (by omega)).trans (dif_pos h1)
theorem out11_C (c : Dev nD) (t : Fin cfg0.N) (h0 : ¬t.val = 0) (h1 : ¬t.val = 1) :
    out11 m c t = VO11.read (Elt F) (VO11.writes (Elt F) VO11.junk (runC m c t h0 h1 (hval m c)).1) :=
  (dif_neg h0).trans (dif_neg h1)

/-! ## The region invariant -/

/-- Before the first point the class's invariant (the scratch at anything); before every later point — and after
    the last — the scratch at the trunk's activation, and the generator register at some state. -/
def PhiS (c : Dev nD) : ℕ → sProp 𝕄
  | 0 => Pipeline.ΦA spec0 c
  | _ + 1 => iprop(iprop(owns (c : Thread nD τ) scM fullShare (hval m c)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM fullShare (hval m c)) ∗ (∃ r, prngReg c r)) := rfl

theorem PhiS_pos (c : Dev nD) (n : ℕ) (hz : n ≠ 0) :
    PhiS m c n = iprop(iprop(owns (c : Thread nD τ) scM fullShare (hval m c)) ∗ (∃ r, prngReg c r)) := by
  cases n with
  | zero => exact absurd rfl hz
  | succ n => rfl

/-! ## The pipeline's proof data -/

/-- The proof data on core `c`: the arrays as the region finds them; after the body at point `t` each input's buffer
    at its block, the first result's at the first result's block (at every point: before the second point nothing
    consults it, the window being idle and not written back there), the second result's at its block of point `t`;
    the invariant above; nothing owed; the last weight matrix's two windows at a half share each, every other input's
    at the whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c
    | ⟨11, _⟩ => out11 m c t
  Φ t := PhiS m c t.val
  q w := qW w
  owed _ := 0

theorem A_eq (c : Dev nD) (w : Fin cfg0.W) : (dats m 0 c).A w = V m c (Pipeline.arrRef spec0 w) := by
  dsimp only [dats]
theorem q_eq (c : Dev nD) (w : Fin cfg0.W) : (dats m 0 c).q w = qW w := by
  dsimp only [dats]
theorem owed_eq (c : Dev nD) (t : Fin (cfg0.N + 1)) : (dats m 0 c).owed t = 0 := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out10 m c := by dsimp only [dats]
theorem after0_11 (c : Dev nD) (t : Fin cfg0.N) : (dats m 0 c).after 11 t = out11 m c t := by dsimp only [dats]

/-! ## What the body finds in the inputs' buffers -/

/-- Each input's current buffer holds its block at every point, fetched there or not: where it is not fetched its
    block index has not moved since the point before, and the body leaves inputs as it finds them. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)

/-! ## What the body finds in the first result's buffer -/

/-- A result's window is never fetched. -/
theorem nofetch10 (t : Fin cfg0.N) : (cfg0.win 10).fetch t = false := Window.fetch_out _ rfl t

/-- From the third point on the first result's buffer holds the first result's block: the second point stored it
    there, no later point stores into the buffer, and it is not written back before the last point. -/
theorem before10 (c : Dev nD) (t : Fin cfg0.N) (h2 : 2 ≤ t.val) (d) : (dats m 0 c).before 10 t d = out10 m c := by
  induction hn : t.val using Nat.strong_induction_on generalizing t with
  | _ n ih =>
    subst hn
    have hN : t.val < 25 := lt_of_lt_of_eq t.isLt (show cfg0.N = 25 from N_0)
    rw [Dat.before_of_pos (dats m 0 c) 10 t (by omega) (nofetch10 t) d]
    generalize hp : (⟨t.val - 1, Nat.lt_of_le_of_lt (Nat.sub_le _ _) t.isLt⟩ : Fin cfg0.N) = p
    have hpv : p.val = t.val - 1 := by rw [← hp]
    have hfl : (cfg0.win 10).flush p = false := by
      rw [Bool.eq_false_iff]; intro hf; have := (flush10 p).mp hf; omega
    rw [hfl, if_neg Bool.false_ne_true]
    unfold Dat.left
    by_cases hk : p.val = 1
    · rw [liveAt10 p ((hcond2 p).mpr hk)]
      unfold Dat.kept; rw [after0_10]; rfl
    · rw [idleAt10 p (fun h => hk ((hcond2 p).mp h))]
      exact ih p.val (by omega) p (by omega) rfl

/-! ## What the body returns, window by window -/

/-- A window other than the first result's is stored into (or, an input, held at its block) at every point: the body
    returns its buffer at what the proof data say. -/
theorem leaves_live (c : Dev nD) (w : Fin 12) (hw : w ≠ 10) (t : Fin cfg0.N) :
    (dats m 0 c).leavesExact w t
      = owns (c : Thread nD τ) ((cfg0.win w).stage (cfg0.slots t w)) fullShare ((dats m 0 c).after w t) := by
  unfold Dat.leavesExact; rw [liveAt w hw t]

/-- The first result's window at the second point: stored into, so returned at the first result's block. -/
theorem leaves10_B (c : Dev nD) (t : Fin cfg0.N) (h : t.val = 1) :
    (dats m 0 c).leavesExact 10 t = owns (c : Thread nD τ) (ms10 t) fullShare (out10 m c) := by
  unfold Dat.leavesExact; rw [liveAt10 t ((hcond2 t).mpr h), after0_10]

/-- At a point other than the second and the last: returned as found. -/
theorem leaves10_idle (c : Dev nD) (t : Fin cfg0.N) (h1 : ¬t.val = 1) (h24 : ¬t.val = 24) :
    (dats m 0 c).leavesExact 10 t
      = iprop(∃ d, owns (c : Thread nD τ) (ms10 t) fullShare ((dats m 0 c).before 10 t d)) :=
  Dat.leavesExact_idle (dats m 0 c) 10 t (idleAt10 t (fun h => h1 ((hcond2 t).mp h)))
    (by rw [Bool.eq_false_iff]; intro hf; exact h24 ((flush10 t).mp hf))

/-- At the last point: not stored into but written back, so returned at the first result's block. -/
theorem leaves10_last (c : Dev nD) (t : Fin cfg0.N) (h24 : t.val = 24) :
    (dats m 0 c).leavesExact 10 t = owns (c : Thread nD τ) (ms10 t) fullShare (out10 m c) := by
  unfold Dat.leavesExact
  rw [idleAt10 t (fun h => by have := (hcond2 t).mp h; omega), (flush10 t).mpr h24, after0_10]

/-! ## The body obligation, at a generic point -/

/-- What the body is called with at point `t`: the invariant, what the core owes, and the twelve windows' current
    buffers at what they then hold; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The windows other than the first result's, returned at what the proof data say. -/
theorem leaves0_0 (c : Dev nD) (t : Fin cfg0.N) :
    (dats m 0 c).leavesExact 0 t = owns (c : Thread nD τ) (ms0 t) fullShare (iblk m c 0 t) := by
  unfold Dat.leavesExact; rw [liveAt 0 (by decide) t, after0_0]
theorem leaves0_1 (c : Dev nD) (t : Fin cfg0.N) :
    (dats m 0 c).leavesExact 1 t = owns (c : Thread nD τ) (ms1 t) fullShare (iblk m c 1 t) := by
  unfold Dat.leavesExact; rw [liveAt 1 (by decide) t, after0_1]
theorem leaves0_2 (c : Dev nD) (t : Fin cfg0.N) :
    (dats m 0 c).leavesExact 2 t = owns (c : Thread nD τ) (ms2 t) fullShare (iblk m c 2 t) := by
  unfold Dat.leavesExact; rw [liveAt 2 (by decide) t, after0_2]
theorem leaves0_3 (c : Dev nD) (t : Fin cfg0.N) :
    (dats m 0 c).leavesExact 3 t = owns (c : Thread nD τ) (ms3 t) fullShare (iblk m c 3 t) := by
  unfold Dat.leavesExact; rw [liveAt 3 (by decide) t, after0_3]
theorem leaves0_4 (c : Dev nD) (t : Fin cfg0.N) :
    (dats m 0 c).leavesExact 4 t = owns (c : Thread nD τ) (ms4 t) fullShare (iblk m c 4 t) := by
  unfold Dat.leavesExact; rw [liveAt 4 (by decide) t, after0_4]
theorem leaves0_5 (c : Dev nD) (t : Fin cfg0.N) :
    (dats m 0 c).leavesExact 5 t = owns (c : Thread nD τ) (ms5 t) fullShare (iblk m c 5 t) := by
  unfold Dat.leavesExact; rw [liveAt 5 (by decide) t, after0_5]
theorem leaves0_6 (c : Dev nD) (t : Fin cfg0.N) :
    (dats m 0 c).leavesExact 6 t = owns (c : Thread nD τ) (ms6 t) fullShare (iblk m c 6 t) := by
  unfold Dat.leavesExact; rw [liveAt 6 (by decide) t, after0_6]
theorem leaves0_7 (c : Dev nD) (t : Fin cfg0.N) :
    (dats m 0 c).leavesExact 7 t = owns (c : Thread nD τ) (ms7 t) fullShare (iblk m c 7 t) := by
  unfold Dat.leavesExact; rw [liveAt 7 (by decide) t, after0_7]
theorem leaves0_8 (c : Dev nD) (t : Fin cfg0.N) :
    (dats m 0 c).leavesExact 8 t = owns (c : Thread nD τ) (ms8 t) fullShare (iblk m c 8 t) := by
  unfold Dat.leavesExact; rw [liveAt 8 (by decide) t, after0_8]
theorem leaves0_9 (c : Dev nD) (t : Fin cfg0.N) :
    (dats m 0 c).leavesExact 9 t = owns (c : Thread nD τ) (ms9 t) fullShare (iblk m c 9 t) := by
  unfold Dat.leavesExact; rw [liveAt 9 (by decide) t, after0_9]
theorem leaves0_11 (c : Dev nD) (t : Fin cfg0.N) :
    (dats m 0 c).leavesExact 11 t = owns (c : Thread nD τ) (ms11 t) fullShare (out11 m c t) := by
  unfold Dat.leavesExact; rw [liveAt 11 (by decide) t, after0_11]

set_option maxHeartbeats 4000000 in
/-- The first point.  The invariant hands over the scratch at anything; the first result's buffer goes in and comes
    back as found (the window is idle and not written back here); the scratch comes back at the activation and the
    second result's buffer at its first block, both by the covers. -/
theorem bodyA (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [Phi_succ, PhiS_succ, Phi_castSucc, PhiS_zero m c _ h0, PhiA_eq]
  rw [leaves0_0, leaves0_1, leaves0_2, leaves0_3, leaves0_4, leaves0_5, leaves0_6, leaves0_7, leaves0_8, leaves0_9, leaves0_11, leaves10_idle m c t (by omega) (by omega)]
  rw [out11_A m c t h0, hval_eq m c t h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runA m c t h0).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS]; · iexact HS
  iintro ⟨H0, H1, H2, H3, H4, H5, H6, H7, H8, H9, H10, ⟨%e11, H11⟩, ⟨%es, HS⟩⟩
  isplitl [HS Hg]
  · isplitl [HS]
    · unfold owns; iexists _; isplitr
      swap; · iexact HS
      ipureintro; exact View.read_writes_of_cover _ _ _ _ _ (coverA_S m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  unfold owns; iexists _; isplitr
  swap; · iexact H11
  ipureintro; exact View.read_writes_of_cover _ _ _ _ _ (coverA_11 m c t h0)

set_option maxHeartbeats 4000000 in
/-- The second point.  The scratch goes in and comes back at the activation; the first result's buffer, found at
    anything, comes back at the first result's block and the second result's at its second block, by the covers. -/
theorem bodyB (c : Dev nD) (t : Fin cfg0.N) (h1 : t.val = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [Phi_succ, PhiS_succ, Phi_castSucc, PhiS_pos m c _ (by omega)]
  rw [leaves0_0, leaves0_1, leaves0_2, leaves0_3, leaves0_4, leaves0_5, leaves0_6, leaves0_7, leaves0_8, leaves0_9, leaves0_11, leaves10_B m c t h1]
  rw [out11_B m c t h1, out10_eq m c t h1]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB m c t h1 (hval m c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS]; · iexact HS
  iintro ⟨H0, H1, H2, H3, H4, H5, H6, H7, H8, H9, ⟨%e10, H10⟩, ⟨%e11, H11⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverB_10 m c t h1 _)
  unfold owns; iexists _; isplitr
  swap; · iexact H11
  ipureintro; exact View.read_writes_of_cover _ _ _ _ _ (coverB_11 m c t h1 _)

set_option maxHeartbeats 4000000 in
/-- A later point.  The scratch goes in and comes back at the activation; the first result's buffer goes in and
    comes back as found — at the last point, where it is written back, that is the first result's block; the second
    result's buffer comes back at its block of this point, by the cover. -/
theorem bodyC (c : Dev nD) (t : Fin cfg0.N) (h0 : ¬t.val = 0) (h1 : ¬t.val = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [Phi_succ, PhiS_succ, Phi_castSucc, PhiS_pos m c _ h0]
  rw [leaves0_0, leaves0_1, leaves0_2, leaves0_3, leaves0_4, leaves0_5, leaves0_6, leaves0_7, leaves0_8, leaves0_9, leaves0_11]
  rw [out11_C m c t h0 h1]
  by_cases h24 : t.val = 24
  · rw [leaves10_last m c t h24]
    simp only [before10 m c t (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runC m c t h0 h1 (hval m c)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS]; · iexact HS
    iintro ⟨H0, H1, H2, H3, H4, H5, H6, H7, H8, H9, H10, ⟨%e11, H11⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr
    swap; · iexact H11
    ipureintro; exact View.read_writes_of_cover _ _ _ _ _ (coverC_11 m c t h0 h1 _)
  · rw [leaves10_idle m c t h1 h24]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runC m c t h0 h1 (hval m c)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS]; · iexact HS
    iintro ⟨H0, H1, H2, H3, H4, H5, H6, H7, H8, H9, H10, ⟨%e11, H11⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    unfold owns; iexists _; isplitr
    swap; · iexact H11
    ipureintro; exact View.read_writes_of_cover _ _ _ _ _ (coverC_11 m c t h0 h1 _)

/-- The body at any point: by the point's course. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact bodyA m c t h0
  · by_cases h1 : t.val = 1
    · exact bodyB m c t h1
    · exact bodyC m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the class's back: that the scratch holds the activation is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 25 := N_0; omega), PhiA_eq]
  iintro ⟨HS, Hg⟩
  isplitl [HS]
  · iexists _; iexact HS
  iexact Hg

/-- The run of the whole program over these proof data. -/
theorem run_main : θ_run defs (onTc (τ := τ) (main (F := F))) (s₀ m ρ) (RunPost m (dats m)) :=
  run_of m ρ (dats m) (A_eq m) (q_eq m) (owed_eq m) (fun c => (body_obligation m c).loose) (hin m) (hout m)

end Cert.KernelIdeal.Fr

end
-- ==== Proof.Kept.lean ====
/-
  The argument arrays after the run.  The four host lines before the region write only the four single-row copies of
  the bias vectors, so the region finds every argument array as it was launched; an input window's array is never
  written by the pipeline, so it ends as the region found it; the four bias vectors are staged by no window and end
  as they were.  Together: all nine argument arrays end unchanged.
-/
import proofs.«136683_g66365834658321_cont_9to1_m_1147_38_alg».proof.Proof.Frame
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem entry_main_arg0 (c : Dev nD) : V m c main_arg0 = m ((c.tc : Thread nD τ).loc main_arg0) := by
  show StableHlo.after (List.flatten [hostOps0]) (fun b => m (c, b)) (Proc.devRef .tc main_arg0) = _
  simp only [hostOps0, List.flatten_cons, List.flatten_nil, List.append_nil]
  after_results
theorem entry_main_arg1 (c : Dev nD) : V m c main_arg1 = m ((c.tc : Thread nD τ).loc main_arg1) := by
  show StableHlo.after (List.flatten [hostOps0]) (fun b => m (c, b)) (Proc.devRef .tc main_arg1) = _
  simp only [hostOps0, List.flatten_cons, List.flatten_nil, List.append_nil]
  after_results
theorem entry_main_arg3 (c : Dev nD) : V m c main_arg3 = m ((c.tc : Thread nD τ).loc main_arg3) := by
  show StableHlo.after (List.flatten [hostOps0]) (fun b => m (c, b)) (Proc.devRef .tc main_arg3) = _
  simp only [hostOps0, List.flatten_cons, List.flatten_nil, List.append_nil]
  after_results
theorem entry_main_arg5 (c : Dev nD) : V m c main_arg5 = m ((c.tc : Thread nD τ).loc main_arg5) := by
  show StableHlo.after (List.flatten [hostOps0]) (fun b => m (c, b)) (Proc.devRef .tc main_arg5) = _
  simp only [hostOps0, List.flatten_cons, List.flatten_nil, List.append_nil]
  after_results
theorem entry_main_arg7 (c : Dev nD) : V m c main_arg7 = m ((c.tc : Thread nD τ).loc main_arg7) := by
  show StableHlo.after (List.flatten [hostOps0]) (fun b => m (c, b)) (Proc.devRef .tc main_arg7) = _
  simp only [hostOps0, List.flatten_cons, List.flatten_nil, List.append_nil]
  after_results

/-- What the run's post says of the nine argument arrays: each ends at its launch contents. -/
theorem kept_of_post {r : PUnit × MemSt nD τ sig (Elt F)} (h : RunPost m (dats m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  obtain ⟨hw, -, h2, h4, h6, h8⟩ := h c
  refine ⟨?_, ?_, h2, ?_, h4, ?_, h6, ?_, h8⟩
  · exact (hw 0).trans (((dats m 0 c).arrAt_in 0 rfl _).trans ((A_eq m c 0).trans (entry_main_arg0 m c)))
  · exact (hw 1).trans (((dats m 0 c).arrAt_in 1 rfl _).trans ((A_eq m c 1).trans (entry_main_arg1 m c)))
  · exact (hw 3).trans (((dats m 0 c).arrAt_in 3 rfl _).trans ((A_eq m c 3).trans (entry_main_arg3 m c)))
  · exact (hw 5).trans (((dats m 0 c).arrAt_in 5 rfl _).trans ((A_eq m c 5).trans (entry_main_arg5 m c)))
  · exact (hw 7).trans (((dats m 0 c).arrAt_in 7 rfl _).trans ((A_eq m c 7).trans (entry_main_arg7 m c)))

/-- The frame: the program runs to its end, faults nowhere, and leaves its nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ h c => kept_of_post m h c) (run_main m ρ)

end Cert.KernelIdeal.Fr

end
-- ==== Proof.Bits.Common.lean ====
/-
  What every module of the kernel's run shares: the contents of the core's buffers when the one pipelined region is
  entered (the four bias vectors re-laid as single-row matrices by the host lines before it), each window's block at a
  grid point read off those contents, the two conditions the body branches on — "this is the first grid point" and
  "this is the second" — decided over the 25 points, the points at which the first result's window receives no store,
  and names for the staging memrefs the body is called with and for the scratch matrix that carries the trunk's
  activation from the first point to all later ones.
-/
import proofs.«136683_g66365834658321_cont_9to1_m_1147_38_alg».proof.Proof.Gen.Kernel.Launch
import proofs.«136683_g66365834658321_cont_9to1_m_1147_38_alg».proof.Proof.Gen.Kernel.Skeleton
import proofs.«136683_g66365834658321_cont_9to1_m_1147_38_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the four re-layings of the bias vectors. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the four re-layings, the region, and the re-laying of the second result: it reduces to the region
    continued by that last line, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- "This is the first grid point", as the body computes it. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)
/-- "This is the second grid point", as the body computes it. -/
abbrev cond2 (i : grid0.Coords) : Prop := k0_cond2 i = 1#1
theorem hcond2 : ∀ t : Fin cfg0.N, cond2 (grid0.coords t) ↔ t.val = 1 :=
  (by decide +kernel : ∀ t : Fin grid0.N, cond2 (grid0.coords t) ↔ t.val = 1)

/-! ## Where the windows receive no store -/

theorem liveAt (w : Fin 12) (hw : w ≠ 10) : ∀ t : Fin cfg0.N, cfg0.idle w (grid0.coords t) = false := by
  revert w; decide +kernel
/-- The first result's window is stored into at the second point only. -/
theorem idleAt10 : ∀ t : Fin cfg0.N, ¬cond2 (grid0.coords t) → cfg0.idle 10 (grid0.coords t) = true := by decide +kernel
theorem liveAt10 : ∀ t : Fin cfg0.N, cond2 (grid0.coords t) → cfg0.idle 10 (grid0.coords t) = false := by decide +kernel
/-- It is written back after the last point only. -/
theorem flush10 : ∀ t : Fin cfg0.N, (cfg0.win 10).flush t = true ↔ t.val = 24 :=
  (by decide +kernel : ∀ t : Fin grid0.N, win0_10.flush t = true ↔ t.val = 24)

/-! ## The memrefs the body is called with -/

abbrev ms0 (t : Fin cfg0.N) : Memref sig .tc .vmem S32x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1000x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1280x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1280x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2560 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S32x1000 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S32x2560 .f32 := win0_11.stage (cfg0.slots t 11)
abbrev hs11 (t : Fin cfg0.N) : (ms11 t).IsWhole := hstage0_11 ((cfg0.slots t 11).cast nbuf0_11)
/-- The scratch matrix, a whole buffer of the kernel's own. -/
abbrev scM : Memref sig .tc .vmem S32x1024 .f32 := Memref.whole cc0_scratch0

/-- The class's region invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.Bits.RunA.lean ====
/-
  The kernel body at the FIRST grid point.

  At this point the first of the body's two conditions holds and the second does not.  The body reads the batch of
  states and the two layers' weights and biases (the first five windows), forms the trunk's activation
  relu(relu(s·W1ᵀ + b1)·W2ᵀ + b2), and stores it whole into the scratch matrix; the scratch is read once before that
  store, at whatever it then holds, and the value read is not used.  The block that computes the first result is
  skipped, so the first result's window is left exactly as it was found.  After that the scratch is read back — it now
  holds the activation just stored — and the two halves of the second result's block are stored side by side into the
  second result's window: the activation times the transpose of each of the two 1280-row blocks of the last weight
  matrix, plus the matching half of the bias row.

  The definition below is the pair of lists of pieces those stores leave in the second result's window and in the
  scratch, together with the proof that from the thirteen buffers owned whole — the eleven it does not store into at
  named contents, the other two at anything — the body runs to a continuation that holds the eleven as they were and
  the two with their pieces written.
-/
import proofs.«136683_g66365834658321_cont_9to1_m_1147_38_alg».proof.Proof.Bits.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRunA (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S1x2560 .f32) (harg10 : arg10.IsWhole) (arg11 : Memref sig .tc .vmem S32x1000 .f32) (harg11 : arg11.IsWhole) (arg12 : Memref sig .tc .vmem S32x2560 .f32) (harg12 : arg12.IsWhole) (arg13 : Memref sig .tc .vmem S32x1024 .f32) (harg13 : arg13.IsWhole) (hc1 : cond1 i) (hc2 : ¬cond2 i)
    (x0 : Vec F S32x256 .f32) (x1 : Vec F S1024x256 .f32) (x2 : Vec F S1x1024 .f32) (x3 : Vec F S1024x1024 .f32) (x4 : Vec F S1x1024 .f32) (x5 : Vec F S1000x1024 .f32) (x6 : Vec F S1x1000 .f32) (x7 : Vec F S1280x1024 .f32) (x8 : Vec F S1280x1024 .f32) (x9 : Vec F S1x2560 .f32) :
    Σ' (L11 : List (View.Piece (Elt F) S32x2560 .f32)), { LS : List (View.Piece (Elt F) S32x1024 .f32) //
      ∀ (xi10 : Vec F S32x1000 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi10 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg10.eq_unread hf9; obtain rfl := harg11.eq_unread hf10
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; iexact HS

end Cert.Kernel.Fr

end
-- ==== Proof.Bits.RunB.lean ====
/-
  The body at the second grid point. The first condition fails there and the second holds, so the trunk is not
  recomputed: the scratch matrix still holds the activation h the first point left in it, and it is only read. From h,
  the cache head's weight block Wc (1000 rows of 1024) and its bias row bc the body forms h·Wcᵀ + bc, a 32 × 1000
  matrix, and stores it over the whole of the first result's buffer (whatever that buffer held is read once and
  discarded). It then forms the two halves of this point's block of the rec head — h·Waᵀ + ba and h·Wbᵀ + bb, where
  Wa, Wb are the two consecutive 1280-row blocks of Wr and ba, bb the two halves of the 2560 bias entries in the
  window — and stores them side by side, columns 0..1279 and 1280..2559, into the second result's buffer. Every input
  buffer is left as it was found; the two result buffers end with exactly these stores written over what they held.
-/
import proofs.«136683_g66365834658321_cont_9to1_m_1147_38_alg».proof.Proof.Bits.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the second point's stores leave in the two result buffers (the cache head over the whole of the first,
    the two halves of the rec block side by side in the second), with the run of the body from the buffers owned at
    their contents to the continuation holding them so written. -/
noncomputable def kernelRunB (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S1x2560 .f32) (harg10 : arg10.IsWhole) (arg11 : Memref sig .tc .vmem S32x1000 .f32) (harg11 : arg11.IsWhole) (arg12 : Memref sig .tc .vmem S32x2560 .f32) (harg12 : arg12.IsWhole) (arg13 : Memref sig .tc .vmem S32x1024 .f32) (harg13 : arg13.IsWhole) (hc1 : ¬cond1 i) (hc2 : cond2 i)
    (x0 : Vec F S32x256 .f32) (x1 : Vec F S1024x256 .f32) (x2 : Vec F S1x1024 .f32) (x3 : Vec F S1024x1024 .f32) (x4 : Vec F S1x1024 .f32) (x5 : Vec F S1000x1024 .f32) (x6 : Vec F S1x1000 .f32) (x7 : Vec F S1280x1024 .f32) (x8 : Vec F S1280x1024 .f32) (x9 : Vec F S1x2560 .f32) (xs : Vec F S32x1024 .f32) :
    Σ' (L10 : List (View.Piece (Elt F) S32x1000 .f32)), { L11 : List (View.Piece (Elt F) S32x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    obtain rfl := harg13.eq_unread hfs
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    iexists _; isplitr; · ipureintro; exact harg13.read_unread _
    iexact HS

end Cert.Kernel.Fr

end
-- ==== Proof.Bits.RunC.lean ====
/-
  The body at every grid point after the second. Both conditions fail there: the trunk is not recomputed and the cache
  head is not touched, so the scratch matrix, still holding the activation h the first point left in it, is only read,
  and the first result's buffer is handed back exactly as it was found. The body forms the two halves of this point's
  block of the rec head — h·Waᵀ + ba and h·Wbᵀ + bb, where Wa, Wb are the two consecutive 1280-row blocks of Wr in the
  two weight windows and ba, bb the two halves of the 2560 bias entries in the bias window — and stores them side by
  side, columns 0..1279 and 1280..2559, into the second result's buffer. Every input buffer is left as it was found;
  the second result's buffer ends with exactly these two stores written over what it held.
-/
import proofs.«136683_g66365834658321_cont_9to1_m_1147_38_alg».proof.Proof.Bits.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a later point's stores leave in the second result's buffer (the two halves of the rec block side by
    side), with the run of the body from the buffers owned at their contents to the continuation holding the inputs,
    the first result's buffer and the scratch as they were and the second result's buffer so written. -/
noncomputable def kernelRunC (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S1x2560 .f32) (harg10 : arg10.IsWhole) (arg11 : Memref sig .tc .vmem S32x1000 .f32) (harg11 : arg11.IsWhole) (arg12 : Memref sig .tc .vmem S32x2560 .f32) (harg12 : arg12.IsWhole) (arg13 : Memref sig .tc .vmem S32x1024 .f32) (harg13 : arg13.IsWhole) (hc1 : ¬cond1 i) (hc2 : ¬cond2 i)
    (x0 : Vec F S32x256 .f32) (x1 : Vec F S1024x256 .f32) (x2 : Vec F S1x1024 .f32) (x3 : Vec F S1024x1024 .f32) (x4 : Vec F S1x1024 .f32) (x5 : Vec F S1000x1024 .f32) (x6 : Vec F S1x1000 .f32) (x7 : Vec F S1280x1024 .f32) (x8 : Vec F S1280x1024 .f32) (x9 : Vec F S1x2560 .f32) (xs : Vec F S32x1024 .f32) :
    { L11 : List (View.Piece (Elt F) S32x2560 .f32) //
      ∀ (xi10 : Vec F S32x1000 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d) ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f L11) ∗ owns (c : Thread nD τ) arg13 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, fun xi10 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    obtain rfl := harg13.eq_unread hfs
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; isplitr; · ipureintro; exact harg13.read_unread _
    iexact HS

end Cert.Kernel.Fr

end
-- ==== Proof.Bits.LaunchRead.lean ====
/-
  Reading the final state of the run.

  When the program has run, each core owns, beside the arrays of the pipelined region, five more buffers at known
  contents: the four bias vectors, which no line of the program writes, and the second result re-laid as
  32 × 64 × 1000, which the last host line writes from the region's second output array.  Owning a buffer at given
  contents, together with the state interpretation of a physical state, says that this state's memory holds those
  contents at the buffer: so the final memory holds the re-laid result at its buffer and the four bias vectors as the
  region found them.  The region finds the four bias vectors as the launch left them, because the four host lines
  before the region write their own result buffers only.
-/
import proofs.«136683_g66365834658321_cont_9to1_m_1147_38_alg».proof.Proof.Bits.Common
import Idealize.ShloMosaic.Lib.StableHlo.Run
import Idealize.ShloMosaic.Lib.Pipeline.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The bias vectors when the region is entered -/

/-- The first layer's bias vector is, when the region is entered, what the launch left: the host lines before the
    region write their own results only. -/
theorem entry_main_arg2 (c : Dev nD) : V m c main_arg2 = m ((c.tc : Thread nD τ).loc main_arg2) := by
  show StableHlo.after (List.flatten [hostOps0]) (fun b => m (c, b)) (Proc.devRef .tc main_arg2) = _
  simp only [hostOps0, List.flatten_cons, List.flatten_nil, List.append_nil]; after_results
/-- The same for the second layer's bias vector. -/
theorem entry_main_arg4 (c : Dev nD) : V m c main_arg4 = m ((c.tc : Thread nD τ).loc main_arg4) := by
  show StableHlo.after (List.flatten [hostOps0]) (fun b => m (c, b)) (Proc.devRef .tc main_arg4) = _
  simp only [hostOps0, List.flatten_cons, List.flatten_nil, List.append_nil]; after_results
/-- The same for the first head's bias vector. -/
theorem entry_main_arg6 (c : Dev nD) : V m c main_arg6 = m ((c.tc : Thread nD τ).loc main_arg6) := by
  show StableHlo.after (List.flatten [hostOps0]) (fun b => m (c, b)) (Proc.devRef .tc main_arg6) = _
  simp only [hostOps0, List.flatten_cons, List.flatten_nil, List.append_nil]; after_results
/-- The same for the second head's bias vector. -/
theorem entry_main_arg8 (c : Dev nD) : V m c main_arg8 = m ((c.tc : Thread nD τ).loc main_arg8) := by
  show StableHlo.after (List.flatten [hostOps0]) (fun b => m (c, b)) (Proc.devRef .tc main_arg8) = _
  simp only [hostOps0, List.flatten_cons, List.flatten_nil, List.append_nil]; after_results

/-! ## Reading owned buffers off the final state -/

/-- A buffer owned whole at contents `f`, against the state interpretation of `s'`: the memory of `s'` holds `f` there. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨Hi, HSI⟩
  icombine HSI Hi gives %h
  isplitr
  · ipureintro; exact Buf.eq_of_forall_mem_univ h
  · iexact HSI

/-- What a core owns after the last host line beside the region's arrays: the four bias vectors at what the region
    found, and the second result re-laid as 32 × 64 × 1000 from the region's second output array. -/
def restPost (dats : (p : Fin 1) → (c : Dev nD) → Dat τ (Elt F) Unit ℕ (UR sig nD τ) ℕ (cfgs p) c) (c : Dev nD) : sProp 𝕄 :=
  iprop((((c : Thread nD τ).loc main_arg2) ↦{fullShare} V m c main_arg2) ∗ (((c : Thread nD τ).loc main_arg4) ↦{fullShare} V m c main_arg4) ∗ (((c : Thread nD τ).loc main_arg6) ↦{fullShare} V m c main_arg6) ∗ (((c : Thread nD τ).loc main_arg8) ↦{fullShare} V m c main_arg8) ∗ (((c : Thread nD τ).loc main_v5) ↦{fullShare} shapeCast S32x64x1000 ((dats 0 c).arrAt 11 cfg0.N) shapeCasts_S32x64000_S32x64x1000))

/-- Those five buffers read off the final state: its memory holds their contents. -/
theorem hY_of (dats : (p : Fin 1) → (c : Dev nD) → Dat τ (Elt F) Unit ℕ (UR sig nD τ) ℕ (cfgs p) c) (c : Dev nD) (s' : Phys nD τ sig (Elt F)) :
    iprop((∃ r, prngReg c r) ∗ restPost m dats c ∗ SI s') ⊢ |={Set.univ}=> iprop(⌜s'.mem.mem ((c.tc : Thread nD τ).loc main_v5) = shapeCast S32x64x1000 ((dats 0 c).arrAt 11 cfg0.N) shapeCasts_S32x64000_S32x64x1000 ∧ s'.mem.mem ((c.tc : Thread nD τ).loc main_arg2) = V m c main_arg2 ∧ s'.mem.mem ((c.tc : Thread nD τ).loc main_arg4) = V m c main_arg4 ∧ s'.mem.mem ((c.tc : Thread nD τ).loc main_arg6) = V m c main_arg6 ∧ s'.mem.mem ((c.tc : Thread nD τ).loc main_arg8) = V m c main_arg8⌝ ∗ SI s') := by
  unfold restPost
  iintro ⟨-, ⟨H2, H4, H6, H8, H5⟩, HSI⟩
  imodintro
  ihave H := read_one _ _ s' $$ [H2 HSI]
  · isplitl [H2] <;> iassumption
  icases H with ⟨%h2, HSI⟩
  ihave H := read_one _ _ s' $$ [H4 HSI]
  · isplitl [H4] <;> iassumption
  icases H with ⟨%h4, HSI⟩
  ihave H := read_one _ _ s' $$ [H6 HSI]
  · isplitl [H6] <;> iassumption
  icases H with ⟨%h6, HSI⟩
  ihave H := read_one _ _ s' $$ [H8 HSI]
  · isplitl [H8] <;> iassumption
  icases H with ⟨%h8, HSI⟩
  ihave H := read_one _ _ s' $$ [H5 HSI]
  · isplitl [H5] <;> iassumption
  icases H with ⟨%h5, HSI⟩
  isplitr
  · ipureintro; exact ⟨h5, h2, h4, h6, h8⟩
  · iexact HSI

end Cert.Kernel.Fr

end
-- ==== Proof.Bits.Launch.lean ====
/-
  The launch of the one pipelined region, for any proof data.

  The program is four host lines (the bias vectors re-laid as single-row matrices), one pipelined region over 25 grid
  points, and one host line (the second result re-laid as 32 × 64 × 1000).  Twelve windows read and write eleven
  buffers: the weight matrix of the second head is handed to the region twice, so two input windows sit on one buffer.
  The launch therefore cannot give every window its array at the full share.  Three things are settled here by hand:

  * how the eleven buffers, each whole at the full share at the region's entry, make the twelve windows' arrays: the
    shared buffer's full share is cut into its two halves, one for each of the two windows on it, and every other buffer
    goes whole to its one window;
  * the host line after the region: it reads the second result's array, which is an output and so comes back from the
    region whole at the full share, and writes a buffer that bypasses the region; only those two buffers are touched, and
    they are put back with the written one at the re-laid contents;
  * the final state: every window's array at what the proof data compute, the re-laid second result, and the four bias
    vectors as the launch left them (no line of the program writes them).
-/
import proofs.«136683_g66365834658321_cont_9to1_m_1147_38_alg».proof.Proof.Bits.Common
import proofs.«136683_g66365834658321_cont_9to1_m_1147_38_alg».proof.Proof.Bits.LaunchRead

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of its array each input window holds: the weight matrix of the second head is read by two windows,
    which hold a half each; every other array is read by one window, which holds it whole. -/
def qW : Fin 12 → PosShare TreeShare := fun w => if w = 7 then fullShare.left else if w = 8 then fullShare.right else fullShare

/-! ## The eleven buffers dealt among the twelve windows -/

/-- The eleven buffers behind the twelve windows' arrays. -/
theorem arrImage : Finset.univ.image (Pipeline.arrRef spec0)
    = [main_arg0, main_arg1, main_v0, main_arg3, main_v1, main_arg5, main_v2, main_arg7, main_v3, main_v4_0, main_v4_1].toFinset := by
  decide

/-- The eleven buffers conjoined one by one. -/
theorem bigSep_arr0 {M : Type} [URA M] (Φ : Ref sig .tc → sProp M) :
    bigSep (Finset.univ.image (Pipeline.arrRef spec0)) Φ
      = iprop(Φ main_arg0 ∗ Φ main_arg1 ∗ Φ main_v0 ∗ Φ main_arg3 ∗ Φ main_v1 ∗ Φ main_arg5 ∗ Φ main_v2 ∗ Φ main_arg7 ∗ Φ main_v3 ∗ Φ main_v4_0 ∗ Φ main_v4_1) :=
  bigSep_eq_bigSepL_of_eq [main_arg0, main_arg1, main_v0, main_arg3, main_v1, main_arg5, main_v2, main_arg7, main_v3, main_v4_0, main_v4_1] arrImage (by decide) Φ

/-- An output window's share is the full one: the two halves go to input windows. -/
theorem qW_out : ∀ w : Fin 12, (cfg0.win w).isOut = true → qW w = fullShare := by
  intro w h
  have : w = 10 ∨ w = 11 := by revert w; decide
  rcases this with rfl | rfl <;> rfl

/-- The eleven buffers, each whole at the full share at the region's entry, make the twelve windows' arrays at entry:
    the shared weight matrix's full share is cut into its two halves, every other buffer goes whole to its one window. -/
theorem hsplit_of (c : Dev nD) (dat : Dat τ (Elt F) Unit ℕ (UR sig nD τ) ℕ cfg0 c)
    (hA : ∀ w, dat.A w = V m c (Pipeline.arrRef spec0 w)) (hq : ∀ w, dat.q w = qW w) :
    (Pipeline.arrBufs spec0 c (V m c) : sProp 𝕄) ⊢ dat.arrays (dat.arrAt · 0) := by
  have hs : ∀ w, dat.share w = qW w := fun w => by
    unfold Dat.share
    split
    · next h => exact (qW_out w h).symm
    · exact hq w
  have hf : ∀ w : Fin 12, (((cfg0.win w).arr.view.loc (c.tc : Thread nD τ)) ↦[(cfg0.win w).arr.view.set]{dat.share w} dat.arrAt w 0 : sProp 𝕄)
      = (((c.tc : Thread nD τ).loc (Pipeline.arrRef spec0 w)) ↦{qW w} V m c (Pipeline.arrRef spec0 w)) := fun w => by
    rw [(arr_whole0 w).set_eq_univ, hs w, show dat.arrAt w 0 = dat.A w from rfl, hA w]
  refine BIBase.Entails.trans ?_ (Entails.of_eq (show (bigSep Finset.univ fun w : Fin 12 =>
      ((((c.tc : Thread nD τ).loc (Pipeline.arrRef spec0 w)) ↦{qW w} V m c (Pipeline.arrRef spec0 w)) : sProp 𝕄)) = dat.arrays (dat.arrAt · 0) from
    bigSep_congr fun w _ => (hf w).symm))
  unfold Pipeline.arrBufs
  rw [bigSep_arr0, bigSep_W0]
  iintro ⟨H0, H1, H2, H3, H4, H5, H6, H7, H9, H10, H11⟩
  ihave H78 := (pointsTo_share (PosShare.mem_left_op_right fullShare)).1 $$ H7
  icases H78 with ⟨H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The host line after the region -/

/-- The windows' arrays with the second result's taken out: it is an output, so held whole at the full share. -/
theorem arrays_take11 (c : Dev nD) (dat : Dat τ (Elt F) Unit ℕ (UR sig nD τ) ℕ cfg0 c)
    (G : (w : Fin cfg0.W) → Buf (Elt F) ((cfg0.win w).arr.view.loc (c.tc : Thread nD τ))) :
    (dat.arrays G : sProp 𝕄)
      = iprop((((c.tc : Thread nD τ).loc main_v4_1) ↦{fullShare} G 11)
          ∗ bigSep (Finset.univ.erase (11 : Fin 12)) fun w : Fin 12 =>
              ((cfg0.win w).arr.view.loc (c.tc : Thread nD τ) ↦[(cfg0.win w).arr.view.set]{dat.share w} G w : sProp 𝕄)) := by
  have h11 : (((cfg0.win 11).arr.view.loc (c.tc : Thread nD τ)) ↦[(cfg0.win 11).arr.view.set]{dat.share 11} G 11 : sProp 𝕄)
      = (((c.tc : Thread nD τ).loc main_v4_1) ↦{fullShare} G 11) := by
    rw [(arr_whole0 11).set_eq_univ, show dat.share 11 = fullShare from if_pos rfl]
    try rfl
  unfold Dat.arrays
  rw [bigSep_univ_split (11 : Fin 12)]
  exact congrArg (fun X : sProp 𝕄 => iprop(X ∗ _)) h11

/-- The two buffers the last host line touches: the second result's array and its re-laid copy. -/
abbrev tailS : Finset (DevRef τ sig) := {Proc.devRef .tc main_v4_1, Proc.devRef .tc main_v5}

set_option backward.isDefEq.respectTransparency.types false in
/-- The host line after the region. From the region's exit — the windows' arrays at what the proof data compute, the
    buffers that bypass the region as at its entry — it reads the second result's array and writes the re-laid copy;
    both are put back, the copy at the re-laid contents, and nothing else is touched. -/
theorem htail_of (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N) ∗ restPost m dats c) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (pcfgs (F := F)) defs₀) (Variants.lift Variants.none) (c.tc : Thread nD τ) none) Set.univ
          (Pipeline.chain [StableHlo.seq hostOps1]) Q' := by
  classical
  have hne : (Proc.devRef .tc main_v4_1 : DevRef τ sig) ∉ ({Proc.devRef .tc main_v5} : Finset (DevRef τ sig)) := by decide
  have hne' : (Proc.devRef .tc main_v5 : DevRef τ sig) ≠ Proc.devRef .tc main_v4_1 := by decide
  -- a valuation with the second result's array at what the region left and the other buffers as at the region's entry
  obtain ⟨W, hWa, hWb⟩ : ∃ W : Valuation τ sig (Elt F), W (Proc.devRef .tc main_v4_1) = (dats 0 c).arrAt 11 cfg0.N
      ∧ W (Proc.devRef .tc main_v5) = V0 m c (Proc.devRef .tc main_v5) :=
    ⟨Function.update (V0 m c) (Proc.devRef .tc main_v4_1) ((dats 0 c).arrAt 11 cfg0.N), Function.update_self _ _ _, Function.update_of_ne hne' _ _⟩
  have hW : (StableHlo.held (c.tc : Thread nD τ) tailS W : sProp 𝕄)
      = iprop((((c.tc : Thread nD τ).loc main_v4_1) ↦{fullShare} (dats 0 c).arrAt 11 cfg0.N)
          ∗ (((c.tc : Thread nD τ).loc main_v5) ↦{fullShare} V m c main_v5)) := by
    unfold StableHlo.held
    rw [bigSep_insert hne, bigSep_singleton, hWa, hWb]
    try rfl
  have hfl : ([hostOps1 (F := F)] : List (List (HloOp τ sig (Elt F)))).flatten = hostOps1 := rfl
  have hr4 : StableHlo.after ([hostOps1 (F := F)].flatten) W (Proc.devRef .tc main_v4_1) = (dats 0 c).arrAt 11 cfg0.N := by
    rw [hfl, StableHlo.after_cons, StableHlo.after_nil, StableHlo.reshape_result_ne' _ _ _ _ W (show main_v4_1 ≠ main_v5 by decide), hWa]
  have hr5 : StableHlo.after ([hostOps1 (F := F)].flatten) W (Proc.devRef .tc main_v5)
      = shapeCast S32x64x1000 ((dats 0 c).arrAt 11 cfg0.N) shapeCasts_S32x64000_S32x64x1000 := by
    rw [hfl, StableHlo.after_cons, StableHlo.after_nil, StableHlo.reshape_result' _ _ _ _ W, hWa]
    try rfl
  have hW' : (StableHlo.held (c.tc : Thread nD τ) tailS (StableHlo.after ([hostOps1].flatten) W) : sProp 𝕄)
      = iprop((((c.tc : Thread nD τ).loc main_v4_1) ↦{fullShare} (dats 0 c).arrAt 11 cfg0.N)
          ∗ (((c.tc : Thread nD τ).loc main_v5) ↦{fullShare} shapeCast S32x64x1000 ((dats 0 c).arrAt 11 cfg0.N) shapeCasts_S32x64000_S32x64x1000)) := by
    unfold StableHlo.held
    rw [bigSep_insert hne, bigSep_singleton, hr4, hr5]
    try rfl
  have hsub : ∀ ops ∈ [hostOps1 (F := F)], ∀ op ∈ ops, op.bufs ⊆ (tailS : Finset (DevRef τ sig)) := fun ops hops op hop => by
    obtain rfl := List.mem_singleton.mp hops
    obtain rfl := List.mem_singleton.mp hop
    exact subset_refl _
  have hfresh : ∀ ops ∈ [hostOps1 (F := F)], ∀ op ∈ ops, op.fresh = ∅ := fun ops hops op hop => by
    obtain rfl := List.mem_singleton.mp hops
    exact List.forall_iff_forall_mem.mp hostOps1_fresh op hop
  have hstep := Pipeline.wp_seqs_then (pcfgs (F := F)) defs₀ Variants.none c tailS [] (K := Q') [hostOps1] hsub hfresh W
  rw [hW, hW', Pipeline.chain_nil, wp_pure] at hstep
  rw [arrays_take11 c (dats 0 c), Pipeline.unscopedRestP_none, unscopedRest0_eq]
  show _ ⊢ wp frame (wpE (Pipeline.defs (pcfgs (F := F)) defs₀) (Variants.lift Variants.none) (c.tc : Thread nD τ) none) Set.univ
          (Pipeline.chain ([hostOps1].map StableHlo.seq ++ [])) Q'
  iintro ⟨Hk, Hb, ⟨H11, HR⟩, H2, H4, H6, H8, H5⟩
  iapply hstep $$ [Hb H11 H5]
  · isplitl [Hb]; · iexact Hb
    isplitl [H11]; · iexact H11
    iexact H5
  iintro ⟨Hb, H11, H5⟩
  imodintro
  iapply Hk
  isplitl [H11 HR]
  · isplitl [H11]; · iexact H11
    iexact HR
  unfold restPost
  isplitl [H2]; · iexact H2
  isplitl [H4]; · iexact H4
  isplitl [H6]; · iexact H6
  isplitl [H8]; · iexact H8
  iexact H5

/-! ## The run -/

/-- What the run ends in: every window's array at what the proof data compute, the second result re-laid as
    32 × 64 × 1000, and the four bias vectors as they were. -/
def RunPost (dats : (p : Fin 1) → (c : Dev nD) → Dat τ (Elt F) Unit ℕ (UR sig nD τ) ℕ (cfgs p) c) :
    PUnit × MemSt nD τ sig (Elt F) → Prop := fun r => ∀ c : Dev nD,
  (∀ w : Fin 12, r.2.mem (((cfg0).spec w).arr.view.loc (c.tc : Thread nD τ)) = (dats 0 c).arrAt w cfg0.N)
  ∧ r.2.mem ((c.tc : Thread nD τ).loc main_v5) = shapeCast S32x64x1000 ((dats 0 c).arrAt 11 cfg0.N) shapeCasts_S32x64000_S32x64x1000
  ∧ r.2.mem ((c.tc : Thread nD τ).loc main_arg2) = m ((c.tc : Thread nD τ).loc main_arg2)
  ∧ r.2.mem ((c.tc : Thread nD τ).loc main_arg4) = m ((c.tc : Thread nD τ).loc main_arg4)
  ∧ r.2.mem ((c.tc : Thread nD τ).loc main_arg6) = m ((c.tc : Thread nD τ).loc main_arg6)
  ∧ r.2.mem ((c.tc : Thread nD τ).loc main_arg8) = m ((c.tc : Thread nD τ).loc main_arg8)

/-- Every weakly fair run of the program ends as `RunPost` says, for any proof data whose arrays are the region-entry
    contents, whose input shares are `qW`, that owe nothing, whose body obligation holds, and whose invariant is entered
    from and returns to the invariant of the class, which is the core's scratch at some contents and its generator
    register at some state.
    The region's staging cells are funded from the launch element; the kernel has no semaphore of its own and no
    prefetched table; the buffers that bypass the region wait beside it and are handed to the host line after it. -/
theorem run_of (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qW w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (RunPost m dats) := by
  classical
  have hci : Function.Injective (cellOf (nD := nD) (τ := τ) (Pipeline.pin (pcfgs (F := F)) fun q => (cfgs q).toPCfg_adm)) := cellOf_inj
  exact Pipeline.θ_run_region_pf_tail (pcfgs (F := F)) (fun q => (cfgs q).toPCfg_adm) dats () hci 0 winFacts₀0
    (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp))
    (u₀ := initOf (Pipeline.cells (Pipeline.pin (pcfgs (F := F)) fun q => (cfgs q).toPCfg_adm) hci) (Pipeline.launchToks (Pipeline.pin (pcfgs (F := F)) fun q => (cfgs q).toPCfg_adm) hci))
    (hu₀ := by
      iintro Hu; imodintro
      isplitl [Hu]; · iapply (show (ownU _ : sProp 𝕄) ⊢ BI.own (emb₁ (initOf (Pipeline.cells (Pipeline.pin (pcfgs (F := F)) fun q => (cfgs q).toPCfg_adm) hci) (Pipeline.launchToks (Pipeline.pin (pcfgs (F := F)) fun q => (cfgs q).toPCfg_adm) hci))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_of m c (dats 0 c) (hA c) (hq c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => restPost m dats c)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_of m dats c Q')
    (QY := fun c s => s.mem ((c.tc : Thread nD τ).loc main_v5) = shapeCast S32x64x1000 ((dats 0 c).arrAt 11 cfg0.N) shapeCasts_S32x64000_S32x64x1000
      ∧ s.mem ((c.tc : Thread nD τ).loc main_arg2) = V m c main_arg2
      ∧ s.mem ((c.tc : Thread nD τ).loc main_arg4) = V m c main_arg4
      ∧ s.mem ((c.tc : Thread nD τ).loc main_arg6) = V m c main_arg6
      ∧ s.mem ((c.tc : Thread nD τ).loc main_arg8) = V m c main_arg8)
    (hY := fun c s' => hY_of m dats c s')
    (hQ := fun s h c => ⟨(h c).1, (h c).2.2.1, (h c).2.2.2.1.trans (entry_main_arg2 m c), (h c).2.2.2.2.1.trans (entry_main_arg4 m c),
      (h c).2.2.2.2.2.1.trans (entry_main_arg6 m c), (h c).2.2.2.2.2.2.trans (entry_main_arg8 m c)⟩)

end Cert.Kernel.Fr

end
-- ==== Proof.Bits.Frame.lean ====
/-
  The proof data of the one pipelined region, and the body obligation.

  The kernel's grid has 25 points and its body has three courses.  At the first point it forms the trunk's
  activation h = relu(relu(s·W1ᵀ + b1)·W2ᵀ + b2) and stores it whole into the scratch matrix, which keeps it for all
  later points; at the second point it stores the first result h·Wcᵀ + bc into the first result's window; and at
  every point t it stores the block h·Wr[2560t .. 2560t+2560]ᵀ + br[2560t .. 2560t+2560] of the second result into the
  second result's window, as two halves side by side.  Nothing accumulates from point to point: the scratch is written
  once, and the first result's window is written once and afterwards left alone until the pipeline writes it back
  after the last point.

  So the contents are stated without recursion on the point: the activation is what the first point's store leaves
  in the scratch; the first result's block is what the second point's store leaves, the scratch holding the
  activation; the second result's block at point t is what that point's two stores leave.  The region invariant holds
  the scratch at anything before the first point and at the activation afterwards.  The first result's window is idle
  at every point but the second; from the third point on its buffer is found at the first result's block, which is
  what the write-back after the last point needs.
-/
import proofs.«136683_g66365834658321_cont_9to1_m_1147_38_alg».proof.Proof.Bits.RunA
import proofs.«136683_g66365834658321_cont_9to1_m_1147_38_alg».proof.Proof.Bits.RunB
import proofs.«136683_g66365834658321_cont_9to1_m_1147_38_alg».proof.Proof.Bits.RunC
import proofs.«136683_g66365834658321_cont_9to1_m_1147_38_alg».proof.Proof.Bits.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first and the second grid point. -/
abbrev t0 : Fin cfg0.N := ⟨0, by decide⟩
abbrev t1 : Fin cfg0.N := ⟨1, by decide⟩

/-! ## The three courses of the body at a point, on the point's buffers and the windows' blocks -/

/-- One buffer of each result's window, and the scratch, as views: what the stores leave is stated through them
    (a covering list of stores leaves the same whatever the view and whatever was there before). -/
abbrev VO10 : View sig .tc .vmem S32x1000 .f32 := (Memref.whole cc0_stg10_0 : Memref sig .tc .vmem S32x1000 .f32).view
abbrev VO11 : View sig .tc .vmem S32x2560 .f32 := (Memref.whole cc0_stg11_0 : Memref sig .tc .vmem S32x2560 .f32).view
abbrev VS : View sig .tc .vmem S32x1024 .f32 := scM.view

/-- The body's course at the first point, on that point's buffers and blocks. -/
abbrev runA (c : Dev nD) (t : Fin cfg0.N) (h : t.val = 0) :=
  kernelRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _)
    ((hcond1 t).mpr h) (fun h2 => absurd ((hcond2 t).mp h2) (by omega)) (iblk m c 0 t) (iblk m c 1 t) (iblk m c 2 t) (iblk m c 3 t) (iblk m c 4 t) (iblk m c 5 t) (iblk m c 6 t) (iblk m c 7 t) (iblk m c 8 t) (iblk m c 9 t)

/-- Its course at the second point, the scratch holding `xs`. -/
abbrev runB (c : Dev nD) (t : Fin cfg0.N) (h : t.val = 1) (xs : Vec F S32x1024 .f32) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _)
    (fun h1 => absurd ((hcond1 t).mp h1) (by omega)) ((hcond2 t).mpr h) (iblk m c 0 t) (iblk m c 1 t) (iblk m c 2 t) (iblk m c 3 t) (iblk m c 4 t) (iblk m c 5 t) (iblk m c 6 t) (iblk m c 7 t) (iblk m c 8 t) (iblk m c 9 t) xs

/-- Its course at every later point, the scratch holding `xs`. -/
abbrev runC (c : Dev nD) (t : Fin cfg0.N) (h0 : ¬t.val = 0) (h1 : ¬t.val = 1) (xs : Vec F S32x1024 .f32) :=
  kernelRunC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _)
    (fun h => h0 ((hcond1 t).mp h)) (fun h => h1 ((hcond2 t).mp h)) (iblk m c 0 t) (iblk m c 1 t) (iblk m c 2 t) (iblk m c 3 t) (iblk m c 4 t) (iblk m c 5 t) (iblk m c 6 t) (iblk m c 7 t) (iblk m c 8 t) (iblk m c 9 t) xs

/-! ## The stores of each course cover the buffers they fill -/

/-- The first point's one store into the scratch is of the whole matrix. -/
theorem coverA_S (c : Dev nD) (t : Fin cfg0.N) (h : t.val = 0) (y : S32x1024.Idx) :
    ∃ pc ∈ (runA m c t h).2.1, y ∈ pc.1.set :=
  View.cover_of_tiledL (runA m c t h).2.1 S32x1024.size (by sl_kernel_rfl) y

/-- Its two stores into the second result's buffer, of the left and of the right half, tile the block. -/
theorem coverA_11 (c : Dev nD) (t : Fin cfg0.N) (h : t.val = 0) (y : S32x2560.Idx) :
    ∃ pc ∈ (runA m c t h).1, y ∈ pc.1.set :=
  View.cover_of_tiledL (runA m c t h).1 S32x1280.size (by sl_kernel_rfl) y

/-- The second point's one store into the first result's buffer is of the whole block. -/
theorem coverB_10 (c : Dev nD) (t : Fin cfg0.N) (h : t.val = 1) (xs : Vec F S32x1024 .f32) (y : S32x1000.Idx) :
    ∃ pc ∈ (runB m c t h xs).1, y ∈ pc.1.set :=
  View.cover_of_tiledL (runB m c t h xs).1 S32x1000.size (by sl_kernel_rfl) y

/-- Its two stores into the second result's buffer tile the block. -/
theorem coverB_11 (c : Dev nD) (t : Fin cfg0.N) (h : t.val = 1) (xs : Vec F S32x1024 .f32) (y : S32x2560.Idx) :
    ∃ pc ∈ (runB m c t h xs).2.1, y ∈ pc.1.set :=
  View.cover_of_tiledL (runB m c t h xs).2.1 S32x1280.size (by sl_kernel_rfl) y

/-- A later point's two stores into the second result's buffer tile the block. -/
theorem coverC_11 (c : Dev nD) (t : Fin cfg0.N) (h0 : ¬t.val = 0) (h1 : ¬t.val = 1) (xs : Vec F S32x1024 .f32) (y : S32x2560.Idx) :
    ∃ pc ∈ (runC m c t h0 h1 xs).1, y ∈ pc.1.set :=
  View.cover_of_tiledL (runC m c t h0 h1 xs).1 S32x1280.size (by sl_kernel_rfl) y

/-! ## What the buffers hold -/

/-- The trunk's activation, as the first point leaves it in the scratch. -/
def hval (c : Dev nD) : Vec F S32x1024 .f32 :=
  VS.read (Elt F) (VS.writes (Elt F) VS.junk (runA m c t0 rfl).2.1)

/-- The same named at any first point. -/
theorem hval_eq (c : Dev nD) (t : Fin cfg0.N) (h : t.val = 0) :
    hval m c = VS.read (Elt F) (VS.writes (Elt F) VS.junk (runA m c t h).2.1) := by
  obtain rfl : t = t0 := Fin.ext h
  rfl

/-- The first result's block, as the second point leaves it in its window's buffer. -/
def out10 (c : Dev nD) : Vec F S32x1000 .f32 :=
  VO10.read (Elt F) (VO10.writes (Elt F) VO10.junk (runB m c t1 rfl (hval m c)).1)

theorem out10_eq (c : Dev nD) (t : Fin cfg0.N) (h : t.val = 1) :
    out10 m c = VO10.read (Elt F) (VO10.writes (Elt F) VO10.junk (runB m c t h (hval m c)).1) := by
  obtain rfl : t = t1 := Fin.ext h
  rfl

/-- The second result's block at point `t`, as that point leaves it in its window's buffer. -/
def out11 (c : Dev nD) (t : Fin cfg0.N) : Vec F S32x2560 .f32 :=
  if h0 : t.val = 0 then VO11.read (Elt F) (VO11.writes (Elt F) VO11.junk (runA m c t h0).1)
  else if h1 : t.val = 1 then VO11.read (Elt F) (VO11.writes (Elt F) VO11.junk (runB m c t h1 (hval m c)).2.1)
  else VO11.read (Elt F) (VO11.writes (Elt F) VO11.junk (runC m c t h0 h1 (hval m c)).1)

theorem out11_A (c : Dev nD) (t : Fin cfg0.N) (h0 : t.val = 0) :
    out11 m c t = VO11.read (Elt F) (VO11.writes (Elt F) VO11.junk (runA m c t h0).1) := dif_pos h0
theorem out11_B (c : Dev nD) (t : Fin cfg0.N) (h1 : t.val = 1) :
    out11 m c t = VO11.read (Elt F) (VO11.writes (Elt F) VO11.junk (runB m c t h1 (hval m c)).2.1) :=
  (dif_neg (by omega)).trans (dif_pos h1)
theorem out11_C (c : Dev nD) (t : Fin cfg0.N) (h0 : ¬t.val = 0) (h1 : ¬t.val = 1) :
    out11 m c t = VO11.read (Elt F) (VO11.writes (Elt F) VO11.junk (runC m c t h0 h1 (hval m c)).1) :=
  (dif_neg h0).trans (dif_neg h1)

/-! ## The region invariant -/

/-- Before the first point the class's invariant (the scratch at anything); before every later point — and after
    the last — the scratch at the trunk's activation, and the generator register at some state. -/
def PhiS (c : Dev nD) : ℕ → sProp 𝕄
  | 0 => Pipeline.ΦA spec0 c
  | _ + 1 => iprop(iprop(owns (c : Thread nD τ) scM fullShare (hval m c)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM fullShare (hval m c)) ∗ (∃ r, prngReg c r)) := rfl

theorem PhiS_pos (c : Dev nD) (n : ℕ) (hz : n ≠ 0) :
    PhiS m c n = iprop(iprop(owns (c : Thread nD τ) scM fullShare (hval m c)) ∗ (∃ r, prngReg c r)) := by
  cases n with
  | zero => exact absurd rfl hz
  | succ n => rfl

/-! ## The pipeline's proof data -/

/-- The proof data on core `c`: the arrays as the region finds them; after the body at point `t` each input's buffer
    at its block, the first result's at the first result's block (at every point: before the second point nothing
    consults it, the window being idle and not written back there), the second result's at its block of point `t`;
    the invariant above; nothing owed; the last weight matrix's two windows at a half share each, every other input's
    at the whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c
    | ⟨11, _⟩ => out11 m c t
  Φ t := PhiS m c t.val
  q w := qW w
  owed _ := 0

theorem A_eq (c : Dev nD) (w : Fin cfg0.W) : (dats m 0 c).A w = V m c (Pipeline.arrRef spec0 w) := by
  dsimp only [dats]
theorem q_eq (c : Dev nD) (w : Fin cfg0.W) : (dats m 0 c).q w = qW w := by
  dsimp only [dats]
theorem owed_eq (c : Dev nD) (t : Fin (cfg0.N + 1)) : (dats m 0 c).owed t = 0 := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out10 m c := by dsimp only [dats]
theorem after0_11 (c : Dev nD) (t : Fin cfg0.N) : (dats m 0 c).after 11 t = out11 m c t := by dsimp only [dats]

/-! ## What the body finds in the inputs' buffers -/

/-- Each input's current buffer holds its block at every point, fetched there or not: where it is not fetched its
    block index has not moved since the point before, and the body leaves inputs as it finds them. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)

/-! ## What the body finds in the first result's buffer -/

/-- A result's window is never fetched. -/
theorem nofetch10 (t : Fin cfg0.N) : (cfg0.win 10).fetch t = false := Window.fetch_out _ rfl t

/-- From the third point on the first result's buffer holds the first result's block: the second point stored it
    there, no later point stores into the buffer, and it is not written back before the last point. -/
theorem before10 (c : Dev nD) (t : Fin cfg0.N) (h2 : 2 ≤ t.val) (d) : (dats m 0 c).before 10 t d = out10 m c := by
  induction hn : t.val using Nat.strong_induction_on generalizing t with
  | _ n ih =>
    subst hn
    have hN : t.val < 25 := lt_of_lt_of_eq t.isLt (show cfg0.N = 25 from N_0)
    rw [Dat.before_of_pos (dats m 0 c) 10 t (by omega) (nofetch10 t) d]
    generalize hp : (⟨t.val - 1, Nat.lt_of_le_of_lt (Nat.sub_le _ _) t.isLt⟩ : Fin cfg0.N) = p
    have hpv : p.val = t.val - 1 := by rw [← hp]
    have hfl : (cfg0.win 10).flush p = false := by
      rw [Bool.eq_false_iff]; intro hf; have := (flush10 p).mp hf; omega
    rw [hfl, if_neg Bool.false_ne_true]
    unfold Dat.left
    by_cases hk : p.val = 1
    · rw [liveAt10 p ((hcond2 p).mpr hk)]
      unfold Dat.kept; rw [after0_10]; rfl
    · rw [idleAt10 p (fun h => hk ((hcond2 p).mp h))]
      exact ih p.val (by omega) p (by omega) rfl

/-! ## What the body returns, window by window -/

/-- A window other than the first result's is stored into (or, an input, held at its block) at every point: the body
    returns its buffer at what the proof data say. -/
theorem leaves_live (c : Dev nD) (w : Fin 12) (hw : w ≠ 10) (t : Fin cfg0.N) :
    (dats m 0 c).leavesExact w t
      = owns (c : Thread nD τ) ((cfg0.win w).stage (cfg0.slots t w)) fullShare ((dats m 0 c).after w t) := by
  unfold Dat.leavesExact; rw [liveAt w hw t]

/-- The first result's window at the second point: stored into, so returned at the first result's block. -/
theorem leaves10_B (c : Dev nD) (t : Fin cfg0.N) (h : t.val = 1) :
    (dats m 0 c).leavesExact 10 t = owns (c : Thread nD τ) (ms10 t) fullShare (out10 m c) := by
  unfold Dat.leavesExact; rw [liveAt10 t ((hcond2 t).mpr h), after0_10]

/-- At a point other than the second and the last: returned as found. -/
theorem leaves10_idle (c : Dev nD) (t : Fin cfg0.N) (h1 : ¬t.val = 1) (h24 : ¬t.val = 24) :
    (dats m 0 c).leavesExact 10 t
      = iprop(∃ d, owns (c : Thread nD τ) (ms10 t) fullShare ((dats m 0 c).before 10 t d)) :=
  Dat.leavesExact_idle (dats m 0 c) 10 t (idleAt10 t (fun h => h1 ((hcond2 t).mp h)))
    (by rw [Bool.eq_false_iff]; intro hf; exact h24 ((flush10 t).mp hf))

/-- At the last point: not stored into but written back, so returned at the first result's block. -/
theorem leaves10_last (c : Dev nD) (t : Fin cfg0.N) (h24 : t.val = 24) :
    (dats m 0 c).leavesExact 10 t = owns (c : Thread nD τ) (ms10 t) fullShare (out10 m c) := by
  unfold Dat.leavesExact
  rw [idleAt10 t (fun h => by have := (hcond2 t).mp h; omega), (flush10 t).mpr h24, after0_10]

/-! ## The body obligation, at a generic point -/

/-- What the body is called with at point `t`: the invariant, what the core owes, and the twelve windows' current
    buffers at what they then hold; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The windows other than the first result's, returned at what the proof data say. -/
theorem leaves0_0 (c : Dev nD) (t : Fin cfg0.N) :
    (dats m 0 c).leavesExact 0 t = owns (c : Thread nD τ) (ms0 t) fullShare (iblk m c 0 t) := by
  unfold Dat.leavesExact; rw [liveAt 0 (by decide) t, after0_0]
theorem leaves0_1 (c : Dev nD) (t : Fin cfg0.N) :
    (dats m 0 c).leavesExact 1 t = owns (c : Thread nD τ) (ms1 t) fullShare (iblk m c 1 t) := by
  unfold Dat.leavesExact; rw [liveAt 1 (by decide) t, after0_1]
theorem leaves0_2 (c : Dev nD) (t : Fin cfg0.N) :
    (dats m 0 c).leavesExact 2 t = owns (c : Thread nD τ) (ms2 t) fullShare (iblk m c 2 t) := by
  unfold Dat.leavesExact; rw [liveAt 2 (by decide) t, after0_2]
theorem leaves0_3 (c : Dev nD) (t : Fin cfg0.N) :
    (dats m 0 c).leavesExact 3 t = owns (c : Thread nD τ) (ms3 t) fullShare (iblk m c 3 t) := by
  unfold Dat.leavesExact; rw [liveAt 3 (by decide) t, after0_3]
theorem leaves0_4 (c : Dev nD) (t : Fin cfg0.N) :
    (dats m 0 c).leavesExact 4 t = owns (c : Thread nD τ) (ms4 t) fullShare (iblk m c 4 t) := by
  unfold Dat.leavesExact; rw [liveAt 4 (by decide) t, after0_4]
theorem leaves0_5 (c : Dev nD) (t : Fin cfg0.N) :
    (dats m 0 c).leavesExact 5 t = owns (c : Thread nD τ) (ms5 t) fullShare (iblk m c 5 t) := by
  unfold Dat.leavesExact; rw [liveAt 5 (by decide) t, after0_5]
theorem leaves0_6 (c : Dev nD) (t : Fin cfg0.N) :
    (dats m 0 c).leavesExact 6 t = owns (c : Thread nD τ) (ms6 t) fullShare (iblk m c 6 t) := by
  unfold Dat.leavesExact; rw [liveAt 6 (by decide) t, after0_6]
theorem leaves0_7 (c : Dev nD) (t : Fin cfg0.N) :
    (dats m 0 c).leavesExact 7 t = owns (c : Thread nD τ) (ms7 t) fullShare (iblk m c 7 t) := by
  unfold Dat.leavesExact; rw [liveAt 7 (by decide) t, after0_7]
theorem leaves0_8 (c : Dev nD) (t : Fin cfg0.N) :
    (dats m 0 c).leavesExact 8 t = owns (c : Thread nD τ) (ms8 t) fullShare (iblk m c 8 t) := by
  unfold Dat.leavesExact; rw [liveAt 8 (by decide) t, after0_8]
theorem leaves0_9 (c : Dev nD) (t : Fin cfg0.N) :
    (dats m 0 c).leavesExact 9 t = owns (c : Thread nD τ) (ms9 t) fullShare (iblk m c 9 t) := by
  unfold Dat.leavesExact; rw [liveAt 9 (by decide) t, after0_9]
theorem leaves0_11 (c : Dev nD) (t : Fin cfg0.N) :
    (dats m 0 c).leavesExact 11 t = owns (c : Thread nD τ) (ms11 t) fullShare (out11 m c t) := by
  unfold Dat.leavesExact; rw [liveAt 11 (by decide) t, after0_11]

set_option maxHeartbeats 4000000 in
/-- The first point.  The invariant hands over the scratch at anything; the first result's buffer goes in and comes
    back as found (the window is idle and not written back here); the scratch comes back at the activation and the
    second result's buffer at its first block, both by the covers. -/
theorem bodyA (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [Phi_succ, PhiS_succ, Phi_castSucc, PhiS_zero m c _ h0, PhiA_eq]
  rw [leaves0_0, leaves0_1, leaves0_2, leaves0_3, leaves0_4, leaves0_5, leaves0_6, leaves0_7, leaves0_8, leaves0_9, leaves0_11, leaves10_idle m c t (by omega) (by omega)]
  rw [out11_A m c t h0, hval_eq m c t h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runA m c t h0).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS]; · iexact HS
  iintro ⟨H0, H1, H2, H3, H4, H5, H6, H7, H8, H9, H10, ⟨%e11, H11⟩, ⟨%es, HS⟩⟩
  isplitl [HS Hg]
  · isplitl [HS]
    · unfold owns; iexists _; isplitr
      swap; · iexact HS
      ipureintro; exact View.read_writes_of_cover _ _ _ _ _ (coverA_S m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  unfold owns; iexists _; isplitr
  swap; · iexact H11
  ipureintro; exact View.read_writes_of_cover _ _ _ _ _ (coverA_11 m c t h0)

set_option maxHeartbeats 4000000 in
/-- The second point.  The scratch goes in and comes back at the activation; the first result's buffer, found at
    anything, comes back at the first result's block and the second result's at its second block, by the covers. -/
theorem bodyB (c : Dev nD) (t : Fin cfg0.N) (h1 : t.val = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [Phi_succ, PhiS_succ, Phi_castSucc, PhiS_pos m c _ (by omega)]
  rw [leaves0_0, leaves0_1, leaves0_2, leaves0_3, leaves0_4, leaves0_5, leaves0_6, leaves0_7, leaves0_8, leaves0_9, leaves0_11, leaves10_B m c t h1]
  rw [out11_B m c t h1, out10_eq m c t h1]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB m c t h1 (hval m c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS]; · iexact HS
  iintro ⟨H0, H1, H2, H3, H4, H5, H6, H7, H8, H9, ⟨%e10, H10⟩, ⟨%e11, H11⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverB_10 m c t h1 _)
  unfold owns; iexists _; isplitr
  swap; · iexact H11
  ipureintro; exact View.read_writes_of_cover _ _ _ _ _ (coverB_11 m c t h1 _)

set_option maxHeartbeats 4000000 in
/-- A later point.  The scratch goes in and comes back at the activation; the first result's buffer goes in and
    comes back as found — at the last point, where it is written back, that is the first result's block; the second
    result's buffer comes back at its block of this point, by the cover. -/
theorem bodyC (c : Dev nD) (t : Fin cfg0.N) (h0 : ¬t.val = 0) (h1 : ¬t.val = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [Phi_succ, PhiS_succ, Phi_castSucc, PhiS_pos m c _ h0]
  rw [leaves0_0, leaves0_1, leaves0_2, leaves0_3, leaves0_4, leaves0_5, leaves0_6, leaves0_7, leaves0_8, leaves0_9, leaves0_11]
  rw [out11_C m c t h0 h1]
  by_cases h24 : t.val = 24
  · rw [leaves10_last m c t h24]
    simp only [before10 m c t (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runC m c t h0 h1 (hval m c)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS]; · iexact HS
    iintro ⟨H0, H1, H2, H3, H4, H5, H6, H7, H8, H9, H10, ⟨%e11, H11⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr
    swap; · iexact H11
    ipureintro; exact View.read_writes_of_cover _ _ _ _ _ (coverC_11 m c t h0 h1 _)
  · rw [leaves10_idle m c t h1 h24]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runC m c t h0 h1 (hval m c)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS]; · iexact HS
    iintro ⟨H0, H1, H2, H3, H4, H5, H6, H7, H8, H9, H10, ⟨%e11, H11⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    unfold owns; iexists _; isplitr
    swap; · iexact H11
    ipureintro; exact View.read_writes_of_cover _ _ _ _ _ (coverC_11 m c t h0 h1 _)

/-- The body at any point: by the point's course. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact bodyA m c t h0
  · by_cases h1 : t.val = 1
    · exact bodyB m c t h1
    · exact bodyC m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the class's back: that the scratch holds the activation is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 25 := N_0; omega), PhiA_eq]
  iintro ⟨HS, Hg⟩
  isplitl [HS]
  · iexists _; iexact HS
  iexact Hg

/-- The run of the whole program over these proof data. -/
theorem run_main : θ_run defs (onTc (τ := τ) (main (F := F))) (s₀ m ρ) (RunPost m (dats m)) :=
  run_of m ρ (dats m) (A_eq m) (q_eq m) (owed_eq m) (fun c => (body_obligation m c).loose) (hin m) (hout m)

end Cert.Kernel.Fr

end
-- ==== Proof.Bits.Kept.lean ====
/-
  The argument arrays after the run.  The four host lines before the region write only the four single-row copies of
  the bias vectors, so the region finds every argument array as it was launched; an input window's array is never
  written by the pipeline, so it ends as the region found it; the four bias vectors are staged by no window and end
  as they were.  Together: all nine argument arrays end unchanged.
-/
import proofs.«136683_g66365834658321_cont_9to1_m_1147_38_alg».proof.Proof.Bits.Frame
import Idealize.ShloMosaic.Lib.StableHlo.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem entry_main_arg0 (c : Dev nD) : V m c main_arg0 = m ((c.tc : Thread nD τ).loc main_arg0) := by
  show StableHlo.after (List.flatten [hostOps0]) (fun b => m (c, b)) (Proc.devRef .tc main_arg0) = _
  simp only [hostOps0, List.flatten_cons, List.flatten_nil, List.append_nil]
  after_results
theorem entry_main_arg1 (c : Dev nD) : V m c main_arg1 = m ((c.tc : Thread nD τ).loc main_arg1) := by
  show StableHlo.after (List.flatten [hostOps0]) (fun b => m (c, b)) (Proc.devRef .tc main_arg1) = _
  simp only [hostOps0, List.flatten_cons, List.flatten_nil, List.append_nil]
  after_results
theorem entry_main_arg3 (c : Dev nD) : V m c main_arg3 = m ((c.tc : Thread nD τ).loc main_arg3) := by
  show StableHlo.after (List.flatten [hostOps0]) (fun b => m (c, b)) (Proc.devRef .tc main_arg3) = _
  simp only [hostOps0, List.flatten_cons, List.flatten_nil, List.append_nil]
  after_results
theorem entry_main_arg5 (c : Dev nD) : V m c main_arg5 = m ((c.tc : Thread nD τ).loc main_arg5) := by
  show StableHlo.after (List.flatten [hostOps0]) (fun b => m (c, b)) (Proc.devRef .tc main_arg5) = _
  simp only [hostOps0, List.flatten_cons, List.flatten_nil, List.append_nil]
  after_results
theorem entry_main_arg7 (c : Dev nD) : V m c main_arg7 = m ((c.tc : Thread nD τ).loc main_arg7) := by
  show StableHlo.after (List.flatten [hostOps0]) (fun b => m (c, b)) (Proc.devRef .tc main_arg7) = _
  simp only [hostOps0, List.flatten_cons, List.flatten_nil, List.append_nil]
  after_results

/-- What the run's post says of the nine argument arrays: each ends at its launch contents. -/
theorem kept_of_post {r : PUnit × MemSt nD τ sig (Elt F)} (h : RunPost m (dats m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  obtain ⟨hw, -, h2, h4, h6, h8⟩ := h c
  refine ⟨?_, ?_, h2, ?_, h4, ?_, h6, ?_, h8⟩
  · exact (hw 0).trans (((dats m 0 c).arrAt_in 0 rfl _).trans ((A_eq m c 0).trans (entry_main_arg0 m c)))
  · exact (hw 1).trans (((dats m 0 c).arrAt_in 1 rfl _).trans ((A_eq m c 1).trans (entry_main_arg1 m c)))
  · exact (hw 3).trans (((dats m 0 c).arrAt_in 3 rfl _).trans ((A_eq m c 3).trans (entry_main_arg3 m c)))
  · exact (hw 5).trans (((dats m 0 c).arrAt_in 5 rfl _).trans ((A_eq m c 5).trans (entry_main_arg5 m c)))
  · exact (hw 7).trans (((dats m 0 c).arrAt_in 7 rfl _).trans ((A_eq m c 7).trans (entry_main_arg7 m c)))

/-- The frame: the program runs to its end, faults nowhere, and leaves its nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ h c => kept_of_post m h c) (run_main m ρ)

end Cert.Kernel.Fr

end
-- ==== Proof.Payload.lean ====
/-
  The four values the kernel body stores, read at an index over the extended reals.

  Each is a dense layer written with the kernel's vector operations: a contraction of the activation's row p with the
  weight's row q (both operands keep the contracted feature on their second axis) into a zero accumulator, plus a bias
  held as a single row and repeated over the 32 states; the trunk applies the rectifier x ↦ max x 0 after each of its
  two layers.  Read at (p, q), each is the corresponding expression of the specification.
-/
import proofs.«136683_g66365834658321_cont_9to1_m_1147_38_alg».proof.Proof.Gen.KernelIdeal.Skeleton
import proofs.«136683_g66365834658321_cont_9to1_m_1147_38_alg».proof.Proof.Spec
import Idealize.ShloMosaic.Lib.ValueIdx
import Idealize.ShloMosaic.PureOps.Ideal.Laws
import Idealize.ShloMosaic.Lib.Pipeline.Value
import Idealize.ShloMosaic.Lib.ValueLayout

set_option synthInstance.maxSize 4096

noncomputable section

open scoped BigOperators

namespace Cert.KernelIdeal.Pay

open Cert.KernelIdeal Cert.KernelIdeal.Gen Idealize.ShloMosaic Idealize.ShloMosaic.ValueIdx

/-! ## The first layer's contraction: 256 features into 1024 -/

theorem lhs_l1_0 (i : S32x1024.Idx) (q : dot_S32x256_S1024x256_S32x1024_1_1_0_0_n_n.contr.Idx) :
    (dot_S32x256_S1024x256_S32x1024_1_1_0_0_n_n.lhsIdx i q 0).val = (i 0).val := by
  unfold DotDims.lhsIdx
  rw [dif_neg (show ¬(0 : Fin S32x256.rank) ∈ dot_S32x256_S1024x256_S32x1024_1_1_0_0_n_n.lhsBatch by decide), dif_pos (show (0 : Fin S32x256.rank) ∈ dot_S32x256_S1024x256_S32x1024_1_1_0_0_n_n.lhsNonContracting by decide)]
  rfl
theorem lhs_l1_1 (i : S32x1024.Idx) (q : dot_S32x256_S1024x256_S32x1024_1_1_0_0_n_n.contr.Idx) :
    (dot_S32x256_S1024x256_S32x1024_1_1_0_0_n_n.lhsIdx i q 1).val = (q ⟨0, by decide⟩).val :=
  dot_S32x256_S1024x256_S32x1024_1_1_0_0_n_n.lhsIdx_val_of_single rfl i q
theorem rhs_l1_0 (i : S32x1024.Idx) (q : dot_S32x256_S1024x256_S32x1024_1_1_0_0_n_n.contr.Idx) :
    (dot_S32x256_S1024x256_S32x1024_1_1_0_0_n_n.rhsIdx i q 0).val = (i 1).val := by
  unfold DotDims.rhsIdx
  rw [dif_neg (show ¬(0 : Fin S1024x256.rank) ∈ dot_S32x256_S1024x256_S32x1024_1_1_0_0_n_n.rhsBatch by decide), dif_pos (show (0 : Fin S1024x256.rank) ∈ dot_S32x256_S1024x256_S32x1024_1_1_0_0_n_n.rhsNonContracting by decide)]
  rfl
theorem rhs_l1_1 (i : S32x1024.Idx) (q : dot_S32x256_S1024x256_S32x1024_1_1_0_0_n_n.contr.Idx) :
    (dot_S32x256_S1024x256_S32x1024_1_1_0_0_n_n.rhsIdx i q 1).val = (q ⟨0, by decide⟩).val :=
  dot_S32x256_S1024x256_S32x1024_1_1_0_0_n_n.rhsIdx_val_of_single rfl i q

/-- The contraction into the zero accumulator at (p, q): row p of the left operand against row q of the right. -/
theorem matmul_l1_apply (l : FVec Ideal S32x256 .f32) (r : FVec Ideal S1024x256 .f32) (p : Fin 32) (q : Fin 1024) :
    matmul (F := Ideal) dot_S32x256_S1024x256_S32x1024_1_1_0_0_n_n none l r (constant (F := Ideal) S32x1024 .f32 0x00000000#32) (ix2 p q)
      = ∑ k : Fin 256, l (ix2 p k) * r (ix2 q k) := by
  refine (Ideal.matmul_constant_zero_apply dot_S32x256_S1024x256_S32x1024_1_1_0_0_n_n none l r (ix2 p q)).trans ?_
  rw [← Equiv.sum_comp (contrEquiv1 dot_S32x256_S1024x256_S32x1024_1_1_0_0_n_n 256 rfl rfl).symm]
  refine Finset.sum_congr rfl fun k _ => ?_
  have hk := contrEquiv1_symm_val dot_S32x256_S1024x256_S32x1024_1_1_0_0_n_n 256 rfl rfl k
  have el : dot_S32x256_S1024x256_S32x1024_1_1_0_0_n_n.lhsIdx (ix2 p q) ((contrEquiv1 dot_S32x256_S1024x256_S32x1024_1_1_0_0_n_n 256 rfl rfl).symm k) = ix2 p k := funext fun a => Fin.ext (by
    match a with
    | ⟨0, _⟩ => exact lhs_l1_0 _ _
    | ⟨1, _⟩ => exact (lhs_l1_1 _ _).trans hk)
  have er : dot_S32x256_S1024x256_S32x1024_1_1_0_0_n_n.rhsIdx (ix2 p q) ((contrEquiv1 dot_S32x256_S1024x256_S32x1024_1_1_0_0_n_n 256 rfl rfl).symm k) = ix2 q k := funext fun a => Fin.ext (by
    match a with
    | ⟨0, _⟩ => exact rhs_l1_0 _ _
    | ⟨1, _⟩ => exact (rhs_l1_1 _ _).trans hk)
  rw [el, er]

/-! ## The second layer's contraction: 1024 features into 1024 -/

theorem lhs_l2_0 (i : S32x1024.Idx) (q : dot_S32x1024_S1024x1024_S32x1024_1_1_0_0_n_n.contr.Idx) :
    (dot_S32x1024_S1024x1024_S32x1024_1_1_0_0_n_n.lhsIdx i q 0).val = (i 0).val := by
  unfold DotDims.lhsIdx
  rw [dif_neg (show ¬(0 : Fin S32x1024.rank) ∈ dot_S32x1024_S1024x1024_S32x1024_1_1_0_0_n_n.lhsBatch by decide), dif_pos (show (0 : Fin S32x1024.rank) ∈ dot_S32x1024_S1024x1024_S32x1024_1_1_0_0_n_n.lhsNonContracting by decide)]
  rfl
theorem lhs_l2_1 (i : S32x1024.Idx) (q : dot_S32x1024_S1024x1024_S32x1024_1_1_0_0_n_n.contr.Idx) :
    (dot_S32x1024_S1024x1024_S32x1024_1_1_0_0_n_n.lhsIdx i q 1).val = (q ⟨0, by decide⟩).val :=
  dot_S32x1024_S1024x1024_S32x1024_1_1_0_0_n_n.lhsIdx_val_of_single rfl i q
theorem rhs_l2_0 (i : S32x1024.Idx) (q : dot_S32x1024_S1024x1024_S32x1024_1_1_0_0_n_n.contr.Idx) :
    (dot_S32x1024_S1024x1024_S32x1024_1_1_0_0_n_n.rhsIdx i q 0).val = (i 1).val := by
  unfold DotDims.rhsIdx
  rw [dif_neg (show ¬(0 : Fin S1024x1024.rank) ∈ dot_S32x1024_S1024x1024_S32x1024_1_1_0_0_n_n.rhsBatch by decide), dif_pos (show (0 : Fin S1024x1024.rank) ∈ dot_S32x1024_S1024x1024_S32x1024_1_1_0_0_n_n.rhsNonContracting by decide)]
  rfl
theorem rhs_l2_1 (i : S32x1024.Idx) (q : dot_S32x1024_S1024x1024_S32x1024_1_1_0_0_n_n.contr.Idx) :
    (dot_S32x1024_S1024x1024_S32x1024_1_1_0_0_n_n.rhsIdx i q 1).val = (q ⟨0, by decide⟩).val :=
  dot_S32x1024_S1024x1024_S32x1024_1_1_0_0_n_n.rhsIdx_val_of_single rfl i q

/-- The contraction into the zero accumulator at (p, q): row p of the left operand against row q of the right. -/
theorem matmul_l2_apply (l : FVec Ideal S32x1024 .f32) (r : FVec Ideal S1024x1024 .f32) (p : Fin 32) (q : Fin 1024) :
    matmul (F := Ideal) dot_S32x1024_S1024x1024_S32x1024_1_1_0_0_n_n none l r (constant (F := Ideal) S32x1024 .f32 0x00000000#32) (ix2 p q)
      = ∑ k : Fin 1024, l (ix2 p k) * r (ix2 q k) := by
  refine (Ideal.matmul_constant_zero_apply dot_S32x1024_S1024x1024_S32x1024_1_1_0_0_n_n none l r (ix2 p q)).trans ?_
  rw [← Equiv.sum_comp (contrEquiv1 dot_S32x1024_S1024x1024_S32x1024_1_1_0_0_n_n 1024 rfl rfl).symm]
  refine Finset.sum_congr rfl fun k _ => ?_
  have hk := contrEquiv1_symm_val dot_S32x1024_S1024x1024_S32x1024_1_1_0_0_n_n 1024 rfl rfl k
  have el : dot_S32x1024_S1024x1024_S32x1024_1_1_0_0_n_n.lhsIdx (ix2 p q) ((contrEquiv1 dot_S32x1024_S1024x1024_S32x1024_1_1_0_0_n_n 1024 rfl rfl).symm k) = ix2 p k := funext fun a => Fin.ext (by
    match a with
    | ⟨0, _⟩ => exact lhs_l2_0 _ _
    | ⟨1, _⟩ => exact (lhs_l2_1 _ _).trans hk)
  have er : dot_S32x1024_S1024x1024_S32x1024_1_1_0_0_n_n.rhsIdx (ix2 p q) ((contrEquiv1 dot_S32x1024_S1024x1024_S32x1024_1_1_0_0_n_n 1024 rfl rfl).symm k) = ix2 q k := funext fun a => Fin.ext (by
    match a with
    | ⟨0, _⟩ => exact rhs_l2_0 _ _
    | ⟨1, _⟩ => exact (rhs_l2_1 _ _).trans hk)
  rw [el, er]

/-! ## The first head's contraction: 1024 features into 1000 logits -/

theorem lhs_c_0 (i : S32x1000.Idx) (q : dot_S32x1024_S1000x1024_S32x1000_1_1_0_0_n_n.contr.Idx) :
    (dot_S32x1024_S1000x1024_S32x1000_1_1_0_0_n_n.lhsIdx i q 0).val = (i 0).val := by
  unfold DotDims.lhsIdx
  rw [dif_neg (show ¬(0 : Fin S32x1024.rank) ∈ dot_S32x1024_S1000x1024_S32x1000_1_1_0_0_n_n.lhsBatch by decide), dif_pos (show (0 : Fin S32x1024.rank) ∈ dot_S32x1024_S1000x1024_S32x1000_1_1_0_0_n_n.lhsNonContracting by decide)]
  rfl
theorem lhs_c_1 (i : S32x1000.Idx) (q : dot_S32x1024_S1000x1024_S32x1000_1_1_0_0_n_n.contr.Idx) :
    (dot_S32x1024_S1000x1024_S32x1000_1_1_0_0_n_n.lhsIdx i q 1).val = (q ⟨0, by decide⟩).val :=
  dot_S32x1024_S1000x1024_S32x1000_1_1_0_0_n_n.lhsIdx_val_of_single rfl i q
theorem rhs_c_0 (i : S32x1000.Idx) (q : dot_S32x1024_S1000x1024_S32x1000_1_1_0_0_n_n.contr.Idx) :
    (dot_S32x1024_S1000x1024_S32x1000_1_1_0_0_n_n.rhsIdx i q 0).val = (i 1).val := by
  unfold DotDims.rhsIdx
  rw [dif_neg (show ¬(0 : Fin S1000x1024.rank) ∈ dot_S32x1024_S1000x1024_S32x1000_1_1_0_0_n_n.rhsBatch by decide), dif_pos (show (0 : Fin S1000x1024.rank) ∈ dot_S32x1024_S1000x1024_S32x1000_1_1_0_0_n_n.rhsNonContracting by decide)]
  rfl
theorem rhs_c_1 (i : S32x1000.Idx) (q : dot_S32x1024_S1000x1024_S32x1000_1_1_0_0_n_n.contr.Idx) :
    (dot_S32x1024_S1000x1024_S32x1000_1_1_0_0_n_n.rhsIdx i q 1).val = (q ⟨0, by decide⟩).val :=
  dot_S32x1024_S1000x1024_S32x1000_1_1_0_0_n_n.rhsIdx_val_of_single rfl i q

/-- The contraction into the zero accumulator at (p, q): row p of the left operand against row q of the right. -/
theorem matmul_c_apply (l : FVec Ideal S32x1024 .f32) (r : FVec Ideal S1000x1024 .f32) (p : Fin 32) (q : Fin 1000) :
    matmul (F := Ideal) dot_S32x1024_S1000x1024_S32x1000_1_1_0_0_n_n none l r (constant (F := Ideal) S32x1000 .f32 0x00000000#32) (ix2 p q)
      = ∑ k : Fin 1024, l (ix2 p k) * r (ix2 q k) := by
  refine (Ideal.matmul_constant_zero_apply dot_S32x1024_S1000x1024_S32x1000_1_1_0_0_n_n none l r (ix2 p q)).trans ?_
  rw [← Equiv.sum_comp (contrEquiv1 dot_S32x1024_S1000x1024_S32x1000_1_1_0_0_n_n 1024 rfl rfl).symm]
  refine Finset.sum_congr rfl fun k _ => ?_
  have hk := contrEquiv1_symm_val dot_S32x1024_S1000x1024_S32x1000_1_1_0_0_n_n 1024 rfl rfl k
  have el : dot_S32x1024_S1000x1024_S32x1000_1_1_0_0_n_n.lhsIdx (ix2 p q) ((contrEquiv1 dot_S32x1024_S1000x1024_S32x1000_1_1_0_0_n_n 1024 rfl rfl).symm k) = ix2 p k := funext fun a => Fin.ext (by
    match a with
    | ⟨0, _⟩ => exact lhs_c_0 _ _
    | ⟨1, _⟩ => exact (lhs_c_1 _ _).trans hk)
  have er : dot_S32x1024_S1000x1024_S32x1000_1_1_0_0_n_n.rhsIdx (ix2 p q) ((contrEquiv1 dot_S32x1024_S1000x1024_S32x1000_1_1_0_0_n_n 1024 rfl rfl).symm k) = ix2 q k := funext fun a => Fin.ext (by
    match a with
    | ⟨0, _⟩ => exact rhs_c_0 _ _
    | ⟨1, _⟩ => exact (rhs_c_1 _ _).trans hk)
  rw [el, er]

/-! ## The second head's contraction: 1024 features into a block of 1280 logits -/

theorem lhs_r_0 (i : S32x1280.Idx) (q : dot_S32x1024_S1280x1024_S32x1280_1_1_0_0_n_n.contr.Idx) :
    (dot_S32x1024_S1280x1024_S32x1280_1_1_0_0_n_n.lhsIdx i q 0).val = (i 0).val := by
  unfold DotDims.lhsIdx
  rw [dif_neg (show ¬(0 : Fin S32x1024.rank) ∈ dot_S32x1024_S1280x1024_S32x1280_1_1_0_0_n_n.lhsBatch by decide), dif_pos (show (0 : Fin S32x1024.rank) ∈ dot_S32x1024_S1280x1024_S32x1280_1_1_0_0_n_n.lhsNonContracting by decide)]
  rfl
theorem lhs_r_1 (i : S32x1280.Idx) (q : dot_S32x1024_S1280x1024_S32x1280_1_1_0_0_n_n.contr.Idx) :
    (dot_S32x1024_S1280x1024_S32x1280_1_1_0_0_n_n.lhsIdx i q 1).val = (q ⟨0, by decide⟩).val :=
  dot_S32x1024_S1280x1024_S32x1280_1_1_0_0_n_n.lhsIdx_val_of_single rfl i q
theorem rhs_r_0 (i : S32x1280.Idx) (q : dot_S32x1024_S1280x1024_S32x1280_1_1_0_0_n_n.contr.Idx) :
    (dot_S32x1024_S1280x1024_S32x1280_1_1_0_0_n_n.rhsIdx i q 0).val = (i 1).val := by
  unfold DotDims.rhsIdx
  rw [dif_neg (show ¬(0 : Fin S1280x1024.rank) ∈ dot_S32x1024_S1280x1024_S32x1280_1_1_0_0_n_n.rhsBatch by decide), dif_pos (show (0 : Fin S1280x1024.rank) ∈ dot_S32x1024_S1280x1024_S32x1280_1_1_0_0_n_n.rhsNonContracting by decide)]
  rfl
theorem rhs_r_1 (i : S32x1280.Idx) (q : dot_S32x1024_S1280x1024_S32x1280_1_1_0_0_n_n.contr.Idx) :
    (dot_S32x1024_S1280x1024_S32x1280_1_1_0_0_n_n.rhsIdx i q 1).val = (q ⟨0, by decide⟩).val :=
  dot_S32x1024_S1280x1024_S32x1280_1_1_0_0_n_n.rhsIdx_val_of_single rfl i q

/-- The contraction into the zero accumulator at (p, q): row p of the left operand against row q of the right. -/
theorem matmul_r_apply (l : FVec Ideal S32x1024 .f32) (r : FVec Ideal S1280x1024 .f32) (p : Fin 32) (q : Fin 1280) :
    matmul (F := Ideal) dot_S32x1024_S1280x1024_S32x1280_1_1_0_0_n_n none l r (constant (F := Ideal) S32x1280 .f32 0x00000000#32) (ix2 p q)
      = ∑ k : Fin 1024, l (ix2 p k) * r (ix2 q k) := by
  refine (Ideal.matmul_constant_zero_apply dot_S32x1024_S1280x1024_S32x1280_1_1_0_0_n_n none l r (ix2 p q)).trans ?_
  rw [← Equiv.sum_comp (contrEquiv1 dot_S32x1024_S1280x1024_S32x1280_1_1_0_0_n_n 1024 rfl rfl).symm]
  refine Finset.sum_congr rfl fun k _ => ?_
  have hk := contrEquiv1_symm_val dot_S32x1024_S1280x1024_S32x1280_1_1_0_0_n_n 1024 rfl rfl k
  have el : dot_S32x1024_S1280x1024_S32x1280_1_1_0_0_n_n.lhsIdx (ix2 p q) ((contrEquiv1 dot_S32x1024_S1280x1024_S32x1280_1_1_0_0_n_n 1024 rfl rfl).symm k) = ix2 p k := funext fun a => Fin.ext (by
    match a with
    | ⟨0, _⟩ => exact lhs_r_0 _ _
    | ⟨1, _⟩ => exact (lhs_r_1 _ _).trans hk)
  have er : dot_S32x1024_S1280x1024_S32x1280_1_1_0_0_n_n.rhsIdx (ix2 p q) ((contrEquiv1 dot_S32x1024_S1280x1024_S32x1280_1_1_0_0_n_n 1024 rfl rfl).symm k) = ix2 q k := funext fun a => Fin.ext (by
    match a with
    | ⟨0, _⟩ => exact rhs_r_0 _ _
    | ⟨1, _⟩ => exact (rhs_r_1 _ _).trans hk)
  rw [el, er]

/-! ## One dense layer of the kernel at an index -/

/-- The first head's block: the contraction with the 1000-row weight plus its bias row. -/
theorem pay2_apply (h : Vec Ideal S32x1024 .f32) (v22 : Vec Ideal S1000x1024 .f32) (v24 : Vec Ideal S1x1000 .f32) (p : Fin 32) (q : Fin 1000) :
    k0_pay2 (F := Ideal) h v22 v24 (ix2 p q) = Cert.Mlp.head (fun p k => h (ix2 p k)) v22 (fun q => v24 (ix2 0 q)) p q := by
  unfold k0_pay2 Cert.Mlp.head
  dsimp only
  rw [addf_apply, matmul_c_apply, shapeCast_self, broadcastTo_1b_ab_apply]

/-- The second head's even block: the contraction with a 1280-row block of the weight plus the matching bias block. -/
theorem pay3_apply (h : Vec Ideal S32x1024 .f32) (v7 : Vec Ideal S1280x1024 .f32) (v9 : Vec Ideal S1x1280 .f32) (p : Fin 32) (q : Fin 1280) :
    k0_pay3 (F := Ideal) h v7 v9 (ix2 p q) = Cert.Mlp.head (fun p k => h (ix2 p k)) v7 (fun q => v9 (ix2 0 q)) p q := by
  unfold k0_pay3 Cert.Mlp.head
  dsimp only
  rw [addf_apply, matmul_r_apply, shapeCast_self, broadcastTo_1b_ab_apply]

/-- The second head's odd block: the same expression over the next block of weight rows and bias entries. -/
theorem pay4_apply (h : Vec Ideal S32x1024 .f32) (v14 : Vec Ideal S1280x1024 .f32) (v16 : Vec Ideal S1x1280 .f32) (p : Fin 32) (q : Fin 1280) :
    k0_pay4 (F := Ideal) h v14 v16 (ix2 p q) = Cert.Mlp.head (fun p k => h (ix2 p k)) v14 (fun q => v16 (ix2 0 q)) p q := by
  unfold k0_pay4 Cert.Mlp.head
  dsimp only
  rw [addf_apply, matmul_r_apply, shapeCast_self, broadcastTo_1b_ab_apply]

/-- The trunk: the second rectified layer over the first, whose value at (p, k) is the specification's first-layer
    activation. -/
theorem pay1_apply (v21 : Vec Ideal S32x256 .f32) (v22 : Vec Ideal S1024x256 .f32) (v24 : Vec Ideal S1x1024 .f32) (v30 : Vec Ideal S1024x1024 .f32) (v32 : Vec Ideal S1x1024 .f32) (p : Fin 32) (q : Fin 1024) :
    k0_pay1 (F := Ideal) v21 v22 v24 v30 v32 (ix2 p q) = Cert.Mlp.trunk v21 v22 (fun q => v24 (ix2 0 q)) v30 (fun q => v32 (ix2 0 q)) p q := by
  unfold k0_pay1 Cert.Mlp.trunk Cert.Mlp.act2 Cert.Mlp.relu
  dsimp only
  rw [shapeCast_self, shapeCast_self, shapeCast_self, maximumf_apply, addf_apply, broadcast_apply, matmul_l2_apply, broadcastTo_1b_ab_apply]
  refine congrArg₂ max (congrArg (· + v32 (ix2 0 q)) (Finset.sum_congr rfl fun k _ => ?_)) rfl
  refine congrArg (· * v30 (ix2 q k)) ?_
  unfold Cert.Mlp.act1 Cert.Mlp.relu
  rw [maximumf_apply, addf_apply, broadcast_apply, matmul_l1_apply, broadcastTo_1b_ab_apply]
  rfl

end Cert.KernelIdeal.Pay

end
-- ==== Proof.BlockReads.lean ====
/-
  What the pipelined region finds in its windows.

  The four host lines before the region only re-lay the bias vectors as single-row matrices, so the five arrays the
  windows stage directly (the states, the two trunk weights, the two head weights) are the launch contents, and each
  single-row matrix read at (0, q) is its vector at q.  Seven windows have their whole array as their one block; the
  second head's weight is staged twice, as the even and the odd blocks of 1280 rows (point t sees rows 2560·t + r and
  2560·t + 1280 + r), and its bias row in blocks of 2560 columns (point t sees columns 2560·t + q).
-/
import proofs.«136683_g66365834658321_cont_9to1_m_1147_38_alg».proof.Proof.Common
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ) (ρ : Dev nD → PrngReg)

/-! ## The arrays when the region is entered -/

/-- The states are the launch contents. -/
theorem V_main_arg0 (c : Dev nD) : V m c main_arg0 = m ((c : Thread nD τ).loc main_arg0) := by
  dsimp only [V, V0]
  simp only [hostOps0, List.flatten_cons, List.flatten_nil, List.append_nil]
  after_results
/-- The first layer's weight is the launch contents. -/
theorem V_main_arg1 (c : Dev nD) : V m c main_arg1 = m ((c : Thread nD τ).loc main_arg1) := by
  dsimp only [V, V0]
  simp only [hostOps0, List.flatten_cons, List.flatten_nil, List.append_nil]
  after_results
/-- The second layer's weight is the launch contents. -/
theorem V_main_arg3 (c : Dev nD) : V m c main_arg3 = m ((c : Thread nD τ).loc main_arg3) := by
  dsimp only [V, V0]
  simp only [hostOps0, List.flatten_cons, List.flatten_nil, List.append_nil]
  after_results
/-- The first head's weight is the launch contents. -/
theorem V_main_arg5 (c : Dev nD) : V m c main_arg5 = m ((c : Thread nD τ).loc main_arg5) := by
  dsimp only [V, V0]
  simp only [hostOps0, List.flatten_cons, List.flatten_nil, List.append_nil]
  after_results
/-- The second head's weight is the launch contents. -/
theorem V_main_arg7 (c : Dev nD) : V m c main_arg7 = m ((c : Thread nD τ).loc main_arg7) := by
  dsimp only [V, V0]
  simp only [hostOps0, List.flatten_cons, List.flatten_nil, List.append_nil]
  after_results

/-- The first layer's bias, re-laid as one row. -/
theorem V_main_v0 (c : Dev nD) : V m c main_v0 = shapeCast S1x1024 (m ((c : Thread nD τ).loc main_arg2)) shapeCasts_S1024_S1x1024 := by
  dsimp only [V, V0]
  simp only [hostOps0, List.flatten_cons, List.flatten_nil, List.append_nil]
  after_results
  rfl
/-- The second layer's bias, re-laid as one row. -/
theorem V_main_v1 (c : Dev nD) : V m c main_v1 = shapeCast S1x1024 (m ((c : Thread nD τ).loc main_arg4)) shapeCasts_S1024_S1x1024 := by
  dsimp only [V, V0]
  simp only [hostOps0, List.flatten_cons, List.flatten_nil, List.append_nil]
  after_results
  rfl
/-- The first head's bias, re-laid as one row. -/
theorem V_main_v2 (c : Dev nD) : V m c main_v2 = shapeCast S1x1000 (m ((c : Thread nD τ).loc main_arg6)) shapeCasts_S1000_S1x1000 := by
  dsimp only [V, V0]
  simp only [hostOps0, List.flatten_cons, List.flatten_nil, List.append_nil]
  after_results
  rfl
/-- The second head's bias, re-laid as one row. -/
theorem V_main_v3 (c : Dev nD) : V m c main_v3 = shapeCast S1x64000 (m ((c : Thread nD τ).loc main_arg8)) shapeCasts_S64000_S1x64000 := by
  dsimp only [V, V0]
  simp only [hostOps0, List.flatten_cons, List.flatten_nil, List.append_nil]
  after_results
  rfl

/-- A vector of n entries re-laid as a [1, n] matrix, read at (0, q), is the vector at q. -/
theorem row_apply {α : Type} {n : Nat} (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) := by
  refine shapeCast_apply x h (ix2 (0 : Fin 1) q) (ix1 q) ?_
  rw [Shape.rowMajor_val_two, Shape.rowMajor_val_one]
  show q.val = (0 : Fin 1).val * n + q.val
  simp

theorem V_main_v0_apply (c : Dev nD) (q : Fin 1024) :
    (V m c main_v0 : Vec F S1x1024 .f32) (ix2 (0 : Fin 1) q) = (m ((c : Thread nD τ).loc main_arg2) : Vec F S1024 .f32) (ix1 q) := by
  rw [V_main_v0]; exact row_apply _ _ q
theorem V_main_v1_apply (c : Dev nD) (q : Fin 1024) :
    (V m c main_v1 : Vec F S1x1024 .f32) (ix2 (0 : Fin 1) q) = (m ((c : Thread nD τ).loc main_arg4) : Vec F S1024 .f32) (ix1 q) := by
  rw [V_main_v1]; exact row_apply _ _ q
theorem V_main_v2_apply (c : Dev nD) (q : Fin 1000) :
    (V m c main_v2 : Vec F S1x1000 .f32) (ix2 (0 : Fin 1) q) = (m ((c : Thread nD τ).loc main_arg6) : Vec F S1000 .f32) (ix1 q) := by
  rw [V_main_v2]; exact row_apply _ _ q
theorem V_main_v3_apply (c : Dev nD) (q : Fin 64000) :
    (V m c main_v3 : Vec F S1x64000 .f32) (ix2 (0 : Fin 1) q) = (m ((c : Thread nD τ).loc main_arg8) : Vec F S64000 .f32) (ix1 q) := by
  rw [V_main_v3]; exact row_apply _ _ q

/-! ## The index maps over the grid -/

/-- The block indices of the ten input windows at every point: seven stay at block (0, 0); the second head's weight is
    seen at row blocks 2t and 2t + 1, its bias at column block t. -/
theorem idx_in : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 2 * t.val ∧ win0_7.index t (1 : Fin 2) = 0)
    ∧ (win0_8.index t (0 : Fin 2) = 2 * t.val + 1 ∧ win0_8.index t (1 : Fin 2) = 0)
    ∧ (win0_9.index t (0 : Fin 2) = 0 ∧ win0_9.index t (1 : Fin 2) = t.val) :=
  (by decide +kernel : ∀ t : Fin grid0.N, _)

/-! ## The blocks that are their whole array -/

/-- The states' one block is the array. -/
theorem iblk0_eq (c : Dev nD) (t : Fin cfg0.N) :
    (iblk m c 0 t : Vec F S32x256 .f32) = m ((c : Thread nD τ).loc main_arg0) := by
  obtain ⟨⟨e0, e1⟩, -⟩ := idx_in t
  funext y
  unfold iblk
  rw [View.read_apply]
  show V m c main_arg0 _ = m (c.tc.loc main_arg0) y
  rw [V_main_arg0]
  refine congrArg _ (funext fun a => Fin.ext ?_)
  match a with
  | ⟨0, _⟩ => show win0_0.index t (0 : Fin 2) * 32 + 1 * (y 0).val = (y 0).val; omega
  | ⟨1, _⟩ => show win0_0.index t (1 : Fin 2) * 256 + 1 * (y 1).val = (y 1).val; omega

/-- The first layer's weight's one block is the array. -/
theorem iblk1_eq (c : Dev nD) (t : Fin cfg0.N) :
    (iblk m c 1 t : Vec F S1024x256 .f32) = m ((c : Thread nD τ).loc main_arg1) := by
  obtain ⟨-, ⟨e0, e1⟩, -⟩ := idx_in t
  funext y
  unfold iblk
  rw [View.read_apply]
  show V m c main_arg1 _ = m (c.tc.loc main_arg1) y
  rw [V_main_arg1]
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 256 + 1 * (y 1).val = (y 1).val; omega

/-- The second layer's weight's one block is the array. -/
theorem iblk3_eq (c : Dev nD) (t : Fin cfg0.N) :
    (iblk m c 3 t : Vec F S1024x1024 .f32) = m ((c : Thread nD τ).loc main_arg3) := by
  obtain ⟨-, -, -, ⟨e0, e1⟩, -⟩ := idx_in t
  funext y
  unfold iblk
  rw [View.read_apply]
  show V m c main_arg3 _ = m (c.tc.loc main_arg3) y
  rw [V_main_arg3]
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- The first head's weight's one block is the array. -/
theorem iblk5_eq (c : Dev nD) (t : Fin cfg0.N) :
    (iblk m c 5 t : Vec F S1000x1024 .f32) = m ((c : Thread nD τ).loc main_arg5) := by
  obtain ⟨-, -, -, -, -, ⟨e0, e1⟩, -⟩ := idx_in t
  funext y
  unfold iblk
  rw [View.read_apply]
  show V m c main_arg5 _ = m (c.tc.loc main_arg5) y
  rw [V_main_arg5]
  refine congrArg _ (funext fun a => Fin.ext ?_)
  match a with
  | ⟨0, _⟩ => show win0_5.index t (0 : Fin 2) * 1000 + 1 * (y 0).val = (y 0).val; omega
  | ⟨1, _⟩ => show win0_5.index t (1 : Fin 2) * 1024 + 1 * (y 1).val = (y 1).val; omega

/-- The first layer's bias row's one block, read at (0, q), is the bias at q. -/
theorem iblk2_apply (c : Dev nD) (t : Fin cfg0.N) (q : Fin 1024) :
    (iblk m c 2 t : Vec F S1x1024 .f32) (ix2 (0 : Fin 1) q) = (m ((c : Thread nD τ).loc main_arg2) : Vec F S1024 .f32) (ix1 q) := by
  obtain ⟨-, -, ⟨e0, e1⟩, -⟩ := idx_in t
  unfold iblk
  rw [View.read_apply]
  refine Eq.trans ?_ (V_main_v0_apply m c q)
  show V m c main_v0 _ = V m c main_v0 _
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 1024 + 1 * q.val = q.val; omega

/-- The second layer's bias row's one block, read at (0, q), is the bias at q. -/
theorem iblk4_apply (c : Dev nD) (t : Fin cfg0.N) (q : Fin 1024) :
    (iblk m c 4 t : Vec F S1x1024 .f32) (ix2 (0 : Fin 1) q) = (m ((c : Thread nD τ).loc main_arg4) : Vec F S1024 .f32) (ix1 q) := by
  obtain ⟨-, -, -, -, ⟨e0, e1⟩, -⟩ := idx_in t
  unfold iblk
  rw [View.read_apply]
  refine Eq.trans ?_ (V_main_v1_apply m c q)
  show V m c main_v1 _ = V m c main_v1 _
  refine congrArg _ (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 1024 + 1 * q.val = q.val; omega

/-- The first head's bias row's one block, read at (0, q), is the bias at q. -/
theorem iblk6_apply (c : Dev nD) (t : Fin cfg0.N) (q : Fin 1000) :
    (iblk m c 6 t : Vec F S1x1000 .f32) (ix2 (0 : Fin 1) q) = (m ((c : Thread nD τ).loc main_arg6) : Vec F S1000 .f32) (ix1 q) := by
  obtain ⟨-, -, -, -, -, -, ⟨e0, e1⟩, -⟩ := idx_in t
  unfold iblk
  rw [View.read_apply]
  refine Eq.trans ?_ (V_main_v2_apply m c q)
  show V m c main_v2 _ = V m c main_v2 _
  refine congrArg _ (funext fun a => Fin.ext ?_)
  match a with
  | ⟨0, _⟩ => show win0_6.index t (0 : Fin 2) * 1 + 1 * (0 : Fin 1).val = (0 : Fin 1).val; omega
  | ⟨1, _⟩ => show win0_6.index t (1 : Fin 2) * 1000 + 1 * q.val = q.val; omega

/-! ## The blocks of the second head's weight and bias -/

/-- The even block of the second head's weight at point t: row r of the block is row 2560·t + r of the array. -/
theorem iblk7_apply (c : Dev nD) (t : Fin cfg0.N) (r : Fin 1280) (k : Fin 1024) (j : Fin 64000) (hj : j.val = 2560 * t.val + r.val) :
    (iblk m c 7 t : Vec F S1280x1024 .f32) (ix2 r k) = (m ((c : Thread nD τ).loc main_arg7) : Vec F S64000x1024 .f32) (ix2 j k) := by
  obtain ⟨-, -, -, -, -, -, -, ⟨e0, e1⟩, -⟩ := idx_in t
  unfold iblk
  rw [View.read_apply]
  show V m c main_arg7 _ = m (c.tc.loc main_arg7) _
  rw [V_main_arg7]
  refine congrArg _ (funext fun a => Fin.ext ?_)
  match a with
  | ⟨0, _⟩ => show win0_7.index t (0 : Fin 2) * 1280 + 1 * r.val = j.val; omega
  | ⟨1, _⟩ => show win0_7.index t (1 : Fin 2) * 1024 + 1 * k.val = k.val; omega

/-- The odd block at point t: row r of the block is row 2560·t + 1280 + r of the array. -/
theorem iblk8_apply (c : Dev nD) (t : Fin cfg0.N) (r : Fin 1280) (k : Fin 1024) (j : Fin 64000) (hj : j.val = 2560 * t.val + 1280 + r.val) :
    (iblk m c 8 t : Vec F S1280x1024 .f32) (ix2 r k) = (m ((c : Thread nD τ).loc main_arg7) : Vec F S64000x1024 .f32) (ix2 j k) := by
  obtain ⟨-, -, -, -, -, -, -, -, ⟨e0, e1⟩, -⟩ := idx_in t
  unfold iblk
  rw [View.read_apply]
  show V m c main_arg7 _ = m (c.tc.loc main_arg7) _
  rw [V_main_arg7]
  refine congrArg _ (funext fun a => Fin.ext ?_)
  match a with
  | ⟨0, _⟩ => show win0_8.index t (0 : Fin 2) * 1280 + 1 * r.val = j.val; omega
  | ⟨1, _⟩ => show win0_8.index t (1 : Fin 2) * 1024 + 1 * k.val = k.val; omega

/-- The block of the second head's bias row at point t: column q of the block is entry 2560·t + q of the bias. -/
theorem iblk9_apply (c : Dev nD) (t : Fin cfg0.N) (q : Fin 2560) (j : Fin 64000) (hj : j.val = 2560 * t.val + q.val) :
    (iblk m c 9 t : Vec F S1x2560 .f32) (ix2 (0 : Fin 1) q) = (m ((c : Thread nD τ).loc main_arg8) : Vec F S64000 .f32) (ix1 j) := by
  obtain ⟨-, -, -, -, -, -, -, -, -, ⟨e0, e1⟩⟩ := idx_in t
  unfold iblk
  rw [View.read_apply]
  refine Eq.trans ?_ (V_main_v3_apply m c j)
  show V m c main_v3 _ = V m c main_v3 _
  refine congrArg _ (funext fun a => Fin.ext ?_)
  match a with
  | ⟨0, _⟩ => show win0_9.index t (0 : Fin 2) * 1 + 1 * (0 : Fin 1).val = (0 : Fin 1).val; omega
  | ⟨1, _⟩ => show win0_9.index t (1 : Fin 2) * 2560 + 1 * q.val = j.val; omega

end Cert.KernelIdeal.Fr

end
-- ==== Proof.KValue.lean ====
/-
  The two results of the pipelined region, as functions of the launch contents.

  The first grid point leaves the trunk's activation h in the scratch matrix; the second leaves h·Wcᵀ + bc in the first
  result's window, which is written back once, after the last point, and covers its array; every point t leaves the
  block h·Wr[2560t .. 2560t + 2560]ᵀ + br[2560t .. 2560t + 2560] of the second result in the second result's window, as a
  left and a right half of 1280 columns, and the 25 blocks written back tile the array's 64000 columns.
-/
import proofs.«136683_g66365834658321_cont_9to1_m_1147_38_alg».proof.Proof.Frame
import proofs.«136683_g66365834658321_cont_9to1_m_1147_38_alg».proof.Proof.Payload
import proofs.«136683_g66365834658321_cont_9to1_m_1147_38_alg».proof.Proof.BlockReads
import proofs.«136683_g66365834658321_cont_9to1_m_1147_38_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! ## What the body's stores leave, as the payloads of the blocks -/

section Pieces

variable {F : FTy → Type} [FloatOps F]
variable (m : (ℓ : Loc nD τ sig) → Buf (Elt F) ℓ)

theorem hz2 : (![0, 0] : Fin 2 → Nat) = fun _ => 0 := funext fun a => by fin_cases a <;> rfl

/-- The scratch read back is what it was set to. -/
theorem read_scratch (h : (Memref.whole cc0_scratch0 : Memref sig .tc .vmem S32x1024 .f32).IsWhole) (X : Vec F S32x1024 .f32) :
    View.read (Elt F) (View.whole cc0_scratch0) (h.unread X) = X := h.read_unread X

/-- The scratch after the first point: the trunk's payload of that point's five blocks. -/
theorem hval_pay (c : Dev nD) :
    hval m c = k0_pay1 (iblk m c 0 t0) (iblk m c 1 t0) (iblk m c 2 t0) (iblk m c 3 t0) (iblk m c 4 t0) := by
  unfold hval
  rw [View.read_writes_junk_eq_canon]
  unfold runA kernelRunA
  dsimp only
  sl_unfold_words
  rw [View.canon_unit_zero hz2]
  simp only [View.readAt_eq_ld, Memref.IsWhole.read_unread, View.ld_unit_zero (S := S32x256) hz2, View.ld_unit_zero (S := S1024x256) hz2, View.ld_unit_zero (S := S1x1024) hz2, View.ld_unit_zero (S := S1024x1024) hz2]

/-- The first result's buffer after the second point: the first head's payload over the scratch. -/
theorem out10_pay (c : Dev nD) :
    out10 m c = k0_pay2 (hval m c) (iblk m c 5 t1) (iblk m c 6 t1) := by
  unfold out10
  rw [View.read_writes_junk_eq_canon]
  unfold runB kernelRunB
  dsimp only
  sl_unfold_words
  rw [View.canon_unit_zero hz2]
  simp only [View.readAt_eq_ld, Memref.IsWhole.read_unread, read_scratch, View.ld_unit_zero (S := S32x1024) hz2, View.ld_unit_zero (S := S1000x1024) hz2, View.ld_unit_zero (S := S1x1000) hz2]

/-- The left and the right half of a row of 2560 entries. -/
abbrev halfL (b : Vec F S1x2560 .f32) : Vec F S1x1280 .f32 :=
  View.ld b (Rect.unit (s := S1x2560) ![0, 0] S1x1280.size inb_S1x2560_S1x1280_0_0)
abbrev halfR (b : Vec F S1x2560 .f32) : Vec F S1x1280 .f32 :=
  View.ld b (Rect.unit (s := S1x2560) ![0, 1280] S1x1280.size inb_S1x2560_S1x1280_0_1280)

/-- The second result's block from the activation, the two weight blocks and the bias block: the second head over the
    even weight block and the left half of the bias in columns 0 … 1279, over the odd weight block and the right half
    in columns 1280 … 2559. -/
def blk11 (h : Vec F S32x1024 .f32) (wa wb : Vec F S1280x1024 .f32) (b : Vec F S1x2560 .f32) : Vec F S32x2560 .f32 :=
  View.canon [(⟨Rect.unit (s := S32x2560) ![0, 1280] S32x1280.size inb_S32x2560_S32x1280_0_1280, k0_pay4 h wb (halfR b)⟩ : View.Piece (Elt F) S32x2560 .f32),
    ⟨Rect.unit (s := S32x2560) ![0, 0] S32x1280.size inb_S32x2560_S32x1280_0_0, k0_pay3 h wa (halfL b)⟩]

/-- In the left half the block is the even weight block's head. -/
theorem blk11_lo (h : Vec F S32x1024 .f32) (wa wb : Vec F S1280x1024 .f32) (b : Vec F S1x2560 .f32) (p : Fin 32) (q : Fin 2560)
    (hq : q.val < 1280) : blk11 h wa wb b (ix2 p q) = k0_pay3 h wa (halfL b) (ix2 p (⟨q.val, hq⟩ : Fin 1280)) := by
  unfold blk11
  rw [View.canon_cons_of_not_mem _ _ (by
    rw [Rect.mem_set_unit]; intro hh
    have h1 := (hh 1).1
    have h1' : (1280 : Nat) ≤ q.val := h1
    omega)]
  have e : (ix2 p q : S32x2560.Idx) = (Rect.unit (s := S32x2560) ![0, 0] S32x1280.size inb_S32x2560_S32x1280_0_0).emb (ix2 p (⟨q.val, hq⟩ : Fin 1280)) :=
    funext fun a => Fin.ext (by
      match a with
      | ⟨0, _⟩ => show p.val = 0 + 1 * p.val; omega
      | ⟨1, _⟩ => show q.val = 0 + 1 * q.val; omega)
  rw [e]
  exact View.canon_cons_emb _ _ _ _

/-- In the right half it is the odd weight block's head. -/
theorem blk11_hi (h : Vec F S32x1024 .f32) (wa wb : Vec F S1280x1024 .f32) (b : Vec F S1x2560 .f32) (p : Fin 32) (q : Fin 2560)
    (hq : 1280 ≤ q.val) : blk11 h wa wb b (ix2 p q) = k0_pay4 h wb (halfR b) (ix2 p (⟨q.val - 1280, by have := q.isLt; omega⟩ : Fin 1280)) := by
  unfold blk11
  have e : (ix2 p q : S32x2560.Idx) = (Rect.unit (s := S32x2560) ![0, 1280] S32x1280.size inb_S32x2560_S32x1280_0_1280).emb (ix2 p (⟨q.val - 1280, by have := q.isLt; omega⟩ : Fin 1280)) :=
    funext fun a => Fin.ext (by
      match a with
      | ⟨0, _⟩ => show p.val = 0 + 1 * p.val; omega
      | ⟨1, _⟩ => show q.val = 1280 + 1 * (q.val - 1280); omega)
  rw [e]
  exact View.canon_cons_emb _ _ _ _

/-- The second result's buffer after point t: the block of the activation and that point's weight and bias blocks. -/
theorem out11_eq (c : Dev nD) (t : Fin cfg0.N) :
    out11 m c t = blk11 (hval m c) (iblk m c 7 t) (iblk m c 8 t) (iblk m c 9 t) := by
  by_cases h0 : t.val = 0
  · obtain rfl : t = t0 := Fin.ext h0
    rw [out11_A m c t0 h0, View.read_writes_junk_eq_canon, hval_pay]
    unfold runA kernelRunA blk11
    dsimp only
    sl_unfold_words
    simp only [View.readAt_eq_ld, Memref.IsWhole.read_unread, read_scratch, View.ld_unit_zero (S := S32x256) hz2, View.ld_unit_zero (S := S1024x256) hz2, View.ld_unit_zero (S := S1x1024) hz2, View.ld_unit_zero (S := S1024x1024) hz2, View.ld_unit_zero (S := S1280x1024) hz2, View.ld_unit_zero (S := S32x1024) hz2, View.readCov_unit_zero (S := S32x1024) _ hz2]
  · by_cases h1 : t.val = 1
    · rw [out11_B m c t h1, View.read_writes_junk_eq_canon]
      unfold runB kernelRunB blk11
      dsimp only
      sl_unfold_words
      simp only [View.readAt_eq_ld, Memref.IsWhole.read_unread, read_scratch, View.ld_unit_zero (S := S1280x1024) hz2, View.ld_unit_zero (S := S32x1024) hz2]
    · rw [out11_C m c t h0 h1, View.read_writes_junk_eq_canon]
      unfold runC kernelRunC blk11
      dsimp only
      sl_unfold_words
      simp only [View.readAt_eq_ld, Memref.IsWhole.read_unread, read_scratch, View.ld_unit_zero (S := S1280x1024) hz2, View.ld_unit_zero (S := S32x1024) hz2]

end Pieces

/-! ## Over the extended reals: the buffers as the specification of the launch contents -/

section Value

variable (m : (ℓ : Loc nD τ sig) → Buf (Elt Ideal) ℓ)

/-- The trunk's activation of the launch contents. -/
def T (c : Dev nD) : Fin 32 → Fin 1024 → EReal :=
  Cert.Mlp.trunk (m ((c : Thread nD τ).loc main_arg0)) (m ((c : Thread nD τ).loc main_arg1))
    (fun q => (m ((c : Thread nD τ).loc main_arg2) : Vec Ideal S1024 .f32) (ix1 q))
    (m ((c : Thread nD τ).loc main_arg3))
    (fun q => (m ((c : Thread nD τ).loc main_arg4) : Vec Ideal S1024 .f32) (ix1 q))

/-- The scratch holds the trunk's activation. -/
theorem hval_apply (c : Dev nD) (p : Fin 32) (q : Fin 1024) : hval m c (ix2 p q) = T m c p q := by
  rw [hval_pay]
  refine (Pay.pay1_apply _ _ _ _ _ p q).trans ?_
  have e0 : (iblk m c 0 t0 : Vec Ideal S32x256 .f32) = m ((c : Thread nD τ).loc main_arg0) := iblk0_eq m c t0
  have e1 : (iblk m c 1 t0 : Vec Ideal S1024x256 .f32) = m ((c : Thread nD τ).loc main_arg1) := iblk1_eq m c t0
  have e3 : (iblk m c 3 t0 : Vec Ideal S1024x1024 .f32) = m ((c : Thread nD τ).loc main_arg3) := iblk3_eq m c t0
  have e2 : (fun q : Fin 1024 => (iblk m c 2 t0 : Vec Ideal S1x1024 .f32) (ix2 0 q))
      = fun q => (m ((c : Thread nD τ).loc main_arg2) : Vec Ideal S1024 .f32) (ix1 q) := funext fun q => iblk2_apply m c t0 q
  have e4 : (fun q : Fin 1024 => (iblk m c 4 t0 : Vec Ideal S1x1024 .f32) (ix2 0 q))
      = fun q => (m ((c : Thread nD τ).loc main_arg4) : Vec Ideal S1024 .f32) (ix1 q) := funext fun q => iblk4_apply m c t0 q
  unfold T
  rw [e0, e1, e3, e2, e4]

/-- The first result's buffer holds the first head of the activation. -/
theorem out10_apply (c : Dev nD) (p : Fin 32) (q : Fin 1000) :
    out10 m c (ix2 p q) = Cert.Mlp.head (T m c) (m ((c : Thread nD τ).loc main_arg5))
      (fun q => (m ((c : Thread nD τ).loc main_arg6) : Vec Ideal S1000 .f32) (ix1 q)) p q := by
  rw [out10_pay]
  refine (Pay.pay2_apply _ _ _ p q).trans ?_
  have eh : (fun (p : Fin 32) (k : Fin 1024) => hval m c (ix2 p k)) = T m c := funext fun p => funext fun k => hval_apply m c p k
  have e5 : (iblk m c 5 t1 : Vec Ideal S1000x1024 .f32) = m ((c : Thread nD τ).loc main_arg5) := iblk5_eq m c t1
  have e6 : (fun q : Fin 1000 => (iblk m c 6 t1 : Vec Ideal S1x1000 .f32) (ix2 0 q))
      = fun q => (m ((c : Thread nD τ).loc main_arg6) : Vec Ideal S1000 .f32) (ix1 q) := funext fun q => iblk6_apply m c t1 q
  rw [eh, e5, e6]

/-- The second result's buffer after point t holds, in column q, logit 2560·t + q of the second head. -/
theorem out11_apply (c : Dev nD) (t : Fin cfg0.N) (p : Fin 32) (q : Fin 2560) (j : Fin 64000) (hj : j.val = 2560 * t.val + q.val) :
    out11 m c t (ix2 p q) = Cert.Mlp.head (T m c) (m ((c : Thread nD τ).loc main_arg7))
      (fun q => (m ((c : Thread nD τ).loc main_arg8) : Vec Ideal S64000 .f32) (ix1 q)) p j := by
  rw [out11_eq]
  by_cases hq : q.val < 1280
  · rw [blk11_lo _ _ _ _ p q hq]
    refine (Pay.pay3_apply _ _ _ p ⟨q.val, hq⟩).trans ?_
    unfold Cert.Mlp.head
    refine congrArg₂ (· + ·) (Finset.sum_congr rfl fun k _ => congrArg₂ (· * ·) (hval_apply m c p k) (iblk7_apply m c t ⟨q.val, hq⟩ k j hj)) ?_
    refine Eq.trans ?_ (iblk9_apply m c t q j hj)
    show (iblk m c 9 t : Vec Ideal S1x2560 .f32) _ = (iblk m c 9 t : Vec Ideal S1x2560 .f32) _
    refine congrArg _ (funext fun a => Fin.ext ?_)
    match a with
    | ⟨0, _⟩ => show 0 + 1 * (0 : Fin 1).val = (0 : Fin 1).val; omega
    | ⟨1, _⟩ => show 0 + 1 * q.val = q.val; omega
  · have hq' : 1280 ≤ q.val := Nat.le_of_not_lt hq
    have hlt : q.val - 1280 < 1280 := by have := q.isLt; omega
    rw [blk11_hi _ _ _ _ p q hq']
    refine (Pay.pay4_apply _ _ _ p ⟨q.val - 1280, hlt⟩).trans ?_
    unfold Cert.Mlp.head
    refine congrArg₂ (· + ·) (Finset.sum_congr rfl fun k _ => congrArg₂ (· * ·) (hval_apply m c p k) (iblk8_apply m c t ⟨q.val - 1280, hlt⟩ k j (by show j.val = 2560 * t.val + 1280 + (q.val - 1280); omega))) ?_
    refine Eq.trans ?_ (iblk9_apply m c t q j hj)
    show (iblk m c 9 t : Vec Ideal S1x2560 .f32) _ = (iblk m c 9 t : Vec Ideal S1x2560 .f32) _
    refine congrArg _ (funext fun a => Fin.ext ?_)
    match a with
    | ⟨0, _⟩ => show 0 + 1 * (0 : Fin 1).val = (0 : Fin 1).val; omega
    | ⟨1, _⟩ => show 1280 + 1 * (q.val - 1280) = q.val; omega

end Value

/-! ## The two arrays after the run -/

section Final

variable (m : (ℓ : Loc nD τ sig) → Buf (Elt Ideal) ℓ)

/-- The block indices of the two results' windows: the first stays at block (0, 0), the second is at column block t. -/
theorem idx_out : ∀ t : Fin cfg0.N,
    (win0_10.index t (0 : Fin 2) = 0 ∧ win0_10.index t (1 : Fin 2) = 0)
    ∧ (win0_11.index t (0 : Fin 2) = 0 ∧ win0_11.index t (1 : Fin 2) = t.val) :=
  (by decide +kernel : ∀ t : Fin grid0.N, _)

/-- The first result of the launch contents. -/
abbrev G10 (c : Dev nD) : Vec Ideal S32x1000 .f32 :=
  Cert.Mlp.cacheOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- The second result of the launch contents, as 64000 logits per state. -/
abbrev G11 (c : Dev nD) : Vec Ideal S32x64000 .f32 :=
  Cert.Mlp.recOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))

/-- What the write-back of the first result's window writes is its block of the first result. -/
theorem flushed10_eq (c : Dev nD) (t : Fin cfg0.N) (hf : (cfg0.win 10).flush t = true) :
    (dats m 0 c).flushed 10 t = ((cfg0.win 10).blk t).view.read (Elt Ideal) (G10 m c) := by
  obtain ⟨⟨e0, e1⟩, -⟩ := idx_out t
  show (cfg0.win 10).cut (grid0.coords t) ((dats m 0 c).after 10 t) = _
  rw [after0_10]
  refine funext fun (y : S32x1000.Idx) => ?_
  rw [View.read_apply]
  obtain ⟨p, q, rfl⟩ : ∃ (p : Fin 32) (q : Fin 1000), y = ix2 p q := ⟨y 0, y 1, eq_ix2 y⟩
  have e : ((cfg0.win 10).blk t).view.emb (ix2 p q) = (ix2 p q : S32x1000.Idx) := funext fun a => Fin.ext (by
    match a with
    | ⟨0, _⟩ => show win0_10.index t (0 : Fin 2) * 32 + 1 * p.val = p.val; omega
    | ⟨1, _⟩ => show win0_10.index t (1 : Fin 2) * 1000 + 1 * q.val = q.val; omega)
  show out10 m c (ix2 p q) = G10 m c (((cfg0.win 10).blk t).view.emb (ix2 p q))
  rw [e]
  exact out10_apply m c p q

/-- The one block written back, after the last point, is the whole array. -/
theorem cover10 (c : Dev nD) (i : ((cfg0.win 10).arr.view.loc (c.tc : Thread nD τ)).2.ty.Idx) :
    ∃ t : Fin cfg0.N, (cfg0.win 10).flush t = true ∧ i ∈ ((cfg0.win 10).blk t).view.set := by
  have h24 : 24 < cfg0.N := by decide
  obtain ⟨⟨e0, e1⟩, -⟩ := idx_out ⟨24, h24⟩
  refine ⟨⟨24, h24⟩, (flush10 _).mpr rfl, ?_⟩
  show i ∈ ((View.whole main_v4_0).slice (win0_10.rect ⟨24, h24⟩)).set
  rw [View.set_slice_whole, Rect.mem_set_unit]
  intro a
  have h0 : (i 0).val < 32 := (i 0).isLt
  have h1 : (i 1).val < 1000 := (i 1).isLt
  match a with
  | ⟨0, _⟩ => show win0_10.index ⟨24, h24⟩ (0 : Fin 2) * 32 ≤ (i 0).val ∧ (i 0).val < win0_10.index ⟨24, h24⟩ (0 : Fin 2) * 32 + 32; omega
  | ⟨1, _⟩ => show win0_10.index ⟨24, h24⟩ (1 : Fin 2) * 1000 ≤ (i 1).val ∧ (i 1).val < win0_10.index ⟨24, h24⟩ (1 : Fin 2) * 1000 + 1000; omega

/-- The first result's array after the run. -/
theorem final10 (c : Dev nD) : (Fr.dats m 0 c).arrAt 10 cfg0.N = Cert.Mlp.cacheOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (dats m 0 c).arrAt_eq_of_cover 10 (G10 m c) (flushed10_eq m c) (cover10 c)

/-- What the write-back at point t of the second result's window writes is block t of the second result. -/
theorem flushed11_eq (c : Dev nD) (t : Fin cfg0.N) (hf : (cfg0.win 11).flush t = true) :
    (dats m 0 c).flushed 11 t = ((cfg0.win 11).blk t).view.read (Elt Ideal) (G11 m c) := by
  obtain ⟨-, ⟨e0, e1⟩⟩ := idx_out t
  show (cfg0.win 11).cut (grid0.coords t) ((dats m 0 c).after 11 t) = _
  rw [after0_11]
  refine funext fun (y : S32x2560.Idx) => ?_
  rw [View.read_apply]
  obtain ⟨p, q, rfl⟩ : ∃ (p : Fin 32) (q : Fin 2560), y = ix2 p q := ⟨y 0, y 1, eq_ix2 y⟩
  have hN : t.val < 25 := lt_of_lt_of_eq t.isLt N_0
  have hj : 2560 * t.val + q.val < 64000 := by have := q.isLt; omega
  have e : ((cfg0.win 11).blk t).view.emb (ix2 p q) = (ix2 p (⟨2560 * t.val + q.val, hj⟩ : Fin 64000) : S32x64000.Idx) := funext fun a => Fin.ext (by
    match a with
    | ⟨0, _⟩ => show win0_11.index t (0 : Fin 2) * 32 + 1 * p.val = p.val; omega
    | ⟨1, _⟩ => show win0_11.index t (1 : Fin 2) * 2560 + 1 * q.val = 2560 * t.val + q.val; omega)
  show out11 m c t (ix2 p q) = G11 m c (((cfg0.win 11).blk t).view.emb (ix2 p q))
  rw [e]
  exact out11_apply m c t p q ⟨2560 * t.val + q.val, hj⟩ rfl

/-- Column j of the array lies in the block of point j / 2560. -/
theorem cover11 (c : Dev nD) (i : ((cfg0.win 11).arr.view.loc (c.tc : Thread nD τ)).2.ty.Idx) :
    ∃ t : Fin cfg0.N, (cfg0.win 11).flush t = true ∧ i ∈ ((cfg0.win 11).blk t).view.set := by
  have h0 : (i 0).val < 32 := (i 0).isLt
  have h1 : (i 1).val < 64000 := (i 1).isLt
  have hN : cfg0.N = 25 := N_0
  have ht : (i 1).val / 2560 < cfg0.N := by rw [hN]; omega
  obtain ⟨-, ⟨e0, e1⟩⟩ := idx_out ⟨(i 1).val / 2560, ht⟩
  refine ⟨⟨(i 1).val / 2560, ht⟩, flush0_11 _, ?_⟩
  show i ∈ ((View.whole main_v4_1).slice (win0_11.rect ⟨(i 1).val / 2560, ht⟩)).set
  rw [View.set_slice_whole, Rect.mem_set_unit]
  intro a
  match a with
  | ⟨0, _⟩ => show win0_11.index ⟨(i 1).val / 2560, ht⟩ (0 : Fin 2) * 32 ≤ (i 0).val ∧ (i 0).val < win0_11.index ⟨(i 1).val / 2560, ht⟩ (0 : Fin 2) * 32 + 32; omega
  | ⟨1, _⟩ =>
    show win0_11.index ⟨(i 1).val / 2560, ht⟩ (1 : Fin 2) * 2560 ≤ (i 1).val ∧ (i 1).val < win0_11.index ⟨(i 1).val / 2560, ht⟩ (1 : Fin 2) * 2560 + 2560
    have e1' : win0_11.index ⟨(i 1).val / 2560, ht⟩ (1 : Fin 2) = (i 1).val / 2560 := e1
    omega

/-- The second result's array after the run. -/
theorem final11 (c : Dev nD) : (Fr.dats m 0 c).arrAt 11 cfg0.N = Cert.Mlp.recOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) :=
  (dats m 0 c).arrAt_eq_of_cover 11 (G11 m c) (flushed11_eq m c) (cover11 c)

end Final

end Cert.KernelIdeal.KVal

end
-- ==== Proof.lean ====
/-
  A two-layer rectified MLP trunk with two linear heads, as one pipelined kernel against its array reference.

  The kernel walks a grid of 25 points.  At the first point it computes the trunk's activation
  h = relu(relu(s·W1ᵀ + b1)·W2ᵀ + b2) and keeps it in a scratch matrix that outlives the point; at the second point it
  computes the first head h·Wcᵀ + bc into a result block that is written back once, after the last point; and at every
  point t it computes the t-th block of 2560 columns of the second head h·Wrᵀ + br, the 2560 rows of Wr reaching it as
  two consecutive blocks of 1280 rows through two windows on the one array.  The reference computes the same two
  heads with whole-array operations.  Over the extended reals a matrix product is a finite sum of products whichever
  way it is tiled, so the two programs agree index by index; no law is used that fails at the infinities, and the
  finiteness precondition is never opened.

  The three frames: each program runs to its end and leaves its nine argument arrays as they were (the kernel at both
  readings by one launch of its pipeline over proof data that name what every buffer holds after every point, the
  reference by its run); the idealization rewrote nothing; and the two idealized programs end with equal results.
-/
import proofs.«136683_g66365834658321_cont_9to1_m_1147_38_alg».proof.Defs
import proofs.«136683_g66365834658321_cont_9to1_m_1147_38_alg».proof.Proof.Gen.Kernel
import proofs.«136683_g66365834658321_cont_9to1_m_1147_38_alg».proof.Proof.Gen.KernelIdeal
import proofs.«136683_g66365834658321_cont_9to1_m_1147_38_alg».proof.Proof.Gen.ReferenceIdeal
import proofs.«136683_g66365834658321_cont_9to1_m_1147_38_alg».proof.Proof.Gen.Pre_finite_inputs
import proofs.«136683_g66365834658321_cont_9to1_m_1147_38_alg».proof.Proof.Gen.ReferenceIdeal.Run
import proofs.«136683_g66365834658321_cont_9to1_m_1147_38_alg».proof.Proof.Gen.ReferenceIdeal.Read
import proofs.«136683_g66365834658321_cont_9to1_m_1147_38_alg».proof.Proof.Spec
import proofs.«136683_g66365834658321_cont_9to1_m_1147_38_alg».proof.Proof.RefValue
import proofs.«136683_g66365834658321_cont_9to1_m_1147_38_alg».proof.Proof.Kept
import proofs.«136683_g66365834658321_cont_9to1_m_1147_38_alg».proof.Proof.Bits.Kept
import proofs.«136683_g66365834658321_cont_9to1_m_1147_38_alg».proof.Proof.KValue

noncomputable section

open Idealize.ShloMosaic Idealize.ShloMosaic.TcCoe Idealize.SL.Sem

namespace Cert.Proof

/-- The word-level program runs to its end and leaves its arguments unchanged. -/
theorem frame_k : Cert.frame_Kernel := fun m ρ _ => Cert.Kernel.Fr.frame m ρ

/-- So does the program read over the extended reals: the same run, at the other instance. -/
theorem frame_ki : Cert.frame_KernelIdeal := fun m ρ _ => Cert.KernelIdeal.Fr.frame m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Over the extended reals both programs end with the 1000 logits per state h·Wcᵀ + bc and with the 64000 logits per
    state h·Wrᵀ + br read as 64 × 1000, where h is the twice-rectified trunk activation of the arguments: the kernel
    by its run and the contents of its two result arrays, the reference by its run read operation by operation. -/
theorem algebraic : Cert.algebraic_KernelIdeal_ReferenceIdeal := by
  intro m ρ m' ρ' _ hagree
  refine ⟨fun c => Cert.Mlp.cacheOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => shapeCast Cert.KernelIdeal.S32x64x1000 (Cert.Mlp.recOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) Cert.KernelIdeal.Facts₀.shapeCasts_S32x64000_S32x64x1000, ?_, ?_⟩
  · refine (θ_run Cert.KernelIdeal.defs _ _).mono (fun r h c => ?_) (Cert.KernelIdeal.Fr.run_main (F := Ideal) m ρ)
    refine ⟨((h c).1 10).trans (Cert.KernelIdeal.KVal.final10 m c), ?_, Cert.KernelIdeal.Fr.kept_of_post m h c⟩
    refine ((h c).2.1).trans ?_
    rw [Cert.KernelIdeal.KVal.final11 m c]
  · refine (θ_run Cert.ReferenceIdeal.defs _ _).mono (fun r h c => ?_) (Cert.ReferenceIdeal.Value.run (F := Ideal) m' ρ')
    obtain ⟨h16, h22, hk⟩ := h c
    obtain ⟨e0, e1, e2, e3, e4, e5, e6, e7, e8⟩ := hagree c
    refine ⟨?_, ?_, hk⟩
    · rw [h16, Cert.ReferenceIdeal.Read.val_main_v16_eq, Cert.ReferenceIdeal.RefValue.cache_eq, e0, e1, e2, e3, e4, e5, e6]
    · rw [h22, Cert.ReferenceIdeal.Read.val_main_v22_eq]
      unfold Cert.ReferenceIdeal.Read.val_main_v22
      rw [Cert.ReferenceIdeal.RefValue.rec_eq, e0, e1, e2, e3, e4, e7, e8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
